-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part5 {F : FTy → Type} [FloatOps F] (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  main_v88

def fn_part4 {F : FTy → Type} [FloatOps F] (main_arg16 : FVec F S64 .f32) (main_arg17 : FVec F S64 .f32) (main_arg18 : FVec F S64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg17
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_v83 main_v84 main_cst_32

def fn_part3 {F : FTy → Type} [FloatOps F] (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg16 main_arg17 main_arg18 main_arg19 main_v63 main_v67

def fn_part2 {F : FTy → Type} [FloatOps F] (main_arg9 : FVec F S64x128 .f32) (main_arg10 : FVec F S64x128 .f32) (main_arg11 : FVec F S128 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_v33 : IVec S_ 1) : IVec S_ 1 :=
  let main_v34 : FVec F S64x128 .f32 := Host.absf main_arg9
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64x128 .f32 := Host.absf main_arg10
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_v48 main_v49 main_v50

def fn_part1 {F : FTy → Type} [FloatOps F] (main_arg6 : FVec F S64x64 .f32) (main_arg7 : FVec F S64x64 .f32) (main_arg8 : FVec F S64 .f32) (main_arg9 : FVec F S64x128 .f32) (main_arg10 : FVec F S64x128 .f32) (main_arg11 : FVec F S128 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S50000x128 .f32) (main_arg1 : IVec S2x625000 32) (main_arg2 : IVec S50000 32) (main_arg3 : FVec F S128x64 .f32) (main_arg4 : FVec F S128x64 .f32) (main_arg5 : FVec F S64 .f32) (main_arg6 : FVec F S64x64 .f32) (main_arg7 : FVec F S64x64 .f32) (main_arg8 : FVec F S64 .f32) (main_arg9 : FVec F S64x128 .f32) (main_arg10 : FVec F S64x128 .f32) (main_arg11 : FVec F S128 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S64 .f32) (main_arg19 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S50000x128 : Shape := ⟨2, ![50000, 128]⟩
abbrev S2x625000 : Shape := ⟨2, ![2, 625000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S625000x64 : Shape := ⟨2, ![625000, 64]⟩
abbrev S1x128 : Shape := ⟨2, ![1, 128]⟩
abbrev S5000x1 : Shape := ⟨2, ![5000, 1]⟩

abbrev nBuf : Space → Nat
  | .hbm => 115
  | .vmem => 42
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S50000, .i32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x128, .f32⟩
  | .hbm, ⟨10, _⟩ => ⟨S64x128, .f32⟩
  | .hbm, ⟨11, _⟩ => ⟨S128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S1x625000, .i32⟩
  | .hbm, ⟨21, _⟩ => ⟨S625000, .i32⟩
  | .hbm, ⟨22, _⟩ => ⟨S1x625000, .i32⟩
  | .hbm, ⟨23, _⟩ => ⟨S625000, .i32⟩
  | .hbm, ⟨24, _⟩ => ⟨S_, .i32⟩
  | .hbm, ⟨25, _⟩ => ⟨S625000, .i32⟩
  | .hbm, ⟨26, _⟩ => ⟨S625000, .i1⟩
  | .hbm, ⟨27, _⟩ => ⟨S_, .i32⟩
  | .hbm, ⟨28, _⟩ => ⟨S625000, .i32⟩
  | .hbm, ⟨29, _⟩ => ⟨S625000, .i32⟩
  | .hbm, ⟨30, _⟩ => ⟨S625000, .i32⟩
  | .hbm, ⟨31, _⟩ => ⟨S625000x1, .i32⟩
  | .hbm, ⟨32, _⟩ => ⟨S625000x128, .f32⟩
  | .hbm, ⟨33, _⟩ => ⟨S_, .f32⟩
  | .hbm, ⟨34, _⟩ => ⟨S50000x128, .f32⟩
  | .hbm, ⟨35, _⟩ => ⟨S625000x1, .i32⟩
  | .hbm, ⟨36, _⟩ => ⟨S50000x128, .f32⟩
  | .hbm, ⟨37, _⟩ => ⟨S_, .f32⟩
  | .hbm, ⟨38, _⟩ => ⟨S625000, .f32⟩
  | .hbm, ⟨39, _⟩ => ⟨S_, .f32⟩
  | .hbm, ⟨40, _⟩ => ⟨S50000, .f32⟩
  | .hbm, ⟨41, _⟩ => ⟨S625000x1, .i32⟩
  | .hbm, ⟨42, _⟩ => ⟨S50000, .f32⟩
  | .hbm, ⟨43, _⟩ => ⟨S_, .f32⟩
  | .hbm, ⟨44, _⟩ => ⟨S50000, .f32⟩
  | .hbm, ⟨45, _⟩ => ⟨S50000, .f32⟩
  | .hbm, ⟨46, _⟩ => ⟨S50000x1, .f32⟩
  | .hbm, ⟨47, _⟩ => ⟨S50000x128, .f32⟩
  | .hbm, ⟨48, _⟩ => ⟨S50000x128, .f32⟩
  | .hbm, ⟨49, _⟩ => ⟨S1x64, .f32⟩
  | .hbm, ⟨50, _⟩ => ⟨S1x64, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S50000x64, .f32⟩
  | .hbm, ⟨55, _⟩ => ⟨S_, .i32⟩
  | .hbm, ⟨56, _⟩ => ⟨S625000, .i32⟩
  | .hbm, ⟨57, _⟩ => ⟨S625000, .i1⟩
  | .hbm, ⟨58, _⟩ => ⟨S_, .i32⟩
  | .hbm, ⟨59, _⟩ => ⟨S625000, .i32⟩
  | .hbm, ⟨60, _⟩ => ⟨S625000, .i32⟩
  | .hbm, ⟨61, _⟩ => ⟨S625000, .i32⟩
  | .hbm, ⟨62, _⟩ => ⟨S625000x1, .i32⟩
  | .hbm, ⟨63, _⟩ => ⟨S625000x64, .f32⟩
  | .hbm, ⟨64, _⟩ => ⟨S_, .f32⟩
  | .hbm, ⟨65, _⟩ => ⟨S50000x64, .f32⟩
  | .hbm, ⟨66, _⟩ => ⟨S625000x1, .i32⟩
  | .hbm, ⟨67, _⟩ => ⟨S50000x64, .f32⟩
  | .hbm, ⟨68, _⟩ => ⟨S_, .f32⟩
  | .hbm, ⟨69, _⟩ => ⟨S625000, .f32⟩
  | .hbm, ⟨70, _⟩ => ⟨S_, .f32⟩
  | .hbm, ⟨71, _⟩ => ⟨S50000, .f32⟩
  | .hbm, ⟨72, _⟩ => ⟨S625000x1, .i32⟩
  | .hbm, ⟨73, _⟩ => ⟨S50000, .f32⟩
  | .hbm, ⟨74, _⟩ => ⟨S_, .f32⟩
  | .hbm, ⟨75, _⟩ => ⟨S50000, .f32⟩
  | .hbm, ⟨76, _⟩ => ⟨S50000, .f32⟩
  | .hbm, ⟨77, _⟩ => ⟨S50000x1, .f32⟩
  | .hbm, ⟨78, _⟩ => ⟨S50000x64, .f32⟩
  | .hbm, ⟨79, _⟩ => ⟨S50000x64, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S50000x64, .f32⟩
  | .hbm, ⟨86, _⟩ => ⟨S_, .i32⟩
  | .hbm, ⟨87, _⟩ => ⟨S625000, .i32⟩
  | .hbm, ⟨88, _⟩ => ⟨S625000, .i1⟩
  | .hbm, ⟨89, _⟩ => ⟨S_, .i32⟩
  | .hbm, ⟨90, _⟩ => ⟨S625000, .i32⟩
  | .hbm, ⟨91, _⟩ => ⟨S625000, .i32⟩
  | .hbm, ⟨92, _⟩ => ⟨S625000, .i32⟩
  | .hbm, ⟨93, _⟩ => ⟨S625000x1, .i32⟩
  | .hbm, ⟨94, _⟩ => ⟨S625000x64, .f32⟩
  | .hbm, ⟨95, _⟩ => ⟨S_, .f32⟩
  | .hbm, ⟨96, _⟩ => ⟨S50000x64, .f32⟩
  | .hbm, ⟨97, _⟩ => ⟨S625000x1, .i32⟩
  | .hbm, ⟨98, _⟩ => ⟨S50000x64, .f32⟩
  | .hbm, ⟨99, _⟩ => ⟨S_, .f32⟩
  | .hbm, ⟨100, _⟩ => ⟨S625000, .f32⟩
  | .hbm, ⟨101, _⟩ => ⟨S_, .f32⟩
  | .hbm, ⟨102, _⟩ => ⟨S50000, .f32⟩
  | .hbm, ⟨103, _⟩ => ⟨S625000x1, .i32⟩
  | .hbm, ⟨104, _⟩ => ⟨S50000, .f32⟩
  | .hbm, ⟨105, _⟩ => ⟨S_, .f32⟩
  | .hbm, ⟨106, _⟩ => ⟨S50000, .f32⟩
  | .hbm, ⟨107, _⟩ => ⟨S50000, .f32⟩
  | .hbm, ⟨108, _⟩ => ⟨S50000x1, .f32⟩
  | .hbm, ⟨109, _⟩ => ⟨S50000x64, .f32⟩
  | .hbm, ⟨110, _⟩ => ⟨S50000x64, .f32⟩
  | .hbm, ⟨111, _⟩ => ⟨S1x128, .f32⟩
  | .hbm, ⟨112, _⟩ => ⟨S50000x128, .f32⟩
  | .hbm, ⟨113, _⟩ => ⟨S50000x1, .i32⟩
  | .hbm, ⟨114, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x128, .f32⟩
  | .local _ .vmem, ⟨31, _⟩ => ⟨S64x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x1, .i32⟩
  | .local _ .vmem, ⟨38, _⟩ => ⟨S5000x1, .i32⟩
  | .local _ .vmem, ⟨39, _⟩ => ⟨S64x128, .f32⟩
  | .local _ .vmem, ⟨40, _⟩ => ⟨S64x128, .f32⟩
  | .local _ .vmem, ⟨41, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_c_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_7 : Ref sig .tc := ⟨.hbm, 68, rfl⟩
abbrev main_v39 : Ref sig .tc := ⟨.hbm, 69, rfl⟩
abbrev main_cst_8 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_9 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_10 : Ref sig .tc := ⟨.hbm, 86, rfl⟩
abbrev main_v54 : Ref sig .tc := ⟨.hbm, 87, rfl⟩
abbrev main_v55 : Ref sig .tc := ⟨.hbm, 88, rfl⟩
abbrev main_c_11 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_cst_14 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_15 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_scratch0 : Ref sig .tc := ⟨.vmem, 40, rfl⟩
abbrev cc3_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34
abbrev cc3_sem0_0 : DmaSem sig := 35
abbrev cc3_sem0_1 : DmaSem sig := 36
abbrev cc3_sem1_0 : DmaSem sig := 37
abbrev cc3_sem1_1 : DmaSem sig := 38
abbrev cc3_sem2_0 : DmaSem sig := 39

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S128_S1x128 : S128.ShapeCasts S1x128
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S50000_S50000x1 : S50000.ShapeCasts S50000x1
  shapeCasts_S64x128_S64x128 : S64x128.ShapeCasts S64x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S1x64_d1_w32 : S1x64.Iotas .tc 32 [1]
  broadcasts_S5000x1_S5000x64 : S5000x1.Broadcasts S5000x64
  natLt_1_32 : 1 < 32
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S5000x128_S128x64_S5000x64_1_0_0_1_n_n_wf : DotDims.WF S5000x128 S128x64 S5000x64 [1] [0] [0] [1] [] []
  gather_S50000x64_S625000x1_S625000x64_1_0_n_n_0_1_164_wf : GatherDims.WF S50000x64 S625000x1 S625000x64 [1] [0] [] [0] [] 1 ![1, 64]
  scatter_S50000x64_S625000x1_S625000x64_1_0_0_1_wf : ScatterDims.WF S50000x64 S625000x1 S625000x64 [1] [0] [0] 1
  dot_S5000x64_S64x64_S5000x64_1_0_0_1_n_n_wf : DotDims.WF S5000x64 S64x64 S5000x64 [1] [0] [0] [1] [] []
  dot_S5000x64_S64x128_S5000x128_1_0_0_1_n_n_wf : DotDims.WF S5000x64 S64x128 S5000x128 [1] [0] [0] [1] [] []
  dot_S5000x64_S5000x128_S64x128_0_0_1_1_n_n_wf : DotDims.WF S5000x64 S5000x128 S64x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S50000x64.size a
  hwx0_9 : ∀ i : grid0.Coords, EltTy.bits .f32 = 32 ∨ (Rect.block (s := S50000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S50000x64.size a
  hwx1_9 : ∀ i : grid1.Coords, EltTy.bits .f32 = 32 ∨ (Rect.block (s := S50000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .i32 = 32 ∨ (Rect.block (s := S50000x1) S5000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x128.size a ≤ S64x128.size a
  hwx3_2 : ∀ i : grid3.Coords, EltTy.bits .f32 = 32 ∨ (Rect.block (s := S64x128) S64x128.size (cc3_transform_2 i) (hinb3_2 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S625000x1_S625000x64_1_0_n_n_0_1_164 : GatherDims S50000x64 S625000x1 S625000x64 where
  offsetDims := [1]
  collapsedSliceDims := [0]
  operandBatchingDims := []
  startIndicesBatchingDims := []
  startIndexMap := [0]
  indexVectorDim := 1
  sliceSizes := ![1, 64]
  wf := gather_S50000x64_S625000x1_S625000x64_1_0_n_n_0_1_164_wf
def scatter_S50000x64_S625000x1_S625000x64_1_0_0_1 : ScatterDims S50000x64 S625000x1 S625000x64 where
  updateWindowDims := [1]
  insertedWindowDims := [0]
  scatterDimsToOperandDims := [0]
  indexVectorDim := 1
  wf := scatter_S50000x64_S625000x1_S625000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v52) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v53) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v72) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v73) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v74) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v74) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v76) S64x128.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x625000 : Shape := ⟨2, ![2, 625000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x128 : Shape := ⟨2, ![64, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000x1 : Shape := ⟨2, ![50000, 1]⟩
abbrev S50000x64 : Shape := ⟨2, ![50000, 64]⟩
abbrev S1x64 : Shape := ⟨2, ![1, 64]⟩
abbrev S625000x64 : Shape := ⟨2, ![625000, 64]⟩
abbrev S1x128 : Shape := ⟨2, ![1, 128]⟩
abbrev S64x1 : Shape := ⟨2, ![64, 1]⟩

abbrev nBuf : Space → Nat
  | .hbm => 171
  | .vmem => 0
  | .smem => 0
  | _ => 0

abbrev hbmTy0_0 (i : Nat) : BufTy := match i % 128 with
  | 0 => ⟨S50000x128, .f32⟩
  | 1 => ⟨S2x625000, .i32⟩
  | 2 => ⟨S50000, .i32⟩
  | 3 => ⟨S128x64, .f32⟩
  | 4 => ⟨S128x64, .f32⟩
  | 5 => ⟨S64, .f32⟩
  | 6 => ⟨S64x64, .f32⟩
  | 7 => ⟨S64x64, .f32⟩
  | 8 => ⟨S64, .f32⟩
  | 9 => ⟨S64x128, .f32⟩
  | 10 => ⟨S64x128, .f32⟩
  | 11 => ⟨S128, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S64, .f32⟩
  | 19 => ⟨S64, .f32⟩
  | 20 => ⟨S1x625000, .i32⟩
  | 21 => ⟨S625000, .i32⟩
  | 22 => ⟨S1x625000, .i32⟩
  | 23 => ⟨S625000, .i32⟩
  | 24 => ⟨S_, .i32⟩
  | 25 => ⟨S625000, .i32⟩
  | 26 => ⟨S625000, .i1⟩
  | 27 => ⟨S_, .i32⟩
  | 28 => ⟨S625000, .i32⟩
  | 29 => ⟨S625000, .i32⟩
  | 30 => ⟨S625000, .i32⟩
  | 31 => ⟨S625000x1, .i32⟩
  | 32 => ⟨S625000x128, .f32⟩
  | 33 => ⟨S_, .f32⟩
  | 34 => ⟨S50000x128, .f32⟩
  | 35 => ⟨S625000x1, .i32⟩
  | 36 => ⟨S50000x128, .f32⟩
  | 37 => ⟨S_, .f32⟩
  | 38 => ⟨S625000, .f32⟩
  | 39 => ⟨S_, .f32⟩
  | 40 => ⟨S50000, .f32⟩
  | 41 => ⟨S625000x1, .i32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x128, .f32⟩
  | 48 => ⟨S50000x128, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S64, .f32⟩
  | 60 => ⟨S64, .f32⟩
  | 61 => ⟨S64, .f32⟩
  | 62 => ⟨S1x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S1x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S_, .i32⟩
  | 75 => ⟨S625000, .i32⟩
  | 76 => ⟨S625000, .i1⟩
  | 77 => ⟨S_, .i32⟩
  | 78 => ⟨S625000, .i32⟩
  | 79 => ⟨S625000, .i32⟩
  | 80 => ⟨S625000, .i32⟩
  | 81 => ⟨S625000x1, .i32⟩
  | 82 => ⟨S625000x64, .f32⟩
  | 83 => ⟨S_, .f32⟩
  | 84 => ⟨S50000x64, .f32⟩
  | 85 => ⟨S625000x1, .i32⟩
  | 86 => ⟨S50000x64, .f32⟩
  | 87 => ⟨S_, .f32⟩
  | 88 => ⟨S625000, .f32⟩
  | 89 => ⟨S_, .f32⟩
  | 90 => ⟨S50000, .f32⟩
  | 91 => ⟨S625000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .f32⟩
  | 109 => ⟨S64, .f32⟩
  | 110 => ⟨S64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S_, .i32⟩
  | 125 => ⟨S625000, .i32⟩
  | 126 => ⟨S625000, .i1⟩
  | 127 => ⟨S_, .i32⟩
  | _ => ⟨S50000x128, .f32⟩

abbrev hbmTy0_1 (i : Nat) : BufTy := match i % 128 with
  | 0 => ⟨S625000, .i32⟩
  | 1 => ⟨S625000, .i32⟩
  | 2 => ⟨S625000, .i32⟩
  | 3 => ⟨S625000x1, .i32⟩
  | 4 => ⟨S625000x64, .f32⟩
  | 5 => ⟨S_, .f32⟩
  | 6 => ⟨S50000x64, .f32⟩
  | 7 => ⟨S625000x1, .i32⟩
  | 8 => ⟨S50000x64, .f32⟩
  | 9 => ⟨S_, .f32⟩
  | 10 => ⟨S625000, .f32⟩
  | 11 => ⟨S_, .f32⟩
  | 12 => ⟨S50000, .f32⟩
  | 13 => ⟨S625000x1, .i32⟩
  | 14 => ⟨S50000, .f32⟩
  | 15 => ⟨S_, .f32⟩
  | 16 => ⟨S50000, .f32⟩
  | 17 => ⟨S50000, .f32⟩
  | 18 => ⟨S50000x1, .f32⟩
  | 19 => ⟨S50000x64, .f32⟩
  | 20 => ⟨S50000x64, .f32⟩
  | 21 => ⟨S50000x128, .f32⟩
  | 22 => ⟨S50000x128, .f32⟩
  | 23 => ⟨S50000x128, .f32⟩
  | 24 => ⟨S1x128, .f32⟩
  | 25 => ⟨S50000x128, .f32⟩
  | 26 => ⟨S50000x128, .f32⟩
  | 27 => ⟨S_, .f32⟩
  | 28 => ⟨S64x128, .f32⟩
  | 29 => ⟨S50000x1, .i32⟩
  | 30 => ⟨S64x128, .f32⟩
  | 31 => ⟨S_, .f32⟩
  | 32 => ⟨S50000, .f32⟩
  | 33 => ⟨S_, .f32⟩
  | 34 => ⟨S64, .f32⟩
  | 35 => ⟨S50000x1, .i32⟩
  | 36 => ⟨S64, .f32⟩
  | 37 => ⟨S_, .f32⟩
  | 38 => ⟨S64, .f32⟩
  | 39 => ⟨S64, .f32⟩
  | 40 => ⟨S64x1, .f32⟩
  | 41 => ⟨S64x128, .f32⟩
  | 42 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst_1 : Ref sig .tc := ⟨.hbm, 37, rfl⟩
abbrev main_v14 : Ref sig .tc := ⟨.hbm, 38, rfl⟩
abbrev main_cst_2 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_cst_3 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_call0_cst : Ref sig .tc := ⟨.hbm, 71, rfl⟩
abbrev main_call0_v0 : Ref sig .tc := ⟨.hbm, 72, rfl⟩
abbrev main_v44 : Ref sig .tc := ⟨.hbm, 73, rfl⟩
abbrev main_c_5 : Ref sig .tc := ⟨.hbm, 74, rfl⟩
abbrev main_v45 : Ref sig .tc := ⟨.hbm, 75, rfl⟩
abbrev main_v46 : Ref sig .tc := ⟨.hbm, 76, rfl⟩
abbrev main_c_6 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_7 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_8 : Ref sig .tc := ⟨.hbm, 87, rfl⟩
abbrev main_v55 : Ref sig .tc := ⟨.hbm, 88, rfl⟩
abbrev main_cst_9 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_10 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_11 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call1_cst : Ref sig .tc := ⟨.hbm, 121, rfl⟩
abbrev main_call1_v0 : Ref sig .tc := ⟨.hbm, 122, rfl⟩
abbrev main_v85 : Ref sig .tc := ⟨.hbm, 123, rfl⟩
abbrev main_c_12 : Ref sig .tc := ⟨.hbm, 124, rfl⟩
abbrev main_v86 : Ref sig .tc := ⟨.hbm, 125, rfl⟩
abbrev main_v87 : Ref sig .tc := ⟨.hbm, 126, rfl⟩
abbrev main_c_13 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_14 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_cst_15 : Ref sig .tc := ⟨.hbm, 137, rfl⟩
abbrev main_v96 : Ref sig .tc := ⟨.hbm, 138, rfl⟩
abbrev main_cst_16 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_cst_18 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_19 : Ref sig .tc := ⟨.hbm, 159, rfl⟩
abbrev main_v114 : Ref sig .tc := ⟨.hbm, 160, rfl⟩
abbrev main_cst_20 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_21 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S64 : S_.BroadcastsInDim S64 (![] : Fin 0 → Fin S64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x64_S50000x64_1_0_0_1_n_n_wf : DotDims.WF S50000x128 S128x64 S50000x64 [1] [0] [0] [1] [] []
  gather_S50000x64_S625000x1_S625000x64_1_0_n_n_0_1_164_wf : GatherDims.WF S50000x64 S625000x1 S625000x64 [1] [0] [] [0] [] 1 ![1, 64]
  scatter_S50000x64_S625000x1_S625000x64_1_0_0_1_wf : ScatterDims.WF S50000x64 S625000x1 S625000x64 [1] [0] [0] 1
  dot_S50000x64_S64x64_S50000x64_1_0_0_1_n_n_wf : DotDims.WF S50000x64 S64x64 S50000x64 [1] [0] [0] [1] [] []
  dot_S50000x64_S64x128_S50000x128_1_0_0_1_n_n_wf : DotDims.WF S50000x64 S64x128 S50000x128 [1] [0] [0] [1] [] []
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S625000x1_S625000x64_1_0_n_n_0_1_164 : GatherDims S50000x64 S625000x1 S625000x64 where
  offsetDims := [1]
  collapsedSliceDims := [0]
  operandBatchingDims := []
  startIndicesBatchingDims := []
  startIndexMap := [0]
  indexVectorDim := 1
  sliceSizes := ![1, 64]
  wf := gather_S50000x64_S625000x1_S625000x64_1_0_n_n_0_1_164_wf
def scatter_S50000x64_S625000x1_S625000x64_1_0_0_1 : ScatterDims S50000x64 S625000x1 S625000x64 where
  updateWindowDims := [1]
  insertedWindowDims := [0]
  scatterDimsToOperandDims := [0]
  indexVectorDim := 1
  wf := scatter_S50000x64_S625000x1_S625000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.Defs.lean ====
/-
  What each of the four kernel regions is told and what it leaves, as data over the buffer contents `V` a region is
  entered with. A window's block at a grid point is the rows 5000·t … 5000·t + 4999 of its array (the whole array for the
  weight, bias and batch-norm windows). The three dense regions store, at every point, one block of rows of their
  output: the body's arithmetic applied to the point's input blocks. The pooling region keeps a pair (sum, count) of
  64×128 accumulators between points: cleared before the first point's update, increased at every point by the
  one-hot product of the point's rows, and divided (sum by max(count, 1)) into the output at the last point.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when a region is entered: each region's data are stated at this parameter
variable (V : (c : Dev nD) → (b : Ref sig .tc) → Buf (Elt F) ((c : Thread nD τ).loc b))

/-! ## Region 0: the first layer (128 → 64), batch norm and ReLU -/

/-- Window `w` of call 0 at grid point `t`: the block of its array, as the region finds the array (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 5000×64 block of rows region 0 stores at point `t`: the layer's arithmetic on the point's rows of the neighbour mean
    (window 0) and of the features (window 1), the two weight matrices (2, 3), the bias (4) and the batch-norm scale, shift,
    mean and variance (5, 6, 7, 8). -/
def out0 (c : Dev nD) (t : Fin cfg0.N) : Vec F S5000x64 .f32 :=
  k0_pay1 (iblk0 V c 0 t) (iblk0 V c 1 t) (iblk0 V c 2 t) (iblk0 V c 3 t) (iblk0 V c 4 t) (iblk0 V c 7 t) (iblk0 V c 8 t) (iblk0 V c 5 t) (iblk0 V c 6 t)

/-- Region 0's proof data: its arrays as entered; after the body each input buffer still at its block, the output buffer at
    `out0`; the invariant is the scratch and generator register untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0 V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0 V c t := by dsimp only [dat0]

/-! ## Region 1: the second layer (64 → 64), batch norm and ReLU -/

/-- Window `w` of call 1 at grid point `t`: the block of its array, as the region finds the array (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5000×64 block region 1 stores at point `t` (the same arithmetic as region 0 at width 64; the ReLU is the maximum of
    the normalised value and the zero block). -/
def out1 (c : Dev nD) (t : Fin cfg1.N) : Vec F S5000x64 .f32 :=
  k1_pay1 (k1_pay2 (iblk1 V c 0 t) (iblk1 V c 1 t) (iblk1 V c 2 t) (iblk1 V c 3 t) (iblk1 V c 4 t) (iblk1 V c 7 t) (iblk1 V c 8 t) (iblk1 V c 5 t) (iblk1 V c 6 t)) k1_pay3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]

/-! ## Region 2: the third layer (64 → 128), no normalisation -/

/-- Window `w` of call 2 at grid point `t`: the block of its array, as the region finds the array (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000×128 block region 2 stores at point `t`: mean·W_l + x·W_r + b on the point's rows. -/
def out2 (c : Dev nD) (t : Fin cfg2.N) : Vec F S5000x128 .f32 :=
  k2_pay1 (iblk2 V c 0 t) (iblk2 V c 1 t) (iblk2 V c 2 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-! ## Region 3: the mean over each graph's nodes -/

/-- Window `w` of call 3 at grid point `t`: the block of its array, as the region finds the array (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. The pair (sum, count) the two scratch buffers hold after point `n`: at point 0 the cleared buffers
    (`k3_pay1`, `k3_pay2`: zeros) plus the point's one-hot products; at a later point what the point before left plus its own.
    Window 0 is the point's 5000 rows of node features, window 1 their 5000 graph ids. -/
def acc3 (c : Dev nD) : (n : ℕ) → n < cfg3.N → Vec F S64x128 .f32 × Vec F S64x128 .f32
  | 0, h => (k3_pay4 (iblk3 V c 1 ⟨0, h⟩) (iblk3 V c 0 ⟨0, h⟩) k3_pay1, k3_pay5 (iblk3 V c 1 ⟨0, h⟩) k3_pay2)
  | n + 1, h => (k3_pay4 (iblk3 V c 1 ⟨n + 1, h⟩) (iblk3 V c 0 ⟨n + 1, h⟩) (acc3 c n (Nat.lt_of_succ_lt h)).1,
      k3_pay5 (iblk3 V c 1 ⟨n + 1, h⟩) (acc3 c n (Nat.lt_of_succ_lt h)).2)

theorem acc3_zero (c : Dev nD) (h : 0 < cfg3.N) :
    acc3 V c 0 h = (k3_pay4 (iblk3 V c 1 ⟨0, h⟩) (iblk3 V c 0 ⟨0, h⟩) k3_pay1, k3_pay5 (iblk3 V c 1 ⟨0, h⟩) k3_pay2) := rfl
theorem acc3_succ (c : Dev nD) (n : ℕ) (h : n + 1 < cfg3.N) :
    acc3 V c (n + 1) h = (k3_pay4 (iblk3 V c 1 ⟨n + 1, h⟩) (iblk3 V c 0 ⟨n + 1, h⟩) (acc3 V c n (Nat.lt_of_succ_lt h)).1,
      k3_pay5 (iblk3 V c 1 ⟨n + 1, h⟩) (acc3 V c n (Nat.lt_of_succ_lt h)).2) := rfl

/-- The quotient sum / max(count, 1) of the pair after point `t`. The body stores it into the output's buffer at the last
    point only, and only there is the buffer written back; at the other points the window is idle and this value is not
    consulted. -/
def out3 (c : Dev nD) (t : Fin cfg3.N) : Vec F S64x128 .f32 :=
  k3_pay6 (acc3 V c t.val t.isLt).1 (acc3 V c t.val t.isLt).2

/-- The region invariant before position `n`: before the first point the scoped rest at anything and the generator register;
    afterwards the two scratch buffers at the pair the point before left, the other scoped buffers at anything, the register. -/
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n (Nat.lt_of_succ_le hn)).1
      ∗ owns (c : Thread nD τ) (Memref.whole cc3_scratch1) fullShare (acc3 V c n (Nat.lt_of_succ_le hn)).2
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (h : 0 ≤ cfg3.N) : PhiS3 V c 0 h = Pipeline.ΦA spec3 c := rfl
theorem PhiS3_succ (c : Dev nD) (n : ℕ) (hn : n + 1 ≤ cfg3.N) :
    PhiS3 V c (n + 1) hn = iprop(owns (c : Thread nD τ) (Memref.whole cc3_scratch0) fullShare (acc3 V c n (Nat.lt_of_succ_le hn)).1
      ∗ owns (c : Thread nD τ) (Memref.whole cc3_scratch1) fullShare (acc3 V c n (Nat.lt_of_succ_le hn)).2
      ∗ Pipeline.scopedRestBut (Ix := Unit) (Name := ℕ) (U := UR sig nD τ) (Lvl := ℕ) (Val := Elt F) spec3 c [cc3_scratch0, cc3_scratch1]
      ∗ (∃ r, prngReg c r)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

end Cert.Kernel.Hand

end
-- ==== Proof.K.Fold.lean ====
/-
  The contents of the TensorCore's buffers at each boundary between two items of the program, folded from the launch
  memory: a stretch of host operations applies them in order; a kernel region leaves its input arrays as entered and its
  output array at what the write-backs of its points assemble; every other buffer is untouched by a region.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (inputs as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.Kernel.Hand

end
-- ==== Proof.K.R0.lean ====
/-
  Region 0's body, run once at a generic grid point: handed its windows' buffers at the point's blocks, it returns them with
  the output's buffer at what the region's data say, touching nothing else.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 access, spelt as the printed accesses spell them. -/
theorem hz0 : (![0, 0] : Fin 2 → ℕ) = fun _ => 0 := by funext a; fin_cases a <;> rfl

/-! ## What the body finds in its input buffers

An input window's staging buffer holds the window's block at the point whether or not the pipeline fetched it there:
the row blocks (windows 0 and 1) are fetched at every point; the weights, the bias and the batch-norm vectors
(windows 2 to 8) are fetched at the first point only, and since their block index never moves, what the buffer still
holds from the point before is this point's block. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)

theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)

/-! ## The body's triple -/

/-- The one store covers the output's buffer: its rectangle is the whole buffer. -/
theorem cover0 (p : Vec F S5000x64 .f32) (y : S5000x64.Idx) :
    ∃ pc ∈ ([⟨Rect.unit (s := S5000x64) ![0, 0] S5000x64.size inb_S5000x64_S5000x64_0_0, p⟩] : List (View.Piece (Elt F) S5000x64 .f32)), y ∈ pc.1.set :=
  ⟨_, List.mem_singleton_self _, View.mem_set_unit_zero hz0 inb_S5000x64_S5000x64_0_0 y⟩

set_option maxHeartbeats 1000000 in
/-- The body on whole staging memrefs, the nine inputs' at read contents `x0 … x8` and the output's at anything, runs to
    the continuation holding the inputs' as they were and the output's at the layer's arithmetic on them: nine whole-buffer
    loads, a load of the output's buffer whose value is not used, and one whole-buffer store. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S5000x64 .f32) (harg10 : arg10.IsWhole)
    (x0 : Vec F S5000x128 .f32) (x1 : Vec F S5000x128 .f32) (x2 : Vec F S128x64 .f32) (x3 : Vec F S128x64 .f32) (x4 : Vec F S1x64 .f32) (x5 : Vec F S1x64 .f32) (x6 : Vec F S1x64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay1 x0 x1 x2 x3 x4 x7 x8 x5 x6)) -∗ K ⟨⟩))
      ⊢ wp frame (wpE (defs₀ (F := F)) Variants.none c none) E (cc0__dense_bn_relu_kernel i arg1 harg1 arg2 harg2 arg3 harg3 arg4 harg4 arg5 harg5 arg6 harg6 arg7 harg7 arg8 harg8 arg9 harg9 arg10 harg10) K := by
  simp only [cc0__dense_bn_relu_kernel_eq_skeleton]; unfold cc0__dense_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover0 _), View.canon_unit_zero hz0]
  sl_unfold_words
  simp only [View.readAt_eq_ld, View.ld_unit_zero (S := S5000x128) hz0, View.ld_unit_zero (S := S128x64) hz0,
    View.ld_unit_zero (S := S1x64) hz0]

/-! ## The body obligation, at a generic point -/

/-- What the body is called with at point `t`: the invariant, the core's debts, and each window's current staging buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, each buffer at what the region's data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies at those blocks; the
    invariant (constant in the point) and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1.lean ====
/-
  Region 1's body, run once at a generic grid point: handed its windows' buffers at the point's blocks, it returns them with
  the output's buffer at what the region's data say, touching nothing else.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- An input window's current buffer holds the point's block of its array whether or not the pipeline fetched it at this
    point: where it was not fetched (the weights, the bias and the four batch-norm rows after the first point) the block
    index has not moved since the fetch, and the body leaves its inputs in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

/-! ## The body's run -/

/-- The two zero offsets of the whole-buffer rectangles, as a constant function. -/
private theorem hz1 : (![0, 0] : Fin 2 → Nat) = fun _ => 0 := funext fun a => by fin_cases a <;> rfl

set_option maxHeartbeats 1000000 in
/-- The body on whole buffers: it loads the nine inputs (rows of the neighbour mean and of the features, the two weight
    matrices, the bias, then the batch-norm mean and variance, then its scale and shift), forms the normalised layer value
    and the zero block, loads the output's buffer without using what it read, and stores the maximum of the two over the
    whole output buffer. The inputs come back as they were; the output's buffer, whatever it held, comes back at that
    maximum. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S5000x64 .f32) (harg10 : arg10.IsWhole)
    (x0 : Vec F S5000x64 .f32) (x1 : Vec F S5000x64 .f32) (x2 : Vec F S64x64 .f32) (x3 : Vec F S64x64 .f32)
    (x4 : Vec F S1x64 .f32) (x5 : Vec F S1x64 .f32) (x6 : Vec F S1x64 .f32) (x7 : Vec F S1x64 .f32) (x8 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (k1_pay1 (k1_pay2 x0 x1 x2 x3 x4 x7 x8 x5 x6) k1_pay3)) -∗ K ⟨⟩))
      ⊢ wp frame (wpE (defs₀ (F := F)) Variants.none c none) E
          (cc1__dense_bn_relu_kernel i arg1 harg1 arg2 harg2 arg3 harg3 arg4 harg4 arg5 harg5 arg6 harg6 arg7 harg7 arg8 harg8 arg9 harg9 arg10 harg10) K := by
  simp only [cc1__dense_bn_relu_kernel_eq_skeleton]; unfold cc1__dense_bn_relu_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _
      (fun y => ⟨_, List.mem_singleton_self _, View.mem_set_unit_zero hz1 inb_S5000x64_S5000x64_0_0 y⟩)]
  sl_unfold_words
  rw [View.canon_unit_zero hz1]
  simp only [View.readAt_eq_ld, View.ld_unit_zero (S := S5000x64) hz1, View.ld_unit_zero (S := S64x64) hz1,
    View.ld_unit_zero (S := S1x64) hz1]

/-! ## The body obligation, at a generic point -/

/-- What the body is called with at point `t`: the invariant, the core's debts, and each window's current buffer — an
    input's at what the pipeline left there, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same invariant and debts, each buffer at what the region's data name. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point. The input buffers hold the point's blocks, so the run above applies with those blocks as the
    loaded values; the invariant does not depend on the point and the core owes nothing before or after, so both pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold out1
  iexact H9

/-- The library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.R2.lean ====
/-
  Region 2's body, run once at a generic grid point: handed its windows' buffers at the point's blocks, it returns them with
  the output's buffer at what the region's data say, touching nothing else.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- An input window's current buffer holds the point's block of its array whether or not the pipeline fetched it at this
    point: where it was not fetched (the weights and the bias after the first point) the block index has not moved since
    the fetch, and the body leaves its inputs in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-! ## The body's run -/

/-- The two zero offsets of the whole-buffer rectangles, as a constant function. -/
private theorem hz2 : (![0, 0] : Fin 2 → Nat) = fun _ => 0 := funext fun a => by fin_cases a <;> rfl

set_option maxHeartbeats 1000000 in
/-- The body on whole buffers: it loads the five inputs, loads the output's buffer without using what it read, and stores
    mean·W_l + x·W_r + b of the loaded inputs over the whole output buffer. The inputs come back as they were; the output's
    buffer, whatever it held, comes back at that value. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S64x128 .f32) (x4 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__dense_kernel i arg1 harg1 arg2 harg2 arg3 harg3 arg4 harg4 arg5 harg5 arg6 harg6) K := by
  simp only [cc2__dense_kernel_eq_skeleton]; unfold cc2__dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero hz2 inb_S5000x128_S5000x128_0_0 y⟩),
    View.canon_unit_zero hz2]
  simp only [View.readAt_eq_ld, View.ld_unit_zero (S := S5000x64) hz2, View.ld_unit_zero (S := S64x128) hz2,
    View.ld_unit_zero (S := S1x128) hz2]

/-! ## The body obligation, at a generic point -/

/-- What the body is called with at point `t`: the invariant, the core's debts, and each window's current buffer — an
    input's at what the pipeline left there, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same invariant and debts, each buffer at what the region's data name. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The input buffers hold the point's blocks, so the run above applies with those blocks as the
    loaded values; the invariant does not depend on the point and the core owes nothing before or after, so both pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold out2
  iexact H5

/-- The library's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.R3a.lean ====
/-
  The pooling region's body: what its runs share. The two conditionals of the body test the grid coordinate — the first
  holds at the first point only (there the two accumulators are cleared), the second at the last point only (there the
  quotient is stored) —; the output window is idle wherever the second fails; the two input windows hold their blocks at
  every point; and the class invariant, opened at the region's own two accumulators.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form -/

/-- The first conditional's test, on the grid coordinate: "this is point 0". -/
abbrev atFirst (i : grid3.Coords) : Prop :=
  (Scalar.cmpi .ne (Scalar.extui (Scalar.cmpi .eq (BitVec.ofNat 32 (i 0).val) 0#32)) 0#32) = 1#1

/-- It holds at point 0 and nowhere else. -/
theorem atFirst_iff : ∀ t : Fin cfg3.N, atFirst (grid3.coords t) ↔ t.val = 0 :=
  (by decide +kernel : ∀ t : Fin grid3.N, atFirst (grid3.coords t) ↔ t.val = 0)

/-- The second conditional's test: "this is point 9". -/
abbrev atLast (i : grid3.Coords) : Prop := k3_cond2 i = 1#1

/-- It holds at point 9 and nowhere else. -/
theorem atLast_iff : ∀ t : Fin cfg3.N, atLast (grid3.coords t) ↔ t.val = 9 :=
  (by decide +kernel : ∀ t : Fin grid3.N, atLast (grid3.coords t) ↔ t.val = 9)

/-! ## Where the windows are idle -/

/-- The feature rows (window 0) and the graph ids (window 1) are live at every point. -/
theorem live3_0 : ∀ t : Fin cfg3.N, cfg3.idle 0 (grid3.coords t) = false := by decide +kernel
theorem live3_1 : ∀ t : Fin cfg3.N, cfg3.idle 1 (grid3.coords t) = false := by decide +kernel
/-- The output (window 2) is idle, and not written back, wherever the second conditional fails; -/
theorem idle3_2 : ∀ t : Fin cfg3.N, ¬atLast (grid3.coords t) → cfg3.idle 2 (grid3.coords t) = true := by decide +kernel
theorem noFlush3_2 : ∀ t : Fin cfg3.N, ¬atLast (grid3.coords t) → (cfg3.win 2).flush t = false := by decide +kernel
/-- live where it holds. -/
theorem live3_2 : ∀ t : Fin cfg3.N, atLast (grid3.coords t) → cfg3.idle 2 (grid3.coords t) = false := by decide +kernel

/-! ## The inputs' buffers hold their blocks -/

/-- The feature rows' current buffer holds the point's block, fetched there or not. -/
theorem before3_0 (c : Dev nD) (t : Fin cfg3.N) (d) : (dat3 (F := F) V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The graph ids' current buffer holds the point's block, fetched there or not. -/
theorem before3_1 (c : Dev nD) (t : Fin cfg3.N) (d) : (dat3 (F := F) V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The class invariant at the region's two accumulators -/

/-- The class invariant with the sum and count accumulators taken out of the scoped rest, each a whole buffer owned at
    some contents. -/
theorem PhiA3_eq (c : Dev nD) :
    (Pipeline.ΦA spec3 c : sProp 𝕄)
      = iprop(iprop(iprop((∃ d, owns (c : Thread nD τ) (Memref.whole cc3_scratch0) fullShare d)
            ∗ (∃ d, owns (c : Thread nD τ) (Memref.whole cc3_scratch1) fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [owns_whole]; try rfl

/-! ## Whole-buffer accesses -/

/-- The offsets of the body's accesses are all zero, at each of the three shapes it touches. -/
theorem zeroOff64x128 : (![0, 0] : Fin S64x128.rank → Nat) = fun _ => 0 := by
  funext a; fin_cases a <;> rfl
theorem zeroOff5000x128 : (![0, 0] : Fin S5000x128.rank → Nat) = fun _ => 0 := by
  funext a; fin_cases a <;> rfl
theorem zeroOff5000x1 : (![0, 0] : Fin S5000x1.rank → Nat) = fun _ => 0 := by
  funext a; fin_cases a <;> rfl

/-- After a list of stores of which the LAST fills the whole shape (the full-size rectangle at zero offsets, however the
    zeros are spelt), a view reads that store's payload, whatever the earlier stores and the prior contents were: every
    index lies under the last store. -/
theorem read_after_whole_store {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

end Cert.Kernel.Hand

end
-- ==== Proof.K.R3First.lean ====
/-
  The pooling body at the grid's first point: both accumulators are cleared, then increased by the point's one-hot
  products; the output is not touched.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.K.R3a
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE FIRST POINT. On whole buffers — the two inputs' at their blocks `x0` (feature rows) and `x1` (graph ids), the
    output's at contents `xi2` that come back untouched, the two accumulators at anything — the body clears both
    accumulators, reads the cleared values back, and leaves the sum at `k3_pay4 x1 x0 k3_pay1` (zero plus the one-hot
    product of the rows) and the count at `k3_pay5 x1 k3_pay2` (zero plus the one-hot row counts); the second
    conditional is not taken. Each accumulator's last store covers it, so what it holds is that store's payload; the
    loads of the inputs read their whole blocks, and the load of an accumulator after its clearing reads the cleared value. -/
theorem run_first (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : atFirst i) (hc1 : ¬atLast i)
    (x0 : Vec F S5000x128 .f32) (x1 : Vec F S5000x1 .i32) (xi2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k3_pay4 x1 x0 k3_pay1) ∗ owns (c : Thread nD τ) arg5 fullShare (k3_pay5 x1 k3_pay2)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [read_after_whole_store _ _ zeroOff64x128]
    simp only [View.readAt_eq_ld, harg1.read_unread, harg2.read_unread, View.ld_unit_zero (S := S5000x1) zeroOff5000x1,
      View.ld_unit_zero (S := S5000x128) zeroOff5000x128, View.readCov_unit_zero (S := S64x128) _ zeroOff64x128]
  · iexists _; isplitr
    swap; · iexact HS1
    ipureintro
    sl_unfold_words
    rw [read_after_whole_store _ _ zeroOff64x128]
    simp only [View.readAt_eq_ld, harg2.read_unread, View.ld_unit_zero (S := S5000x1) zeroOff5000x1,
      View.readCov_unit_zero (S := S64x128) _ zeroOff64x128]

end Cert.Kernel.Hand

end
-- ==== Proof.K.R3Mid.lean ====
/-
  The pooling body at a point that is neither the first nor the last: each accumulator goes from what the point before
  left to that plus the point's one-hot product; the output is not touched.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.K.R3a
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- A MIDDLE POINT. On whole buffers — the two inputs' at their blocks `x0` (feature rows) and `x1` (graph ids), the
    output's at contents `xi2` that come back untouched, the sum accumulator at `xs0` and the count at `xs1` — neither
    conditional is taken: the body leaves the sum at `k3_pay4 x1 x0 xs0` and the count at `k3_pay5 x1 xs1`. Each
    accumulator's one store covers it; every load reads a whole buffer as it was handed over. -/
theorem run_mid (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : ¬atFirst i) (hc1 : ¬atLast i)
    (x0 : Vec F S5000x128 .f32) (x1 : Vec F S5000x1 .i32) (xi2 : Vec F S64x128 .f32) (xs0 xs1 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k3_pay4 x1 x0 xs0) ∗ owns (c : Thread nD τ) arg5 fullShare (k3_pay5 x1 xs1)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [read_after_whole_store _ _ zeroOff64x128]
    simp only [View.readAt_eq_ld, harg1.read_unread, harg2.read_unread, harg4.read_unread, View.ld_unit_zero (S := S5000x1) zeroOff5000x1,
      View.ld_unit_zero (S := S5000x128) zeroOff5000x128, View.ld_unit_zero (S := S64x128) zeroOff64x128]
  · iexists _; isplitr
    swap; · iexact HS1
    ipureintro
    sl_unfold_words
    rw [read_after_whole_store _ _ zeroOff64x128]
    simp only [View.readAt_eq_ld, harg2.read_unread, harg5.read_unread, View.ld_unit_zero (S := S5000x1) zeroOff5000x1,
      View.ld_unit_zero (S := S64x128) zeroOff64x128]

end Cert.Kernel.Hand

end
-- ==== Proof.K.R3Last.lean ====
/-
  The pooling body at the grid's last point: the accumulators take their last increase, are read back, and the
  quotient sum / max(count, 1) is stored into the output's buffer.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.K.R3a
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- THE LAST POINT. On whole buffers — the two inputs' at their blocks `x0` (feature rows) and `x1` (graph ids), the
    output's at anything, the sum accumulator at `xs0` and the count at `xs1` — the first conditional is not taken, the
    second is: the body leaves the sum at `k3_pay4 x1 x0 xs0`, the count at `k3_pay5 x1 xs1`, reads both back, and
    stores their quotient `k3_pay6` into the output's buffer. Each store covers its buffer; a load of an accumulator
    after its store reads that store's payload. -/
theorem run_last (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : ¬atFirst i) (hc1 : atLast i)
    (x0 : Vec F S5000x128 .f32) (x1 : Vec F S5000x1 .i32) (xs0 xs1 : Vec F S64x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k3_pay6 (k3_pay4 x1 x0 xs0) (k3_pay5 x1 xs1))
            ∗ owns (c : Thread nD τ) arg4 fullShare (k3_pay4 x1 x0 xs0) ∗ owns (c : Thread nD τ) arg5 fullShare (k3_pay5 x1 xs1)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_after_whole_store _ _ zeroOff64x128]
    simp only [View.readAt_eq_ld, harg1.read_unread, harg2.read_unread, harg4.read_unread, harg5.read_unread,
      View.ld_unit_zero (S := S5000x1) zeroOff5000x1, View.ld_unit_zero (S := S5000x128) zeroOff5000x128, View.ld_unit_zero (S := S64x128) zeroOff64x128,
      View.readCov_unit_zero (S := S64x128) _ zeroOff64x128]
  isplitl [HS0]
  · iexists _; isplitr
    swap; · iexact HS0
    ipureintro
    sl_unfold_words
    rw [read_after_whole_store _ _ zeroOff64x128]
    simp only [View.readAt_eq_ld, harg1.read_unread, harg2.read_unread, harg4.read_unread, View.ld_unit_zero (S := S5000x1) zeroOff5000x1,
      View.ld_unit_zero (S := S5000x128) zeroOff5000x128, View.ld_unit_zero (S := S64x128) zeroOff64x128]
  · iexists _; isplitr
    swap; · iexact HS1
    ipureintro
    sl_unfold_words
    rw [read_after_whole_store _ _ zeroOff64x128]
    simp only [View.readAt_eq_ld, harg2.read_unread, harg5.read_unread, View.ld_unit_zero (S := S5000x1) zeroOff5000x1,
      View.ld_unit_zero (S := S64x128) zeroOff64x128]

end Cert.Kernel.Hand

end
-- ==== Proof.K.R3.lean ====
/-
  Region 3's body, run once at a generic grid point: handed its windows' buffers at the point's blocks, it returns them with
  the output's buffer at what the region's data say, touching nothing else. The point is the first (accumulators cleared,
  then increased), a middle one (increased), or the last (increased, then divided into the output): the three runs, each
  met with the invariant's accumulator contents before and after the point.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.K.R3First
import proofs.«419563_j70007966925389_1_alg».proof.Proof.K.R3Mid
import proofs.«419563_j70007966925389_1_alg».proof.Proof.K.R3Last

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulated pair and the invariant, by position -/

/-- The pair after the first point: the cleared accumulators plus the point's one-hot products. -/
theorem acc3_first (c : Dev nD) (t : Fin cfg3.N) (h0 : t.val = 0) :
    acc3 V c t.val t.isLt = (k3_pay4 (iblk3 V c 1 t) (iblk3 V c 0 t) k3_pay1, k3_pay5 (iblk3 V c 1 t) k3_pay2) := by
  obtain ⟨n, hn⟩ := t
  cases n with
  | zero => rfl
  | succ n => exact absurd h0 (Nat.succ_ne_zero n)

/-- The pair after a later point: what the point before left plus the point's one-hot products. -/
theorem acc3_later (c : Dev nD) (t : Fin cfg3.N) (h0 : t.val ≠ 0) :
    acc3 V c t.val t.isLt
      = (k3_pay4 (iblk3 V c 1 t) (iblk3 V c 0 t) (acc3 V c (t.val - 1) (Nat.lt_of_le_of_lt (Nat.sub_le _ _) t.isLt)).1,
          k3_pay5 (iblk3 V c 1 t) (acc3 V c (t.val - 1) (Nat.lt_of_le_of_lt (Nat.sub_le _ _) t.isLt)).2) := by
  obtain ⟨n, hn⟩ := t
  cases n with
  | zero => exact absurd rfl h0
  | succ n => rfl

/-- Before the first point the invariant is the class's. -/
theorem PhiS3_of_zero (c : Dev nD) (n : ℕ) (h : n ≤ cfg3.N) (hz : n = 0) : PhiS3 V c n h = Pipeline.ΦA spec3 c := by
  subst hz; rfl

/-- Before a later point: the accumulators at what the point before left. -/
theorem PhiS3_of_pos (c : Dev nD) (n : ℕ) (h : n ≤ cfg3.N) (hz : n ≠ 0) :
    PhiS3 V c n h = iprop(owns (c : Thread nD τ) (Memref.whole cc3_scratch0) fullShare (acc3 V c (n - 1) (by omega)).1
      ∗ owns (c : Thread nD τ) (Memref.whole cc3_scratch1) fullShare (acc3 V c (n - 1) (by omega)).2
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-- The invariant at a point's start, restated at the point's position. -/
theorem PhiS3_castSucc (c : Dev nD) (t : Fin cfg3.N) :
    (dat3 (F := F) V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the position says which of the three runs applies; the
    invariant hands the run the accumulators (at anything before the first point, at the pair the point before left
    afterwards) and takes them back at this point's pair; the output's buffer comes back as found except at the last
    point, where it holds the quotient; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (win3_0.stage (cfg3.slots t 0)) fullShare ((dat3 V c).after 0 t) from by
    unfold Dat.leavesExact; rw [live3_0 t], after3_0]
  rw [show (dat3 V c).leavesExact 1 t = owns (c : Thread nD τ) (win3_1.stage (cfg3.slots t 1)) fullShare ((dat3 V c).after 1 t) from by
    unfold Dat.leavesExact; rw [live3_1 t], after3_1]
  have hN : t.val < 10 := lt_of_lt_of_eq t.isLt (show cfg3.N = 10 from N_3)
  by_cases h0 : t.val = 0
  · -- the first point
    have hc0 : atFirst (grid3.coords t) := (atFirst_iff t).mpr h0
    have hc1 : ¬atLast (grid3.coords t) := fun h => by have := (atLast_iff t).mp h; omega
    rw [Dat.leavesExact_idle (dat3 V c) 2 t (idle3_2 t hc1) (noFlush3_2 t hc1)]
    rw [acc3_first V c t h0]; dsimp only
    rw [PhiS3_castSucc V c t, PhiS3_of_zero V c _ _ h0, PhiA3_eq]
    iintro ⟨⟨⟨⟨HS0, HS1⟩, Hrest⟩, Hg⟩, Ho, ⟨%d0, H0⟩, ⟨%d1, H1⟩, ⟨%d2, H2⟩⟩
    iapply (run_first c (grid3.coords t) _ _ _ _ _ _ _ _ _ _ hc0 hc1 (iblk3 V c 0 t) (iblk3 V c 1 t) ((dat3 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    iexists _; iexact H2
  · have hc0 : ¬atFirst (grid3.coords t) := fun h => h0 ((atFirst_iff t).mp h)
    by_cases h9 : t.val = 9
    · -- the last point
      have hc1 : atLast (grid3.coords t) := (atLast_iff t).mpr h9
      rw [show (dat3 V c).leavesExact 2 t = owns (c : Thread nD τ) (win3_2.stage (cfg3.slots t 2)) fullShare ((dat3 V c).after 2 t) from by
        unfold Dat.leavesExact; rw [live3_2 t hc1], after3_2]
      unfold out3
      rw [acc3_later V c t h0]; dsimp only
      rw [PhiS3_castSucc V c t, PhiS3_of_pos V c _ _ h0]
      iintro ⟨⟨HS0, HS1, Hrest, Hg⟩, Ho, ⟨%d0, H0⟩, ⟨%d1, H1⟩, ⟨%d2, H2⟩⟩
      iapply (run_last c (grid3.coords t) _ _ _ _ _ _ _ _ _ _ hc0 hc1 (iblk3 V c 0 t) (iblk3 V c 1 t)
        (acc3 V c (t.val - 1) (Nat.lt_of_le_of_lt (Nat.sub_le _ _) t.isLt)).1 (acc3 V c (t.val - 1) (Nat.lt_of_le_of_lt (Nat.sub_le _ _) t.isLt)).2 Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc1 : ¬atLast (grid3.coords t) := fun h => h9 ((atLast_iff t).mp h)
      rw [Dat.leavesExact_idle (dat3 V c) 2 t (idle3_2 t hc1) (noFlush3_2 t hc1)]
      rw [acc3_later V c t h0]; dsimp only
      rw [PhiS3_castSucc V c t, PhiS3_of_pos V c _ _ h0]
      iintro ⟨⟨HS0, HS1, Hrest, Hg⟩, Ho, ⟨%d0, H0⟩, ⟨%d1, H1⟩, ⟨%d2, H2⟩⟩
      iapply (run_mid c (grid3.coords t) _ _ _ _ _ _ _ _ _ _ hc0 hc1 (iblk3 V c 0 t) (iblk3 V c 1 t) ((dat3 V c).before 2 t d2)
        (acc3 V c (t.val - 1) (Nat.lt_of_le_of_lt (Nat.sub_le _ _) t.isLt)).1 (acc3 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexists _; iexact H2

/-- The library's body obligation for region 3, at every grid point. -/
theorem body_obligation3 (c : Dev nD) : BodyObligation (dat3 (F := F) V c) (defs₀ (F := F)) Variants.none () Set.univ := fun t => by
  rw [bigSep_W3, bigSep_W3]
  exact sound_body3 V c t

/-- Entering the region: the class's invariant (every scoped buffer at anything, the generator register) is the invariant
    before the first point. -/
theorem hin3 (c : Dev nD) : Pipeline.ΦA spec3 c ⊢ (dat3 (F := F) V c).Φ 0 := by
  rw [show (dat3 V c).Φ 0 = PhiS3 V c 0 (Nat.zero_le _) from rfl, PhiS3_zero]

/-- After any point the invariant gives the class's back: the accumulators' named contents are forgotten, and the two
    buffers rejoin the scoped rest. -/
theorem Phi3_out (c : Dev nD) (t : Fin (cfg3.N + 1)) (ht : t.val ≠ 0) : (dat3 (F := F) V c).Φ t ⊢ Pipeline.ΦA spec3 c := by
  rw [show (dat3 V c).Φ t = PhiS3 V c t.val (Nat.le_of_lt_succ t.isLt) from rfl, PhiS3_of_pos V c _ _ ht, PhiA3_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

/-- Leaving the region: after the last point the two scratch buffers, at the final pair, go back into the scoped rest. -/
theorem hout3 (c : Dev nD) : (dat3 (F := F) V c).Φ (Fin.last cfg3.N) ⊢ Pipeline.ΦA spec3 c :=
  Phi3_out V c _ (by rw [Fin.val_last]; have : cfg3.N = 10 := N_3; omega)

end Cert.Kernel.Hand

end
-- ==== Proof.K.Run.lean ====
/-
  The launch: @main as the alternation of its four stretches of host operations and its four kernel regions, each region
  entered with every unscoped buffer at the boundary's contents and left at the next boundary's, run from the launch memory
  to the return. Every weakly fair execution terminates, nothing faults, and the final memory holds every unscoped buffer at
  the last boundary's contents.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.Gen.Kernel.Regions
import proofs.«419563_j70007966925389_1_alg».proof.Proof.K.Fold
import proofs.«419563_j70007966925389_1_alg».proof.Proof.K.R0
import proofs.«419563_j70007966925389_1_alg».proof.Proof.K.R1
import proofs.«419563_j70007966925389_1_alg».proof.Proof.K.R2
import proofs.«419563_j70007966925389_1_alg».proof.Proof.K.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every segment carries -/

/-- No pipeline has a prefetched table: each one's admissible tables are the empty ones. -/
abbrev adm : (p : Fin 4) → (pcfgs (F := F) p).Adm := fun p => (cfgs p).toPCfg_adm

/-- Each pipeline's proof data at the contents its region is entered with: region K at the boundary 2K+1 of the fold. A
    literal case split on the index, so that the configuration pinned at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything, so no level is assigned. -/
abbrev L : GSem nD τ sig → Finset Unit := fun _ => ∅
abbrev lv : GSem nD τ sig → Unit → ℕ := fun _ _ => 0

/-- What a core holds beside its unscoped buffers between any two items: its generator register at some state, and the
    record that it owes nothing. -/
abbrev R (c : Dev nD) : sProp 𝕄 := iprop((∃ r, prngReg c r) ∗ ∃ W, owes (c : Thread nD τ) (0 : CellTallies nD τ sig Unit) W)

/-- A stretch of host operations as a segment: from every unscoped buffer at `W`, `R` beside them, to the same buffers at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state, without the record of owing nothing: every unscoped buffer at `W8`, the generator register. -/
abbrev Tₙ (c : Dev nD) : sProp 𝕄 := iprop(StableHlo.held (c : Thread nD τ) (Pipeline.ucRefs τ sig) (W8 m ρ c) ∗ ∃ r, prngReg c r)

/-! ## The four regions as segments -/

-- unifying a library lemma stated over the pinned configuration `pin pcfgs adm p` with the printed configuration needs
-- unification to unfold plain definitions inside a metavariable's type
set_option backward.isDefEq.respectTransparency.types false in
/-- Region 0 as a segment: entered with every unscoped buffer at `W1`, left with them at `W2`. At entry the region's ten
    arrays are taken out of the unscoped buffers, the others bypass it; the generator register goes into the region's
    invariant and comes back; at exit the arrays, at what the write-backs assembled, rejoin the others. Nothing is owed and
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 1 as a segment, from `W3` to `W4`: the same bookkeeping as region 0 over the second layer's ten arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 2 as a segment, from `W5` to `W6`: the same bookkeeping over the third layer's six arrays. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 3 as a segment, from `W7` to the last thread state (`W8`). Its invariant is not constant: the one before the
    first point is what entering gives (`hin3`), and the one after the last point, which holds the two accumulators at the
    final pair, folds back into the scoped rest (`hout3`). -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its eight segments, and the launch -/

/-- @main's items in order: a stretch of host operations from its boundary's contents, then the region it feeds, four times. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The segments' fragments of @main are exactly the items of `main_chain`. -/
theorem segs_progs : (segs m ρ).map Pipeline.Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()) ] := rfl

/-- @main is the run of the segments: both are the chain of the same eight items. -/
theorem main_run (c : Dev nD) : main (F := F) c = Pipeline.Seg.run (segs m ρ) := by
  rw [main_chain c, Pipeline.Seg.run_eq_chain, segs_progs]

-- the launch theorem's implicit arguments are found by unifying its conclusion with this one, which takes unfolding plain
-- definitions inside a metavariable's type
set_option backward.isDefEq.respectTransparency.types false in
/-- THE RUN. From any memory with zero counters every weakly fair execution of @main terminates without a fault, and the final
    memory holds every unscoped TensorCore buffer at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Kernel.Hand

end
-- ==== Proof.K.Args.lean ====
/-
  Every argument array ends as launched: walking the fold of boundary contents back from the last boundary, a host stretch
  leaves a buffer it does not write, and a region leaves every buffer that is not its output array — an argument it reads
  through an input window included (an input window's array is never written back).
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Fold
import proofs.«419563_j70007966925389_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A host stretch keeps what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- A buffer no host stretch writes and every region keeps (`k0` … `k3`) holds at the last boundary what the launch memory
    held. -/
theorem W8_keep (c : Dev nD) (r : Ref sig .tc) (h0 : r ∉ hostOps0_W) (h1 : r ∉ hostOps1_W) (h2 : r ∉ hostOps2_W) (h3 : r ∉ hostOps3_W)
    (k0 : W2 m ρ c (Proc.devRef .tc r) = W1 m ρ c (Proc.devRef .tc r))
    (k1 : W4 m ρ c (Proc.devRef .tc r) = W3 m ρ c (Proc.devRef .tc r))
    (k2 : W6 m ρ c (Proc.devRef .tc r) = W5 m ρ c (Proc.devRef .tc r))
    (k3 : W8 m ρ c (Proc.devRef .tc r) = W7 m ρ c (Proc.devRef .tc r)) :
    W8 m ρ c (Proc.devRef .tc r) = m ((c : Thread nD τ).loc r) :=
  k3.trans <| (W7_of m ρ c r h3).trans <| k2.trans <| (W5_of m ρ c r h2).trans <| k1.trans <| (W3_of m ρ c r h1).trans <|
    k0.trans <| (W1_of m ρ c r h0).trans rfl

/-! ## The twenty arguments -/

/-- `main_arg0` reaches the end as launched. -/
theorem W8_main_arg0 (c : Dev nD) : W8 m ρ c (Proc.devRef .tc main_arg0) = m ((c : Thread nD τ).loc main_arg0) :=
  W8_keep m ρ c main_arg0 (by decide) (by decide) (by decide) (by decide)
    ((W2_arr m ρ c 1).trans (((dat0 (V1 m ρ) c).arrAt_in 1 rfl _).trans (A_eq0 (V1 m ρ) c 1)))
    (W4_of_ne m ρ c main_arg0 (by decide))
    (W6_of_ne m ρ c main_arg0 (by decide))
    (W8_of_ne m ρ c main_arg0 (by decide))
/-- `main_arg1` reaches the end as launched. -/
theorem W8_main_arg1 (c : Dev nD) : W8 m ρ c (Proc.devRef .tc main_arg1) = m ((c : Thread nD τ).loc main_arg1) :=
  W8_keep m ρ c main_arg1 (by decide) (by decide) (by decide) (by decide)
    (W2_of_ne m ρ c main_arg1 (by decide))
    (W4_of_ne m ρ c main_arg1 (by decide))
    (W6_of_ne m ρ c main_arg1 (by decide))
    (W8_of_ne m ρ c main_arg1 (by decide))
/-- `main_arg2` reaches the end as launched. -/
theorem W8_main_arg2 (c : Dev nD) : W8 m ρ c (Proc.devRef .tc main_arg2) = m ((c : Thread nD τ).loc main_arg2) :=
  W8_keep m ρ c main_arg2 (by decide) (by decide) (by decide) (by decide)
    (W2_of_ne m ρ c main_arg2 (by decide))
    (W4_of_ne m ρ c main_arg2 (by decide))
    (W6_of_ne m ρ c main_arg2 (by decide))
    (W8_of_ne m ρ c main_arg2 (by decide))
/-- `main_arg3` reaches the end as launched. -/
theorem W8_main_arg3 (c : Dev nD) : W8 m ρ c (Proc.devRef .tc main_arg3) = m ((c : Thread nD τ).loc main_arg3) :=
  W8_keep m ρ c main_arg3 (by decide) (by decide) (by decide) (by decide)
    ((W2_arr m ρ c 2).trans (((dat0 (V1 m ρ) c).arrAt_in 2 rfl _).trans (A_eq0 (V1 m ρ) c 2)))
    (W4_of_ne m ρ c main_arg3 (by decide))
    (W6_of_ne m ρ c main_arg3 (by decide))
    (W8_of_ne m ρ c main_arg3 (by decide))
/-- `main_arg4` reaches the end as launched. -/
theorem W8_main_arg4 (c : Dev nD) : W8 m ρ c (Proc.devRef .tc main_arg4) = m ((c : Thread nD τ).loc main_arg4) :=
  W8_keep m ρ c main_arg4 (by decide) (by decide) (by decide) (by decide)
    ((W2_arr m ρ c 3).trans (((dat0 (V1 m ρ) c).arrAt_in 3 rfl _).trans (A_eq0 (V1 m ρ) c 3)))
    (W4_of_ne m ρ c main_arg4 (by decide))
    (W6_of_ne m ρ c main_arg4 (by decide))
    (W8_of_ne m ρ c main_arg4 (by decide))
/-- `main_arg5` reaches the end as launched. -/
theorem W8_main_arg5 (c : Dev nD) : W8 m ρ c (Proc.devRef .tc main_arg5) = m ((c : Thread nD τ).loc main_arg5) :=
  W8_keep m ρ c main_arg5 (by decide) (by decide) (by decide) (by decide)
    (W2_of_ne m ρ c main_arg5 (by decide))
    (W4_of_ne m ρ c main_arg5 (by decide))
    (W6_of_ne m ρ c main_arg5 (by decide))
    (W8_of_ne m ρ c main_arg5 (by decide))
/-- `main_arg6` reaches the end as launched. -/
theorem W8_main_arg6 (c : Dev nD) : W8 m ρ c (Proc.devRef .tc main_arg6) = m ((c : Thread nD τ).loc main_arg6) :=
  W8_keep m ρ c main_arg6 (by decide) (by decide) (by decide) (by decide)
    (W2_of_ne m ρ c main_arg6 (by decide))
    ((W4_arr m ρ c 2).trans (((dat1 (V3 m ρ) c).arrAt_in 2 rfl _).trans (A_eq1 (V3 m ρ) c 2)))
    (W6_of_ne m ρ c main_arg6 (by decide))
    (W8_of_ne m ρ c main_arg6 (by decide))
/-- `main_arg7` reaches the end as launched. -/
theorem W8_main_arg7 (c : Dev nD) : W8 m ρ c (Proc.devRef .tc main_arg7) = m ((c : Thread nD τ).loc main_arg7) :=
  W8_keep m ρ c main_arg7 (by decide) (by decide) (by decide) (by decide)
    (W2_of_ne m ρ c main_arg7 (by decide))
    ((W4_arr m ρ c 3).trans (((dat1 (V3 m ρ) c).arrAt_in 3 rfl _).trans (A_eq1 (V3 m ρ) c 3)))
    (W6_of_ne m ρ c main_arg7 (by decide))
    (W8_of_ne m ρ c main_arg7 (by decide))
/-- `main_arg8` reaches the end as launched. -/
theorem W8_main_arg8 (c : Dev nD) : W8 m ρ c (Proc.devRef .tc main_arg8) = m ((c : Thread nD τ).loc main_arg8) :=
  W8_keep m ρ c main_arg8 (by decide) (by decide) (by decide) (by decide)
    (W2_of_ne m ρ c main_arg8 (by decide))
    (W4_of_ne m ρ c main_arg8 (by decide))
    (W6_of_ne m ρ c main_arg8 (by decide))
    (W8_of_ne m ρ c main_arg8 (by decide))
/-- `main_arg9` reaches the end as launched. -/
theorem W8_main_arg9 (c : Dev nD) : W8 m ρ c (Proc.devRef .tc main_arg9) = m ((c : Thread nD τ).loc main_arg9) :=
  W8_keep m ρ c main_arg9 (by decide) (by decide) (by decide) (by decide)
    (W2_of_ne m ρ c main_arg9 (by decide))
    (W4_of_ne m ρ c main_arg9 (by decide))
    ((W6_arr m ρ c 2).trans (((dat2 (V5 m ρ) c).arrAt_in 2 rfl _).trans (A_eq2 (V5 m ρ) c 2)))
    (W8_of_ne m ρ c main_arg9 (by decide))
/-- `main_arg10` reaches the end as launched. -/
theorem W8_main_arg10 (c : Dev nD) : W8 m ρ c (Proc.devRef .tc main_arg10) = m ((c : Thread nD τ).loc main_arg10) :=
  W8_keep m ρ c main_arg10 (by decide) (by decide) (by decide) (by decide)
    (W2_of_ne m ρ c main_arg10 (by decide))
    (W4_of_ne m ρ c main_arg10 (by decide))
    ((W6_arr m ρ c 3).trans (((dat2 (V5 m ρ) c).arrAt_in 3 rfl _).trans (A_eq2 (V5 m ρ) c 3)))
    (W8_of_ne m ρ c main_arg10 (by decide))
/-- `main_arg11` reaches the end as launched. -/
theorem W8_main_arg11 (c : Dev nD) : W8 m ρ c (Proc.devRef .tc main_arg11) = m ((c : Thread nD τ).loc main_arg11) :=
  W8_keep m ρ c main_arg11 (by decide) (by decide) (by decide) (by decide)
    (W2_of_ne m ρ c main_arg11 (by decide))
    (W4_of_ne m ρ c main_arg11 (by decide))
    (W6_of_ne m ρ c main_arg11 (by decide))
    (W8_of_ne m ρ c main_arg11 (by decide))
/-- `main_arg12` reaches the end as launched. -/
theorem W8_main_arg12 (c : Dev nD) : W8 m ρ c (Proc.devRef .tc main_arg12) = m ((c : Thread nD τ).loc main_arg12) :=
  W8_keep m ρ c main_arg12 (by decide) (by decide) (by decide) (by decide)
    (W2_of_ne m ρ c main_arg12 (by decide))
    (W4_of_ne m ρ c main_arg12 (by decide))
    (W6_of_ne m ρ c main_arg12 (by decide))
    (W8_of_ne m ρ c main_arg12 (by decide))
/-- `main_arg13` reaches the end as launched. -/
theorem W8_main_arg13 (c : Dev nD) : W8 m ρ c (Proc.devRef .tc main_arg13) = m ((c : Thread nD τ).loc main_arg13) :=
  W8_keep m ρ c main_arg13 (by decide) (by decide) (by decide) (by decide)
    (W2_of_ne m ρ c main_arg13 (by decide))
    (W4_of_ne m ρ c main_arg13 (by decide))
    (W6_of_ne m ρ c main_arg13 (by decide))
    (W8_of_ne m ρ c main_arg13 (by decide))
/-- `main_arg14` reaches the end as launched. -/
theorem W8_main_arg14 (c : Dev nD) : W8 m ρ c (Proc.devRef .tc main_arg14) = m ((c : Thread nD τ).loc main_arg14) :=
  W8_keep m ρ c main_arg14 (by decide) (by decide) (by decide) (by decide)
    (W2_of_ne m ρ c main_arg14 (by decide))
    (W4_of_ne m ρ c main_arg14 (by decide))
    (W6_of_ne m ρ c main_arg14 (by decide))
    (W8_of_ne m ρ c main_arg14 (by decide))
/-- `main_arg15` reaches the end as launched. -/
theorem W8_main_arg15 (c : Dev nD) : W8 m ρ c (Proc.devRef .tc main_arg15) = m ((c : Thread nD τ).loc main_arg15) :=
  W8_keep m ρ c main_arg15 (by decide) (by decide) (by decide) (by decide)
    (W2_of_ne m ρ c main_arg15 (by decide))
    (W4_of_ne m ρ c main_arg15 (by decide))
    (W6_of_ne m ρ c main_arg15 (by decide))
    (W8_of_ne m ρ c main_arg15 (by decide))
/-- `main_arg16` reaches the end as launched. -/
theorem W8_main_arg16 (c : Dev nD) : W8 m ρ c (Proc.devRef .tc main_arg16) = m ((c : Thread nD τ).loc main_arg16) :=
  W8_keep m ρ c main_arg16 (by decide) (by decide) (by decide) (by decide)
    (W2_of_ne m ρ c main_arg16 (by decide))
    (W4_of_ne m ρ c main_arg16 (by decide))
    (W6_of_ne m ρ c main_arg16 (by decide))
    (W8_of_ne m ρ c main_arg16 (by decide))
/-- `main_arg17` reaches the end as launched. -/
theorem W8_main_arg17 (c : Dev nD) : W8 m ρ c (Proc.devRef .tc main_arg17) = m ((c : Thread nD τ).loc main_arg17) :=
  W8_keep m ρ c main_arg17 (by decide) (by decide) (by decide) (by decide)
    (W2_of_ne m ρ c main_arg17 (by decide))
    (W4_of_ne m ρ c main_arg17 (by decide))
    (W6_of_ne m ρ c main_arg17 (by decide))
    (W8_of_ne m ρ c main_arg17 (by decide))
/-- `main_arg18` reaches the end as launched. -/
theorem W8_main_arg18 (c : Dev nD) : W8 m ρ c (Proc.devRef .tc main_arg18) = m ((c : Thread nD τ).loc main_arg18) :=
  W8_keep m ρ c main_arg18 (by decide) (by decide) (by decide) (by decide)
    (W2_of_ne m ρ c main_arg18 (by decide))
    (W4_of_ne m ρ c main_arg18 (by decide))
    (W6_of_ne m ρ c main_arg18 (by decide))
    (W8_of_ne m ρ c main_arg18 (by decide))
/-- `main_arg19` reaches the end as launched. -/
theorem W8_main_arg19 (c : Dev nD) : W8 m ρ c (Proc.devRef .tc main_arg19) = m ((c : Thread nD τ).loc main_arg19) :=
  W8_keep m ρ c main_arg19 (by decide) (by decide) (by decide) (by decide)
    (W2_of_ne m ρ c main_arg19 (by decide))
    (W4_of_ne m ρ c main_arg19 (by decide))
    (W6_of_ne m ρ c main_arg19 (by decide))
    (W8_of_ne m ρ c main_arg19 (by decide))

/-- The result buffer at the last boundary: region 3's output array as its write-back leaves it. -/
theorem W8_main_v76 (c : Dev nD) : W8 m ρ c (Proc.devRef .tc main_v76) = (dat3 (V7 m ρ) c).arrAt 2 cfg3.N :=
  W8_arr m ρ c 2

end Cert.Kernel.Hand

end
-- ==== Proof.K.Frame.lean ====
/-
  The kernel program's run, read at the buffers the claims speak of: the result buffer ends at what region 3's one
  write-back leaves in its output array, and every argument array ends as launched. The frame claim is the second half.
-/
import proofs.«419563_j70007966925389_1_alg».proof.Proof.Gen.Kernel.Launch
import proofs.«419563_j70007966925389_1_alg».proof.Proof.Gen.Kernel.Skeleton
import proofs.«419563_j70007966925389_1_alg».proof.Proof.Gen.Kernel.Points
import proofs.«419563_j70007966925389_1_alg».proof.Proof.K.Run
import proofs.«419563_j70007966925389_1_alg».proof.Proof.K.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of @main terminates without a fault; the result buffer ends at region 3's output array as its
    write-back leaves it, and every argument as launched. -/
theorem run_named : θ_run defs (onTc (τ := τ) (main (F := F))) ⟨m, fun _ => 0, ρ⟩ (fun r => ∀ c : Dev nD,
      r.2.mem ((c.tc : Thread nD τ).loc main_v76) = (dat3 (V7 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v76 (by decide))).trans (W8_main_v76 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c)⟩) (run_all m ρ)

/-- THE FRAME, at any float instance: @main terminates, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run_named m ρ)

end Cert.Kernel.Hand

end
-- ==== Proof.KI.Defs.lean ====
/-
  What each of the four kernel regions is told and what it leaves, as data over the buffer contents `V` a region is
  entered with. A window's block at a grid point is the rows 5000·t … 5000·t + 4999 of its array (the whole array for the
  weight, bias and batch-norm windows). The three dense regions store, at every point, one block of rows of their
  output: the body's arithmetic applied to the point's input blocks. The pooling region keeps a pair (sum, count) of
  64×128 accumulators between points: cleared before the first point's update, increased at every point by the
  one-hot product of the point's rows, and divided (sum by max(count, 1)) into the output at the last point.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when a region is entered: each region's data are stated at this parameter
variable (V : (c : Dev nD) → (b : Ref sig .tc) → Buf (Elt F) ((c : Thread nD τ).loc b))

/-! ## Region 0: the first layer (128 → 64), batch norm and ReLU -/

/-- Window `w` of call 0 at grid point `t`: the block of its array, as the region finds the array (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 5000×64 block of rows region 0 stores at point `t`: the layer's arithmetic on the point's rows of the neighbour mean
    (window 0) and of the features (window 1), the two weight matrices (2, 3), the bias (4) and the batch-norm scale, shift,
    mean and variance (5, 6, 7, 8). -/
def out0 (c : Dev nD) (t : Fin cfg0.N) : Vec F S5000x64 .f32 :=
  k0_pay1 (iblk0 V c 0 t) (iblk0 V c 1 t) (iblk0 V c 2 t) (iblk0 V c 3 t) (iblk0 V c 4 t) (iblk0 V c 7 t) (iblk0 V c 8 t) (iblk0 V c 5 t) (iblk0 V c 6 t)

/-- Region 0's proof data: its arrays as entered; after the body each input buffer still at its block, the output buffer at
    `out0`; the invariant is the scratch and generator register untouched; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0 V c t
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0 V c t := by dsimp only [dat0]

/-! ## Region 1: the second layer (64 → 64), batch norm and ReLU -/

/-- Window `w` of call 1 at grid point `t`: the block of its array, as the region finds the array (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 5000×64 block region 1 stores at point `t` (the same arithmetic as region 0 at width 64; the ReLU is the maximum of
    the normalised value and the zero block). -/
def out1 (c : Dev nD) (t : Fin cfg1.N) : Vec F S5000x64 .f32 :=
  k1_pay1 (k1_pay2 (iblk1 V c 0 t) (iblk1 V c 1 t) (iblk1 V c 2 t) (iblk1 V c 3 t) (iblk1 V c 4 t) (iblk1 V c 7 t) (iblk1 V c 8 t) (iblk1 V c 5 t) (iblk1 V c 6 t)) k1_pay3

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1 V c t
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1 V c t := by dsimp only [dat1]

/-! ## Region 2: the third layer (64 → 128), no normalisation -/

/-- Window `w` of call 2 at grid point `t`: the block of its array, as the region finds the array (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The 5000×128 block region 2 stores at point `t`: mean·W_l + x·W_r + b on the point's rows. -/
def out2 (c : Dev nD) (t : Fin cfg2.N) : Vec F S5000x128 .f32 :=
  k2_pay1 (iblk2 V c 0 t) (iblk2 V c 1 t) (iblk2 V c 2 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2 V c t
  Φ _ := Pipeline.ΦA spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2 V c t := by dsimp only [dat2]

/-! ## Region 3: the mean over each graph's nodes -/

/-- Window `w` of call 3 at grid point `t`: the block of its array, as the region finds the array (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- THE ACCUMULATION. The pair (sum, count) the two scratch buffers hold after point `n`: at point 0 the cleared buffers
    (`k3_pay1`, `k3_pay2`: zeros) plus the point's one-hot products; at a later point what the point before left plus its own.
    Window 0 is the point's 5000 rows of node features, window 1 their 5000 graph ids. -/
def acc3 (c : Dev nD) : (n : ℕ) → n < cfg3.N → Vec F S64x128 .f32 × Vec F S64x128 .f32
  | 0, h => (k3_pay4 (iblk3 V c 1 ⟨0, h⟩) (iblk3 V c 0 ⟨0, h⟩) k3_pay1, k3_pay5 (iblk3 V c 1 ⟨0, h⟩) k3_pay2)
  | n + 1, h => (k3_pay4 (iblk3 V c 1 ⟨n + 1, h⟩) (iblk3 V c 0 ⟨n + 1, h⟩) (acc3 c n (Nat.lt_of_succ_lt h)).1,
      k3_pay5 (iblk3 V c 1 ⟨n + 1, h⟩) (acc3 c n (Nat.lt_of_succ_lt h)).2)

theorem acc3_zero (c : Dev nD) (h : 0 < cfg3.N) :
    acc3 V c 0 h = (k3_pay4 (iblk3 V c 1 ⟨0, h⟩) (iblk3 V c 0 ⟨0, h⟩) k3_pay1, k3_pay5 (iblk3 V c 1 ⟨0, h⟩) k3_pay2) := rfl
theorem acc3_succ (c : Dev nD) (n : ℕ) (h : n + 1 < cfg3.N) :
    acc3 V c (n + 1) h = (k3_pay4 (iblk3 V c 1 ⟨n + 1, h⟩) (iblk3 V c 0 ⟨n + 1, h⟩) (acc3 V c n (Nat.lt_of_succ_lt h)).1,
      k3_pay5 (iblk3 V c 1 ⟨n + 1, h⟩) (acc3 V c n (Nat.lt_of_succ_lt h)).2) := rfl

/-- The quotient sum / max(count, 1) of the pair after point `t`. The body stores it into the output's buffer at the last
    point only, and only there is the buffer written back; at the other points the window is idle and this value is not
    consulted. -/
def out3 (c : Dev nD) (t : Fin cfg3.N) : Vec F S64x128 .f32 :=
  k3_pay6 (acc3 V c t.val t.isLt).1 (acc3 V c t.val t.isLt).2

/-- The region invariant before position `n`: before the first point the scoped rest at anything and the generator register;
    afterwards the two scratch buffers at the pair the point before left, the other scoped buffers at anything, the register. -/
def PhiS3 (c : Dev nD) : (n : ℕ) → n ≤ cfg3.N → sProp 𝕄
  | 0, _ => Pipeline.ΦA spec3 c
  | n + 1, hn => iprop(owns (c : Thread nD τ) (Memref.whole cc3_scratch0) fullShare (acc3 V c n (Nat.lt_of_succ_le hn)).1
      ∗ owns (c : Thread nD τ) (Memref.whole cc3_scratch1) fullShare (acc3 V c n (Nat.lt_of_succ_le hn)).2
      ∗ Pipeline.scopedRestBut (Ix := Unit) (Name := ℕ) (U := UR sig nD τ) (Lvl := ℕ) (Val := Elt F) spec3 c [cc3_scratch0, cc3_scratch1]
      ∗ (∃ r, prngReg c r))

theorem PhiS3_zero (c : Dev nD) (h : 0 ≤ cfg3.N) : PhiS3 V c 0 h = Pipeline.ΦA spec3 c := rfl
theorem PhiS3_succ (c : Dev nD) (n : ℕ) (hn : n + 1 ≤ cfg3.N) :
    PhiS3 V c (n + 1) hn = iprop(owns (c : Thread nD τ) (Memref.whole cc3_scratch0) fullShare (acc3 V c n (Nat.lt_of_succ_le hn)).1
      ∗ owns (c : Thread nD τ) (Memref.whole cc3_scratch1) fullShare (acc3 V c n (Nat.lt_of_succ_le hn)).2
      ∗ Pipeline.scopedRestBut (Ix := Unit) (Name := ℕ) (U := UR sig nD τ) (Lvl := ℕ) (Val := Elt F) spec3 c [cc3_scratch0, cc3_scratch1]
      ∗ (∃ r, prngReg c r)) := rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3 V c t := by dsimp only [dat3]

end Cert.KernelIdeal.Hand

end
-- ==== Proof.KI.Fold.lean ====
/-
  The contents of the TensorCore's buffers at each boundary between two items of the program, folded from the launch
  memory: a stretch of host operations applies them in order; a kernel region leaves its input arrays as entered and its
  output array at what the write-backs of its points assemble; every other buffer is untouched by a region.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host stretch `hostOps0` (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (inputs as entered, the output's write-backs folded), every
    other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the host stretch `hostOps1` (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (inputs as entered, the output's write-backs folded), every
    other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the host stretch `hostOps2` (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (inputs as entered, the output's write-backs folded), every
    other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the host stretch `hostOps3` (region 3's entry). -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b

/-- At region 3's exit: its arrays at what the pipeline leaves (inputs as entered, the output's write-backs folded), every
    other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- The same read at the TensorCore's references. -/
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

end Cert.KernelIdeal.Hand

end
-- ==== Proof.KI.R0.lean ====
/-
  Region 0's body, run once at a generic grid point: handed its windows' buffers at the point's blocks, it returns them with
  the output's buffer at what the region's data say, touching nothing else.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a rank-2 access, spelt as the printed accesses spell them. -/
theorem hz0 : (![0, 0] : Fin 2 → ℕ) = fun _ => 0 := by funext a; fin_cases a <;> rfl

/-! ## What the body finds in its input buffers

An input window's staging buffer holds the window's block at the point whether or not the pipeline fetched it there:
the row blocks (windows 0 and 1) are fetched at every point; the weights, the bias and the batch-norm vectors
(windows 2 to 8) are fetched at the first point only, and since their block index never moves, what the buffer still
holds from the point before is this point's block. -/

theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

theorem before0_4 (c : Dev nD) (t : Fin cfg0.N) (d) : (dat0 V c).before 4 t d = iblk0 V c 4 t :=
  ((dat0 V c).before_in_eq_fetched 4 rfl (fun _ => rfl) (fun _ _ _ => rfl)
      (fun t => by rw [after0_4]; unfold Dat.blockOf iblk0; rw [A_eq0]; try rfl) t d).trans
    (by unfold Dat.fetched Dat.blockOf iblk0; rw [A_eq0]; try rfl)

theorem before0_5 (c : Dev nD) (t : Fin cfg0.N) (d) : (dat0 V c).before 5 t d = iblk0 V c 5 t :=
  ((dat0 V c).before_in_eq_fetched 5 rfl (fun _ => rfl) (fun _ _ _ => rfl)
      (fun t => by rw [after0_5]; unfold Dat.blockOf iblk0; rw [A_eq0]; try rfl) t d).trans
    (by unfold Dat.fetched Dat.blockOf iblk0; rw [A_eq0]; try rfl)

theorem before0_6 (c : Dev nD) (t : Fin cfg0.N) (d) : (dat0 V c).before 6 t d = iblk0 V c 6 t :=
  ((dat0 V c).before_in_eq_fetched 6 rfl (fun _ => rfl) (fun _ _ _ => rfl)
      (fun t => by rw [after0_6]; unfold Dat.blockOf iblk0; rw [A_eq0]; try rfl) t d).trans
    (by unfold Dat.fetched Dat.blockOf iblk0; rw [A_eq0]; try rfl)

theorem before0_7 (c : Dev nD) (t : Fin cfg0.N) (d) : (dat0 V c).before 7 t d = iblk0 V c 7 t :=
  ((dat0 V c).before_in_eq_fetched 7 rfl (fun _ => rfl) (fun _ _ _ => rfl)
      (fun t => by rw [after0_7]; unfold Dat.blockOf iblk0; rw [A_eq0]; try rfl) t d).trans
    (by unfold Dat.fetched Dat.blockOf iblk0; rw [A_eq0]; try rfl)

theorem before0_8 (c : Dev nD) (t : Fin cfg0.N) (d) : (dat0 V c).before 8 t d = iblk0 V c 8 t :=
  ((dat0 V c).before_in_eq_fetched 8 rfl (fun _ => rfl) (fun _ _ _ => rfl)
      (fun t => by rw [after0_8]; unfold Dat.blockOf iblk0; rw [A_eq0]; try rfl) t d).trans
    (by unfold Dat.fetched Dat.blockOf iblk0; rw [A_eq0]; try rfl)

/-! ## The body's triple -/

/-- The one store covers the output's buffer: its rectangle is the whole buffer. -/
theorem cover0 (p : Vec F S5000x64 .f32) (y : S5000x64.Idx) :
    ∃ pc ∈ ([⟨Rect.unit (s := S5000x64) ![0, 0] S5000x64.size inb_S5000x64_S5000x64_0_0, p⟩] : List (View.Piece (Elt F) S5000x64 .f32)), y ∈ pc.1.set :=
  ⟨_, List.mem_singleton_self _, View.mem_set_unit_zero hz0 inb_S5000x64_S5000x64_0_0 y⟩

set_option maxHeartbeats 1000000 in
/-- The body on whole staging memrefs, the nine inputs' at read contents `x0 … x8` and the output's at anything, runs to
    the continuation holding the inputs' as they were and the output's at the layer's arithmetic on them: nine whole-buffer
    loads, a load of the output's buffer whose value is not used, and one whole-buffer store. -/
theorem sound_kernel0 (c : Dev nD) (E : Set ℕ) (i : grid0.Coords) (arg1 : Memref sig .tc .vmem S5000x128 .f32) (harg1 : arg1.IsWhole) (arg2 : Memref sig .tc .vmem S5000x128 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S5000x64 .f32) (harg10 : arg10.IsWhole)
    (x0 : Vec F S5000x128 .f32) (x1 : Vec F S5000x128 .f32) (x2 : Vec F S128x64 .f32) (x3 : Vec F S128x64 .f32) (x4 : Vec F S1x64 .f32) (x5 : Vec F S1x64 .f32) (x6 : Vec F S1x64 .f32) (x7 : Vec F S1x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay1 x0 x1 x2 x3 x4 x7 x8 x5 x6)) -∗ K ⟨⟩))
      ⊢ wp frame (wpE (defs₀ (F := F)) Variants.none c none) E (cc0__dense_bn_relu_kernel i arg1 harg1 arg2 harg2 arg3 harg3 arg4 harg4 arg5 harg5 arg6 harg6 arg7 harg7 arg8 harg8 arg9 harg9 arg10 harg10) K := by
  simp only [cc0__dense_bn_relu_kernel_eq_skeleton]; unfold cc0__dense_bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _ (cover0 _), View.canon_unit_zero hz0]
  sl_unfold_words
  simp only [View.readAt_eq_ld, View.ld_unit_zero (S := S5000x128) hz0, View.ld_unit_zero (S := S128x64) hz0,
    View.ld_unit_zero (S := S1x64) hz0]

/-! ## The body obligation, at a generic point -/

/-- What the body is called with at point `t`: the invariant, the core's debts, and each window's current staging buffer
    at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns: the same, each buffer at what the region's data say the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at any point: the inputs' buffers hold their blocks, so the body's triple applies at those blocks; the
    invariant (constant in the point) and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  unfold out0
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1.lean ====
/-
  Region 1's body, run once at a generic grid point: handed its windows' buffers at the point's blocks, it returns them with
  the output's buffer at what the region's data say, touching nothing else.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- An input window's current buffer holds the point's block of its array whether or not the pipeline fetched it at this
    point: where it was not fetched (the weights, the bias and the four batch-norm rows after the first point) the block
    index has not moved since the fetch, and the body leaves its inputs in place. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem before1_4 (c : Dev nD) (t : Fin cfg1.N) (d) : (dat1 V c).before 4 t d = iblk1 V c 4 t :=
  ((dat1 V c).before_in_eq_fetched 4 rfl (fun _ => rfl) (fun _ _ _ => rfl)
      (fun t => by rw [after1_4]; unfold Dat.blockOf iblk1; rw [A_eq1]; try rfl) t d).trans
    (by unfold Dat.fetched Dat.blockOf iblk1; rw [A_eq1]; try rfl)

theorem before1_5 (c : Dev nD) (t : Fin cfg1.N) (d) : (dat1 V c).before 5 t d = iblk1 V c 5 t :=
  ((dat1 V c).before_in_eq_fetched 5 rfl (fun _ => rfl) (fun _ _ _ => rfl)
      (fun t => by rw [after1_5]; unfold Dat.blockOf iblk1; rw [A_eq1]; try rfl) t d).trans
    (by unfold Dat.fetched Dat.blockOf iblk1; rw [A_eq1]; try rfl)

theorem before1_6 (c : Dev nD) (t : Fin cfg1.N) (d) : (dat1 V c).before 6 t d = iblk1 V c 6 t :=
  ((dat1 V c).before_in_eq_fetched 6 rfl (fun _ => rfl) (fun _ _ _ => rfl)
      (fun t => by rw [after1_6]; unfold Dat.blockOf iblk1; rw [A_eq1]; try rfl) t d).trans
    (by unfold Dat.fetched Dat.blockOf iblk1; rw [A_eq1]; try rfl)

theorem before1_7 (c : Dev nD) (t : Fin cfg1.N) (d) : (dat1 V c).before 7 t d = iblk1 V c 7 t :=
  ((dat1 V c).before_in_eq_fetched 7 rfl (fun _ => rfl) (fun _ _ _ => rfl)
      (fun t => by rw [after1_7]; unfold Dat.blockOf iblk1; rw [A_eq1]; try rfl) t d).trans
    (by unfold Dat.fetched Dat.blockOf iblk1; rw [A_eq1]; try rfl)

theorem before1_8 (c : Dev nD) (t : Fin cfg1.N) (d) : (dat1 V c).before 8 t d = iblk1 V c 8 t :=
  ((dat1 V c).before_in_eq_fetched 8 rfl (fun _ => rfl) (fun _ _ _ => rfl)
      (fun t => by rw [after1_8]; unfold Dat.blockOf iblk1; rw [A_eq1]; try rfl) t d).trans
    (by unfold Dat.fetched Dat.blockOf iblk1; rw [A_eq1]; try rfl)

/-! ## The body's run -/

/-- The two zero offsets of the whole-buffer rectangles, as a constant function. -/
private theorem hz1 : (![0, 0] : Fin 2 → Nat) = fun _ => 0 := funext fun a => by fin_cases a <;> rfl

set_option maxHeartbeats 1000000 in
/-- The body on whole buffers: it loads the nine inputs (rows of the neighbour mean and of the features, the two weight
    matrices, the bias, then the batch-norm mean and variance, then its scale and shift), forms the normalised layer value
    and the zero block, loads the output's buffer without using what it read, and stores the maximum of the two over the
    whole output buffer. The inputs come back as they were; the output's buffer, whatever it held, comes back at that
    maximum. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S1x64 .f32) (harg9 : arg9.IsWhole) (arg10 : Memref sig .tc .vmem S5000x64 .f32) (harg10 : arg10.IsWhole)
    (x0 : Vec F S5000x64 .f32) (x1 : Vec F S5000x64 .f32) (x2 : Vec F S64x64 .f32) (x3 : Vec F S64x64 .f32)
    (x4 : Vec F S1x64 .f32) (x5 : Vec F S1x64 .f32) (x6 : Vec F S1x64 .f32) (x7 : Vec F S1x64 .f32) (x8 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8 ∗ (∃ d, owns (c : Thread nD τ) arg10 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (k1_pay1 (k1_pay2 x0 x1 x2 x3 x4 x7 x8 x5 x6) k1_pay3)) -∗ K ⟨⟩))
      ⊢ wp frame (wpE (defs₀ (F := F)) Variants.none c none) E
          (cc1__dense_bn_relu_kernel i arg1 harg1 arg2 harg2 arg3 harg3 arg4 harg4 arg5 harg5 arg6 harg6 arg7 harg7 arg8 harg8 arg9 harg9 arg10 harg10) K := by
  simp only [cc1__dense_bn_relu_kernel_eq_skeleton]; unfold cc1__dense_bn_relu_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  rw [View.read_writes_eq_canon _ _ _
      (fun y => ⟨_, List.mem_singleton_self _, View.mem_set_unit_zero hz1 inb_S5000x64_S5000x64_0_0 y⟩)]
  sl_unfold_words
  rw [View.canon_unit_zero hz1]
  simp only [View.readAt_eq_ld, View.ld_unit_zero (S := S5000x64) hz1, View.ld_unit_zero (S := S64x64) hz1,
    View.ld_unit_zero (S := S1x64) hz1]

/-! ## The body obligation, at a generic point -/

/-- What the body is called with at point `t`: the invariant, the core's debts, and each window's current buffer — an
    input's at what the pipeline left there, the output's at anything. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What it returns: the same invariant and debts, each buffer at what the region's data name. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body at any point. The input buffers hold the point's blocks, so the run above applies with those blocks as the
    loaded values; the invariant does not depend on the point and the core owes nothing before or after, so both pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold out1
  iexact H9

/-- The library's body obligation for region 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.R2.lean ====
/-
  Region 2's body, run once at a generic grid point: handed its windows' buffers at the point's blocks, it returns them with
  the output's buffer at what the region's data say, touching nothing else.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in its input buffers -/

/-- An input window's current buffer holds the point's block of its array whether or not the pipeline fetched it at this
    point: where it was not fetched (the weights and the bias after the first point) the block index has not moved since
    the fetch, and the body leaves its inputs in place. -/
theorem before2_0 (c : Dev nD) (t : Fin cfg2.N) (d) : (dat2 V c).before 0 t d = iblk2 V c 0 t :=
  ((dat2 V c).before_in_eq_fetched 0 rfl (fun _ => rfl) (fun _ _ _ => rfl)
      (fun t => by rw [after2_0]; unfold Dat.blockOf iblk2; rw [A_eq2]; try rfl) t d).trans
    (by unfold Dat.fetched Dat.blockOf iblk2; rw [A_eq2]; try rfl)

theorem before2_1 (c : Dev nD) (t : Fin cfg2.N) (d) : (dat2 V c).before 1 t d = iblk2 V c 1 t :=
  ((dat2 V c).before_in_eq_fetched 1 rfl (fun _ => rfl) (fun _ _ _ => rfl)
      (fun t => by rw [after2_1]; unfold Dat.blockOf iblk2; rw [A_eq2]; try rfl) t d).trans
    (by unfold Dat.fetched Dat.blockOf iblk2; rw [A_eq2]; try rfl)

theorem before2_2 (c : Dev nD) (t : Fin cfg2.N) (d) : (dat2 V c).before 2 t d = iblk2 V c 2 t :=
  ((dat2 V c).before_in_eq_fetched 2 rfl (fun _ => rfl) (fun _ _ _ => rfl)
      (fun t => by rw [after2_2]; unfold Dat.blockOf iblk2; rw [A_eq2]; try rfl) t d).trans
    (by unfold Dat.fetched Dat.blockOf iblk2; rw [A_eq2]; try rfl)

theorem before2_3 (c : Dev nD) (t : Fin cfg2.N) (d) : (dat2 V c).before 3 t d = iblk2 V c 3 t :=
  ((dat2 V c).before_in_eq_fetched 3 rfl (fun _ => rfl) (fun _ _ _ => rfl)
      (fun t => by rw [after2_3]; unfold Dat.blockOf iblk2; rw [A_eq2]; try rfl) t d).trans
    (by unfold Dat.fetched Dat.blockOf iblk2; rw [A_eq2]; try rfl)

theorem before2_4 (c : Dev nD) (t : Fin cfg2.N) (d) : (dat2 V c).before 4 t d = iblk2 V c 4 t :=
  ((dat2 V c).before_in_eq_fetched 4 rfl (fun _ => rfl) (fun _ _ _ => rfl)
      (fun t => by rw [after2_4]; unfold Dat.blockOf iblk2; rw [A_eq2]; try rfl) t d).trans
    (by unfold Dat.fetched Dat.blockOf iblk2; rw [A_eq2]; try rfl)

/-! ## The body's run -/

/-- The two zero offsets of the whole-buffer rectangles, as a constant function. -/
private theorem hz2 : (![0, 0] : Fin 2 → Nat) = fun _ => 0 := funext fun a => by fin_cases a <;> rfl

set_option maxHeartbeats 1000000 in
/-- The body on whole buffers: it loads the five inputs, loads the output's buffer without using what it read, and stores
    mean·W_l + x·W_r + b of the loaded inputs over the whole output buffer. The inputs come back as they were; the output's
    buffer, whatever it held, comes back at that value. -/
theorem sound_kernel2 (c : Dev nD) (E : Set ℕ) (i : grid2.Coords)
    (arg1 : Memref sig .tc .vmem S5000x64 .f32) (harg1 : arg1.IsWhole) (arg2 : Memref sig .tc .vmem S5000x64 .f32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x64 .f32) (x1 : Vec F S5000x64 .f32) (x2 : Vec F S64x128 .f32) (x3 : Vec F S64x128 .f32) (x4 : Vec F S1x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k2_pay1 x0 x1 x2 x3 x4)) -∗ K ⟨⟩))
      ⊢ wp frame (wpE (defs₀ (F := F)) Variants.none c none) E
          (cc2__dense_kernel i arg1 harg1 arg2 harg2 arg3 harg3 arg4 harg4 arg5 harg5 arg6 harg6) K := by
  simp only [cc2__dense_kernel_eq_skeleton]; unfold cc2__dense_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  rw [View.read_writes_eq_canon _ _ _
      (fun y => ⟨_, List.mem_singleton_self _, View.mem_set_unit_zero hz2 inb_S5000x128_S5000x128_0_0 y⟩),
    View.canon_unit_zero hz2]
  simp only [View.readAt_eq_ld, View.ld_unit_zero (S := S5000x64) hz2, View.ld_unit_zero (S := S64x128) hz2,
    View.ld_unit_zero (S := S1x128) hz2]

/-! ## The body obligation, at a generic point -/

/-- What the body is called with at point `t`: the invariant, the core's debts, and each window's current buffer — an
    input's at what the pipeline left there, the output's at anything. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- What it returns: the same invariant and debts, each buffer at what the region's data name. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point. The input buffers hold the point's blocks, so the run above applies with those blocks as the
    loaded values; the invariant does not depend on the point and the core owes nothing before or after, so both pass
    through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold out2
  iexact H5

/-- The library's body obligation for region 2, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.R3a.lean ====
/-
  The pooling region's body: what its runs share. The two conditionals of the body test the grid coordinate — the first
  holds at the first point only (there the two accumulators are cleared), the second at the last point only (there the
  quotient is stored) —; the output window is idle wherever the second fails; the two input windows hold their blocks at
  every point; and the class invariant, opened at the region's own two accumulators.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The two conditions, in closed form -/

/-- The first conditional's test, on the grid coordinate: "this is point 0". -/
abbrev atFirst (i : grid3.Coords) : Prop :=
  (Scalar.cmpi .ne (Scalar.extui (Scalar.cmpi .eq (BitVec.ofNat 32 (i 0).val) 0#32)) 0#32) = 1#1

/-- It holds at point 0 and nowhere else. -/
theorem atFirst_iff : ∀ t : Fin cfg3.N, atFirst (grid3.coords t) ↔ t.val = 0 :=
  (by decide +kernel : ∀ t : Fin grid3.N, atFirst (grid3.coords t) ↔ t.val = 0)

/-- The second conditional's test: "this is point 9". -/
abbrev atLast (i : grid3.Coords) : Prop := k3_cond2 i = 1#1

/-- It holds at point 9 and nowhere else. -/
theorem atLast_iff : ∀ t : Fin cfg3.N, atLast (grid3.coords t) ↔ t.val = 9 :=
  (by decide +kernel : ∀ t : Fin grid3.N, atLast (grid3.coords t) ↔ t.val = 9)

/-! ## Where the windows are idle -/

/-- The feature rows (window 0) and the graph ids (window 1) are live at every point. -/
theorem live3_0 : ∀ t : Fin cfg3.N, cfg3.idle 0 (grid3.coords t) = false := by decide +kernel
theorem live3_1 : ∀ t : Fin cfg3.N, cfg3.idle 1 (grid3.coords t) = false := by decide +kernel
/-- The output (window 2) is idle, and not written back, wherever the second conditional fails; -/
theorem idle3_2 : ∀ t : Fin cfg3.N, ¬atLast (grid3.coords t) → cfg3.idle 2 (grid3.coords t) = true := by decide +kernel
theorem noFlush3_2 : ∀ t : Fin cfg3.N, ¬atLast (grid3.coords t) → (cfg3.win 2).flush t = false := by decide +kernel
/-- live where it holds. -/
theorem live3_2 : ∀ t : Fin cfg3.N, atLast (grid3.coords t) → cfg3.idle 2 (grid3.coords t) = false := by decide +kernel

/-! ## The inputs' buffers hold their blocks -/

/-- The feature rows' current buffer holds the point's block, fetched there or not. -/
theorem before3_0 (c : Dev nD) (t : Fin cfg3.N) (d) : (dat3 (F := F) V c).before 0 t d = iblk3 V c 0 t :=
  ((dat3 V c).before_in_eq_fetched 0 rfl (fun _ => rfl) (fun _ _ _ => rfl)
      (fun t => by rw [after3_0]; unfold Dat.blockOf iblk3; rw [A_eq3]; try rfl) t d).trans
    (by unfold Dat.fetched Dat.blockOf iblk3; rw [A_eq3]; try rfl)

/-- The graph ids' current buffer holds the point's block, fetched there or not. -/
theorem before3_1 (c : Dev nD) (t : Fin cfg3.N) (d) : (dat3 (F := F) V c).before 1 t d = iblk3 V c 1 t :=
  ((dat3 V c).before_in_eq_fetched 1 rfl (fun _ => rfl) (fun _ _ _ => rfl)
      (fun t => by rw [after3_1]; unfold Dat.blockOf iblk3; rw [A_eq3]; try rfl) t d).trans
    (by unfold Dat.fetched Dat.blockOf iblk3; rw [A_eq3]; try rfl)

/-! ## The class invariant at the region's two accumulators -/

/-- The class invariant with the sum and count accumulators taken out of the scoped rest, each a whole buffer owned at
    some contents. -/
theorem PhiA3_eq (c : Dev nD) :
    (Pipeline.ΦA spec3 c : sProp 𝕄)
      = iprop(iprop(iprop((∃ d, owns (c : Thread nD τ) (Memref.whole cc3_scratch0) fullShare d)
            ∗ (∃ d, owns (c : Thread nD τ) (Memref.whole cc3_scratch1) fullShare d))
          ∗ Pipeline.scopedRestBut (Ix := Unit) (Name := ℕ) (U := UR sig nD τ) (Lvl := ℕ) (Val := Elt F) spec3 c [cc3_scratch0, cc3_scratch1])
        ∗ (∃ r, prngReg c r)) := by
  unfold Pipeline.ΦA; rw [scopedRest3_split]; simp only [owns_whole]; try rfl

/-! ## Whole-buffer accesses -/

/-- The offsets of the body's accesses are all zero, at each of the three shapes it touches. -/
theorem zeroOff64x128 : (![0, 0] : Fin S64x128.rank → Nat) = fun _ => 0 := by
  funext a; fin_cases a <;> rfl
theorem zeroOff5000x128 : (![0, 0] : Fin S5000x128.rank → Nat) = fun _ => 0 := by
  funext a; fin_cases a <;> rfl
theorem zeroOff5000x1 : (![0, 0] : Fin S5000x1.rank → Nat) = fun _ => 0 := by
  funext a; fin_cases a <;> rfl

/-- After a list of stores of which the LAST fills the whole shape (the full-size rectangle at zero offsets, however the
    zeros are spelt), a view reads that store's payload, whatever the earlier stores and the prior contents were: every
    index lies under the last store. -/
theorem read_after_whole_store {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb (v := v) (f := f) (Rect.whole S) w L y
  rw [Rect.emb_whole_apply] at e
  exact e

end Cert.KernelIdeal.Hand

end
-- ==== Proof.KI.R3First.lean ====
/-
  The pooling body at the grid's first point: both accumulators are cleared, then increased by the point's one-hot
  products; the output is not touched.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.KI.R3a
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE FIRST POINT. On whole buffers — the two inputs' at their blocks `x0` (feature rows) and `x1` (graph ids), the
    output's at contents `xi2` that come back untouched, the two accumulators at anything — the body clears both
    accumulators, reads the cleared values back, and leaves the sum at `k3_pay4 x1 x0 k3_pay1` (zero plus the one-hot
    product of the rows) and the count at `k3_pay5 x1 k3_pay2` (zero plus the one-hot row counts); the second
    conditional is not taken. Each accumulator's last store covers it, so what it holds is that store's payload; the
    loads of the inputs read their whole blocks, and the load of an accumulator after its clearing reads the cleared value. -/
theorem run_first (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : atFirst i) (hc1 : ¬atLast i)
    (x0 : Vec F S5000x128 .f32) (x1 : Vec F S5000x1 .i32) (xi2 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare xi2
            ∗ owns (c : Thread nD τ) arg4 fullShare (k3_pay4 x1 x0 k3_pay1) ∗ owns (c : Thread nD τ) arg5 fullShare (k3_pay5 x1 k3_pay2)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [read_after_whole_store _ _ zeroOff64x128]
    simp only [View.readAt_eq_ld, harg1.read_unread, harg2.read_unread, View.ld_unit_zero (S := S5000x1) zeroOff5000x1,
      View.ld_unit_zero (S := S5000x128) zeroOff5000x128, View.readCov_unit_zero (S := S64x128) _ zeroOff64x128]
  · iexists _; isplitr
    swap; · iexact HS1
    ipureintro
    sl_unfold_words
    rw [read_after_whole_store _ _ zeroOff64x128]
    simp only [View.readAt_eq_ld, harg2.read_unread, View.ld_unit_zero (S := S5000x1) zeroOff5000x1,
      View.readCov_unit_zero (S := S64x128) _ zeroOff64x128]

end Cert.KernelIdeal.Hand

end
-- ==== Proof.KI.R3Mid.lean ====
/-
  The pooling body at a point that is neither the first nor the last: each accumulator goes from what the point before
  left to that plus the point's one-hot product; the output is not touched.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.KI.R3a
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- A MIDDLE POINT. On whole buffers — the two inputs' at their blocks `x0` (feature rows) and `x1` (graph ids), the
    output's at contents `xi2` that come back untouched, the sum accumulator at `xs0` and the count at `xs1` — neither
    conditional is taken: the body leaves the sum at `k3_pay4 x1 x0 xs0` and the count at `k3_pay5 x1 xs1`. Each
    accumulator's one store covers it; every load reads a whole buffer as it was handed over. -/
theorem run_mid (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : ¬atFirst i) (hc1 : ¬atLast i)
    (x0 : Vec F S5000x128 .f32) (x1 : Vec F S5000x1 .i32) (xi2 : Vec F S64x128 .f32) (xs0 xs1 : Vec F S64x128 .f32) (E : Set ℕ) (K : PUnit → sProp 𝕄) :
    iprop(owns (c : Thread nD τ) arg1 fullShare x0 ∗ owns (c : Thread nD τ) arg2 fullShare x1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare x1 ∗ owns (c : Thread nD τ) arg3 fullShare xi2
            ∗ owns (c : Thread nD τ) arg4 fullShare (k3_pay4 x1 x0 xs0) ∗ owns (c : Thread nD τ) arg5 fullShare (k3_pay5 x1 xs1)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [HS0]
  · iexists _; isplitr
    swap; · iexact HS0
    ipureintro
    sl_unfold_words
    rw [read_after_whole_store _ _ zeroOff64x128]
    simp only [View.readAt_eq_ld, harg1.read_unread, harg2.read_unread, harg4.read_unread, View.ld_unit_zero (S := S5000x1) zeroOff5000x1,
      View.ld_unit_zero (S := S5000x128) zeroOff5000x128, View.ld_unit_zero (S := S64x128) zeroOff64x128]
  · iexists _; isplitr
    swap; · iexact HS1
    ipureintro
    sl_unfold_words
    rw [read_after_whole_store _ _ zeroOff64x128]
    simp only [View.readAt_eq_ld, harg2.read_unread, harg5.read_unread, View.ld_unit_zero (S := S5000x1) zeroOff5000x1,
      View.ld_unit_zero (S := S64x128) zeroOff64x128]

end Cert.KernelIdeal.Hand

end
-- ==== Proof.KI.R3Last.lean ====
/-
  The pooling body at the grid's last point: the accumulators take their last increase, are read back, and the
  quotient sum / max(count, 1) is stored into the output's buffer.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.KI.R3a
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- THE LAST POINT. On whole buffers — the two inputs' at their blocks `x0` (feature rows) and `x1` (graph ids), the
    output's at anything, the sum accumulator at `xs0` and the count at `xs1` — the first conditional is not taken, the
    second is: the body leaves the sum at `k3_pay4 x1 x0 xs0`, the count at `k3_pay5 x1 xs1`, reads both back, and
    stores their quotient `k3_pay6` into the output's buffer. Each store covers its buffer; a load of an accumulator
    after its store reads that store's payload. -/
theorem run_last (c : Dev nD) (i : grid3.Coords)
    (arg1 : Memref sig .tc .vmem S5000x128 .f32) (harg1 : arg1.IsWhole) (arg2 : Memref sig .tc .vmem S5000x1 .i32) (harg2 : arg2.IsWhole)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (hc0 : ¬atFirst i) (hc1 : atLast i)
    (x0 : Vec F S5000x128 .f32) (x1 : Vec F S5000x1 .i32) (xs0 xs1 : Vec F S64x128 .f32) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare x1
            ∗ owns (c : Thread nD τ) arg3 fullShare (k3_pay6 (k3_pay4 x1 x0 xs0) (k3_pay5 x1 xs1))
            ∗ owns (c : Thread nD τ) arg4 fullShare (k3_pay4 x1 x0 xs0) ∗ owns (c : Thread nD τ) arg5 fullShare (k3_pay5 x1 xs1)) -∗ K ⟨⟩))
      ⊢ wp frame (wpE (defs₀ (F := F)) Variants.none c none) E (cc3__pool_kernel i arg1 harg1 arg2 harg2 arg3 harg3 arg4 harg4 arg5 harg5) K := by
  simp only [cc3__pool_kernel_eq_skeleton]; unfold cc3__pool_kernel_skel
  unfold owns
  iintro ⟨⟨%f0, %hf0, H0⟩, ⟨%f1, %hf1, H1⟩, ⟨%d2, %f2, -, H2⟩, ⟨%fs0, %hfs0, HS0⟩, ⟨%fs1, %hfs1, HS1⟩, Hk⟩
  obtain rfl := harg1.eq_unread hf0; obtain rfl := harg2.eq_unread hf1
  obtain rfl := harg4.eq_unread hfs0; obtain rfl := harg5.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_words
    rw [read_after_whole_store _ _ zeroOff64x128]
    simp only [View.readAt_eq_ld, harg1.read_unread, harg2.read_unread, harg4.read_unread, harg5.read_unread,
      View.ld_unit_zero (S := S5000x1) zeroOff5000x1, View.ld_unit_zero (S := S5000x128) zeroOff5000x128, View.ld_unit_zero (S := S64x128) zeroOff64x128,
      View.readCov_unit_zero (S := S64x128) _ zeroOff64x128]
  isplitl [HS0]
  · iexists _; isplitr
    swap; · iexact HS0
    ipureintro
    sl_unfold_words
    rw [read_after_whole_store _ _ zeroOff64x128]
    simp only [View.readAt_eq_ld, harg1.read_unread, harg2.read_unread, harg4.read_unread, View.ld_unit_zero (S := S5000x1) zeroOff5000x1,
      View.ld_unit_zero (S := S5000x128) zeroOff5000x128, View.ld_unit_zero (S := S64x128) zeroOff64x128]
  · iexists _; isplitr
    swap; · iexact HS1
    ipureintro
    sl_unfold_words
    rw [read_after_whole_store _ _ zeroOff64x128]
    simp only [View.readAt_eq_ld, harg2.read_unread, harg5.read_unread, View.ld_unit_zero (S := S5000x1) zeroOff5000x1,
      View.ld_unit_zero (S := S64x128) zeroOff64x128]

end Cert.KernelIdeal.Hand

end
-- ==== Proof.KI.R3.lean ====
/-
  Region 3's body, run once at a generic grid point: handed its windows' buffers at the point's blocks, it returns them with
  the output's buffer at what the region's data say, touching nothing else. The point is the first (accumulators cleared,
  then increased), a middle one (increased), or the last (increased, then divided into the output): the three runs, each
  met with the invariant's accumulator contents before and after the point.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«419563_j70007966925389_1_alg».proof.Proof.KI.R3First
import proofs.«419563_j70007966925389_1_alg».proof.Proof.KI.R3Mid
import proofs.«419563_j70007966925389_1_alg».proof.Proof.KI.R3Last

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulated pair and the invariant, by position -/

/-- The pair after the first point: the cleared accumulators plus the point's one-hot products. -/
theorem acc3_first (c : Dev nD) (t : Fin cfg3.N) (h0 : t.val = 0) :
    acc3 V c t.val t.isLt = (k3_pay4 (iblk3 V c 1 t) (iblk3 V c 0 t) k3_pay1, k3_pay5 (iblk3 V c 1 t) k3_pay2) := by
  obtain ⟨n, hn⟩ := t
  cases n with
  | zero => rfl
  | succ n => exact absurd h0 (Nat.succ_ne_zero n)

/-- The pair after a later point: what the point before left plus the point's one-hot products. -/
theorem acc3_later (c : Dev nD) (t : Fin cfg3.N) (h0 : t.val ≠ 0) :
    acc3 V c t.val t.isLt
      = (k3_pay4 (iblk3 V c 1 t) (iblk3 V c 0 t) (acc3 V c (t.val - 1) (Nat.lt_of_le_of_lt (Nat.sub_le _ _) t.isLt)).1,
          k3_pay5 (iblk3 V c 1 t) (acc3 V c (t.val - 1) (Nat.lt_of_le_of_lt (Nat.sub_le _ _) t.isLt)).2) := by
  obtain ⟨n, hn⟩ := t
  cases n with
  | zero => exact absurd rfl h0
  | succ n => rfl

/-- Before the first point the invariant is the class's. -/
theorem PhiS3_of_zero (c : Dev nD) (n : ℕ) (h : n ≤ cfg3.N) (hz : n = 0) : PhiS3 V c n h = Pipeline.ΦA spec3 c := by
  subst hz; rfl

/-- Before a later point: the accumulators at what the point before left. -/
theorem PhiS3_of_pos (c : Dev nD) (n : ℕ) (h : n ≤ cfg3.N) (hz : n ≠ 0) :
    PhiS3 V c n h = iprop(owns (c : Thread nD τ) (Memref.whole cc3_scratch0) fullShare (acc3 V c (n - 1) (by omega)).1
      ∗ owns (c : Thread nD τ) (Memref.whole cc3_scratch1) fullShare (acc3 V c (n - 1) (by omega)).2
      ∗ Pipeline.scopedRestBut (Ix := Unit) (Name := ℕ) (U := UR sig nD τ) (Lvl := ℕ) (Val := Elt F) spec3 c [cc3_scratch0, cc3_scratch1]
      ∗ (∃ r, prngReg c r)) := by
  cases n with
  | zero => exact absurd rfl hz
  | succ n => rfl

/-- The invariant at a point's start, restated at the point's position. -/
theorem PhiS3_castSucc (c : Dev nD) (t : Fin cfg3.N) :
    (dat3 (F := F) V c).Φ t.castSucc = PhiS3 V c t.val (Nat.le_of_lt t.isLt) := by
  dsimp only [dat3]; simp only [Fin.coe_castSucc]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (win3_0.stage (cfg3.slots t 0)) fullShare ((dat3 V c).before 0 t d))
    ∗ (∃ d, owns (c : Thread nD τ) (win3_1.stage (cfg3.slots t 1)) fullShare ((dat3 V c).before 1 t d))
    ∗ (∃ d, owns (c : Thread nD τ) (win3_2.stage (cfg3.slots t 2)) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point. The inputs' buffers hold their blocks; the position says which of the three runs applies; the
    invariant hands the run the accumulators (at anything before the first point, at the pair the point before left
    afterwards) and takes them back at this point's pair; the output's buffer comes back as found except at the last
    point, where it holds the quotient; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  rw [show (dat3 V c).leavesExact 0 t = owns (c : Thread nD τ) (win3_0.stage (cfg3.slots t 0)) fullShare ((dat3 V c).after 0 t) from by
    unfold Dat.leavesExact; rw [live3_0 t], after3_0]
  rw [show (dat3 V c).leavesExact 1 t = owns (c : Thread nD τ) (win3_1.stage (cfg3.slots t 1)) fullShare ((dat3 V c).after 1 t) from by
    unfold Dat.leavesExact; rw [live3_1 t], after3_1]
  have hN : t.val < 10 := lt_of_lt_of_eq t.isLt (show cfg3.N = 10 from N_3)
  by_cases h0 : t.val = 0
  · -- the first point
    have hc0 : atFirst (grid3.coords t) := (atFirst_iff t).mpr h0
    have hc1 : ¬atLast (grid3.coords t) := fun h => by have := (atLast_iff t).mp h; omega
    rw [Dat.leavesExact_idle (dat3 V c) 2 t (idle3_2 t hc1) (noFlush3_2 t hc1)]
    rw [acc3_first V c t h0]; dsimp only
    rw [PhiS3_castSucc V c t, PhiS3_of_zero V c _ _ h0, PhiA3_eq]
    iintro ⟨⟨⟨⟨HS0, HS1⟩, Hrest⟩, Hg⟩, Ho, ⟨%d0, H0⟩, ⟨%d1, H1⟩, ⟨%d2, H2⟩⟩
    iapply (run_first c (grid3.coords t) _ _ _ _ _ _ _ _ _ _ hc0 hc1 (iblk3 V c 0 t) (iblk3 V c 1 t) ((dat3 V c).before 2 t d2) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hrest Hg]
    · isplitl [HS0]; · iexact HS0
      isplitl [HS1]; · iexact HS1
      isplitl [Hrest]; · iexact Hrest
      iexact Hg
    isplitl [Ho]; · iexact Ho
    isplitl [H0]; · iexact H0
    isplitl [H1]; · iexact H1
    iexists _; iexact H2
  · have hc0 : ¬atFirst (grid3.coords t) := fun h => h0 ((atFirst_iff t).mp h)
    by_cases h9 : t.val = 9
    · -- the last point
      have hc1 : atLast (grid3.coords t) := (atLast_iff t).mpr h9
      rw [show (dat3 V c).leavesExact 2 t = owns (c : Thread nD τ) (win3_2.stage (cfg3.slots t 2)) fullShare ((dat3 V c).after 2 t) from by
        unfold Dat.leavesExact; rw [live3_2 t hc1], after3_2]
      unfold out3
      rw [acc3_later V c t h0]; dsimp only
      rw [PhiS3_castSucc V c t, PhiS3_of_pos V c _ _ h0]
      iintro ⟨⟨HS0, HS1, Hrest, Hg⟩, Ho, ⟨%d0, H0⟩, ⟨%d1, H1⟩, ⟨%d2, H2⟩⟩
      iapply (run_last c (grid3.coords t) _ _ _ _ _ _ _ _ _ _ hc0 hc1 (iblk3 V c 0 t) (iblk3 V c 1 t)
        (acc3 V c (t.val - 1) (Nat.lt_of_le_of_lt (Nat.sub_le _ _) t.isLt)).1 (acc3 V c (t.val - 1) (Nat.lt_of_le_of_lt (Nat.sub_le _ _) t.isLt)).2 Set.univ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexact H2
    · -- a middle point
      have hc1 : ¬atLast (grid3.coords t) := fun h => h9 ((atLast_iff t).mp h)
      rw [Dat.leavesExact_idle (dat3 V c) 2 t (idle3_2 t hc1) (noFlush3_2 t hc1)]
      rw [acc3_later V c t h0]; dsimp only
      rw [PhiS3_castSucc V c t, PhiS3_of_pos V c _ _ h0]
      iintro ⟨⟨HS0, HS1, Hrest, Hg⟩, Ho, ⟨%d0, H0⟩, ⟨%d1, H1⟩, ⟨%d2, H2⟩⟩
      iapply (run_mid c (grid3.coords t) _ _ _ _ _ _ _ _ _ _ hc0 hc1 (iblk3 V c 0 t) (iblk3 V c 1 t) ((dat3 V c).before 2 t d2)
        (acc3 V c (t.val - 1) (Nat.lt_of_le_of_lt (Nat.sub_le _ _) t.isLt)).1 (acc3 V c (t.val - 1) (Nat.lt_of_le_of_lt (Nat.sub_le _ _) t.isLt)).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      iexists _; iexact H2

/-- The library's body obligation for region 3, at every grid point. -/
theorem body_obligation3 (c : Dev nD) : BodyObligation (dat3 (F := F) V c) (defs₀ (F := F)) Variants.none () Set.univ := fun t => by
  rw [bigSep_W3, bigSep_W3]
  exact sound_body3 V c t

/-- Entering the region: the class's invariant (every scoped buffer at anything, the generator register) is the invariant
    before the first point. -/
theorem hin3 (c : Dev nD) : Pipeline.ΦA spec3 c ⊢ (dat3 (F := F) V c).Φ 0 := by
  rw [show (dat3 V c).Φ 0 = PhiS3 V c 0 (Nat.zero_le _) from rfl, PhiS3_zero]

/-- After any point the invariant gives the class's back: the accumulators' named contents are forgotten, and the two
    buffers rejoin the scoped rest. -/
theorem Phi3_out (c : Dev nD) (t : Fin (cfg3.N + 1)) (ht : t.val ≠ 0) : (dat3 (F := F) V c).Φ t ⊢ Pipeline.ΦA spec3 c := by
  rw [show (dat3 V c).Φ t = PhiS3 V c t.val (Nat.le_of_lt_succ t.isLt) from rfl, PhiS3_of_pos V c _ _ ht, PhiA3_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

/-- Leaving the region: after the last point the two scratch buffers, at the final pair, go back into the scoped rest. -/
theorem hout3 (c : Dev nD) : (dat3 (F := F) V c).Φ (Fin.last cfg3.N) ⊢ Pipeline.ΦA spec3 c :=
  Phi3_out V c _ (by rw [Fin.val_last]; have : cfg3.N = 10 := N_3; omega)

end Cert.KernelIdeal.Hand

end
-- ==== Proof.KI.Run.lean ====
/-
  The launch: @main as the alternation of its four stretches of host operations and its four kernel regions, each region
  entered with every unscoped buffer at the boundary's contents and left at the next boundary's, run from the launch memory
  to the return. Every weakly fair execution terminates, nothing faults, and the final memory holds every unscoped buffer at
  the last boundary's contents.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.Gen.KernelIdeal.Regions
import proofs.«419563_j70007966925389_1_alg».proof.Proof.KI.Fold
import proofs.«419563_j70007966925389_1_alg».proof.Proof.KI.R0
import proofs.«419563_j70007966925389_1_alg».proof.Proof.KI.R1
import proofs.«419563_j70007966925389_1_alg».proof.Proof.KI.R2
import proofs.«419563_j70007966925389_1_alg».proof.Proof.KI.R3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What every segment carries -/

/-- No pipeline has a prefetched table: each one's admissible tables are the empty ones. -/
abbrev adm : (p : Fin 4) → (pcfgs (F := F) p).Adm := fun p => (cfgs p).toPCfg_adm

/-- Each pipeline's proof data at the contents its region is entered with: region K at the boundary 2K+1 of the fold. A
    literal case split on the index, so that the configuration pinned at a numeral reduces to the printed one. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c

abbrev 𝒱₀ : Variants := Variants.none
/-- No core owes another anything, so no level is assigned. -/
abbrev L : GSem nD τ sig → Finset Unit := fun _ => ∅
abbrev lv : GSem nD τ sig → Unit → ℕ := fun _ _ => 0

/-- What a core holds beside its unscoped buffers between any two items: its generator register at some state, and the
    record that it owes nothing. -/
abbrev R (c : Dev nD) : sProp 𝕄 := iprop((∃ r, prngReg c r) ∗ ∃ W, owes (c : Thread nD τ) (0 : CellTallies nD τ sig Unit) W)

/-- A stretch of host operations as a segment: from every unscoped buffer at `W`, `R` beside them, to the same buffers at
    `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state, without the record of owing nothing: every unscoped buffer at `W8`, the generator register. -/
abbrev Tₙ (c : Dev nD) : sProp 𝕄 := iprop(StableHlo.held (c : Thread nD τ) (Pipeline.ucRefs τ sig) (W8 m ρ c) ∗ ∃ r, prngReg c r)

/-! ## The four regions as segments -/

-- unifying a library lemma stated over the pinned configuration `pin pcfgs adm p` with the printed configuration needs
-- unification to unfold plain definitions inside a metavariable's type
set_option backward.isDefEq.respectTransparency.types false in
/-- Region 0 as a segment: entered with every unscoped buffer at `W1`, left with them at `W2`. At entry the region's ten
    arrays are taken out of the unscoped buffers, the others bypass it; the generator register goes into the region's
    invariant and comes back; at exit the arrays, at what the write-backs assembled, rejoin the others. Nothing is owed and
    the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 1 as a segment, from `W3` to `W4`: the same bookkeeping as region 0 over the second layer's ten arrays. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 2 as a segment, from `W5` to `W6`: the same bookkeeping over the third layer's six arrays. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- unifying a library lemma stated over the pinned configuration `pin pcfgs adm p` with the printed configuration needs
-- unification to unfold plain definitions inside a metavariable's type
set_option backward.isDefEq.respectTransparency.types false in
/-- Region 3 as a segment, from `W7` to the last thread state (`W8`). Its invariant is not constant: the one before the
    first point is what entering gives (`hin3`), and the one after the last point, which holds the two accumulators at the
    final pair, folds back into the scoped rest (`hout3`). -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V7 m ρ) c)
    unfold Pipeline.ΦA
    iintro ⟨Hp, -, Hr⟩
    isplitl [Hr]; · iexact Hr
    iexact Hp
  hout c := by
    rw [Pipeline.ownSems0_none]
    refine BIBase.Entails.trans (hout3 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its eight segments, and the launch -/

/-- @main's items in order: a stretch of host operations from its boundary's contents, then the region it feeds, four times. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]

/-- The segments' fragments of @main are exactly the items of `main_chain`. -/
theorem segs_progs : (segs m ρ).map Pipeline.Seg.prog = [
    StableHlo.seq hostOps0,
    Prog.lift (.customCall (Pipeline.entry 0) ()),
    StableHlo.seq hostOps1,
    Prog.lift (.customCall (Pipeline.entry 1) ()),
    StableHlo.seq hostOps2,
    Prog.lift (.customCall (Pipeline.entry 2) ()),
    StableHlo.seq hostOps3,
    Prog.lift (.customCall (Pipeline.entry 3) ()) ] := rfl

/-- @main is the run of the segments: both are the chain of the same eight items. -/
theorem main_run (c : Dev nD) : main (F := F) c = Pipeline.Seg.run (segs m ρ) := by
  rw [main_chain c, Pipeline.Seg.run_eq_chain, segs_progs]

-- the launch theorem's implicit arguments are found by unifying its conclusion with this one, which takes unfolding plain
-- definitions inside a metavariable's type
set_option backward.isDefEq.respectTransparency.types false in
/-- THE RUN. From any memory with zero counters every weakly fair execution of @main terminates without a fault, and the final
    memory holds every unscoped TensorCore buffer at the last boundary's contents `W8`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.KernelIdeal.Hand

end
-- ==== Proof.KI.Args.lean ====
/-
  Every argument array ends as launched: walking the fold of boundary contents back from the last boundary, a host stretch
  leaves a buffer it does not write, and a region leaves every buffer that is not its output array — an argument it reads
  through an input window included (an input window's array is never written back).
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Fold
import proofs.«419563_j70007966925389_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A host stretch keeps what it does not write -/

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h

/-- A buffer no host stretch writes and every region keeps (`k0` … `k3`) holds at the last boundary what the launch memory
    held. -/
theorem W8_keep (c : Dev nD) (r : Ref sig .tc) (h0 : r ∉ hostOps0_W) (h1 : r ∉ hostOps1_W) (h2 : r ∉ hostOps2_W) (h3 : r ∉ hostOps3_W)
    (k0 : W2 m ρ c (Proc.devRef .tc r) = W1 m ρ c (Proc.devRef .tc r))
    (k1 : W4 m ρ c (Proc.devRef .tc r) = W3 m ρ c (Proc.devRef .tc r))
    (k2 : W6 m ρ c (Proc.devRef .tc r) = W5 m ρ c (Proc.devRef .tc r))
    (k3 : W8 m ρ c (Proc.devRef .tc r) = W7 m ρ c (Proc.devRef .tc r)) :
    W8 m ρ c (Proc.devRef .tc r) = m ((c : Thread nD τ).loc r) :=
  k3.trans <| (W7_of m ρ c r h3).trans <| k2.trans <| (W5_of m ρ c r h2).trans <| k1.trans <| (W3_of m ρ c r h1).trans <|
    k0.trans <| (W1_of m ρ c r h0).trans rfl

/-! ## The twenty arguments -/

/-- `main_arg0` reaches the end as launched. -/
theorem W8_main_arg0 (c : Dev nD) : W8 m ρ c (Proc.devRef .tc main_arg0) = m ((c : Thread nD τ).loc main_arg0) :=
  W8_keep m ρ c main_arg0 (by decide) (by decide) (by decide) (by decide)
    ((W2_arr m ρ c 1).trans (((dat0 (V1 m ρ) c).arrAt_in 1 rfl _).trans (A_eq0 (V1 m ρ) c 1)))
    (W4_of_ne m ρ c main_arg0 (by decide))
    (W6_of_ne m ρ c main_arg0 (by decide))
    (W8_of_ne m ρ c main_arg0 (by decide))
/-- `main_arg1` reaches the end as launched. -/
theorem W8_main_arg1 (c : Dev nD) : W8 m ρ c (Proc.devRef .tc main_arg1) = m ((c : Thread nD τ).loc main_arg1) :=
  W8_keep m ρ c main_arg1 (by decide) (by decide) (by decide) (by decide)
    (W2_of_ne m ρ c main_arg1 (by decide))
    (W4_of_ne m ρ c main_arg1 (by decide))
    (W6_of_ne m ρ c main_arg1 (by decide))
    (W8_of_ne m ρ c main_arg1 (by decide))
/-- `main_arg2` reaches the end as launched. -/
theorem W8_main_arg2 (c : Dev nD) : W8 m ρ c (Proc.devRef .tc main_arg2) = m ((c : Thread nD τ).loc main_arg2) :=
  W8_keep m ρ c main_arg2 (by decide) (by decide) (by decide) (by decide)
    (W2_of_ne m ρ c main_arg2 (by decide))
    (W4_of_ne m ρ c main_arg2 (by decide))
    (W6_of_ne m ρ c main_arg2 (by decide))
    (W8_of_ne m ρ c main_arg2 (by decide))
/-- `main_arg3` reaches the end as launched. -/
theorem W8_main_arg3 (c : Dev nD) : W8 m ρ c (Proc.devRef .tc main_arg3) = m ((c : Thread nD τ).loc main_arg3) :=
  W8_keep m ρ c main_arg3 (by decide) (by decide) (by decide) (by decide)
    ((W2_arr m ρ c 2).trans (((dat0 (V1 m ρ) c).arrAt_in 2 rfl _).trans (A_eq0 (V1 m ρ) c 2)))
    (W4_of_ne m ρ c main_arg3 (by decide))
    (W6_of_ne m ρ c main_arg3 (by decide))
    (W8_of_ne m ρ c main_arg3 (by decide))
/-- `main_arg4` reaches the end as launched. -/
theorem W8_main_arg4 (c : Dev nD) : W8 m ρ c (Proc.devRef .tc main_arg4) = m ((c : Thread nD τ).loc main_arg4) :=
  W8_keep m ρ c main_arg4 (by decide) (by decide) (by decide) (by decide)
    ((W2_arr m ρ c 3).trans (((dat0 (V1 m ρ) c).arrAt_in 3 rfl _).trans (A_eq0 (V1 m ρ) c 3)))
    (W4_of_ne m ρ c main_arg4 (by decide))
    (W6_of_ne m ρ c main_arg4 (by decide))
    (W8_of_ne m ρ c main_arg4 (by decide))
/-- `main_arg5` reaches the end as launched. -/
theorem W8_main_arg5 (c : Dev nD) : W8 m ρ c (Proc.devRef .tc main_arg5) = m ((c : Thread nD τ).loc main_arg5) :=
  W8_keep m ρ c main_arg5 (by decide) (by decide) (by decide) (by decide)
    (W2_of_ne m ρ c main_arg5 (by decide))
    (W4_of_ne m ρ c main_arg5 (by decide))
    (W6_of_ne m ρ c main_arg5 (by decide))
    (W8_of_ne m ρ c main_arg5 (by decide))
/-- `main_arg6` reaches the end as launched. -/
theorem W8_main_arg6 (c : Dev nD) : W8 m ρ c (Proc.devRef .tc main_arg6) = m ((c : Thread nD τ).loc main_arg6) :=
  W8_keep m ρ c main_arg6 (by decide) (by decide) (by decide) (by decide)
    (W2_of_ne m ρ c main_arg6 (by decide))
    ((W4_arr m ρ c 2).trans (((dat1 (V3 m ρ) c).arrAt_in 2 rfl _).trans (A_eq1 (V3 m ρ) c 2)))
    (W6_of_ne m ρ c main_arg6 (by decide))
    (W8_of_ne m ρ c main_arg6 (by decide))
/-- `main_arg7` reaches the end as launched. -/
theorem W8_main_arg7 (c : Dev nD) : W8 m ρ c (Proc.devRef .tc main_arg7) = m ((c : Thread nD τ).loc main_arg7) :=
  W8_keep m ρ c main_arg7 (by decide) (by decide) (by decide) (by decide)
    (W2_of_ne m ρ c main_arg7 (by decide))
    ((W4_arr m ρ c 3).trans (((dat1 (V3 m ρ) c).arrAt_in 3 rfl _).trans (A_eq1 (V3 m ρ) c 3)))
    (W6_of_ne m ρ c main_arg7 (by decide))
    (W8_of_ne m ρ c main_arg7 (by decide))
/-- `main_arg8` reaches the end as launched. -/
theorem W8_main_arg8 (c : Dev nD) : W8 m ρ c (Proc.devRef .tc main_arg8) = m ((c : Thread nD τ).loc main_arg8) :=
  W8_keep m ρ c main_arg8 (by decide) (by decide) (by decide) (by decide)
    (W2_of_ne m ρ c main_arg8 (by decide))
    (W4_of_ne m ρ c main_arg8 (by decide))
    (W6_of_ne m ρ c main_arg8 (by decide))
    (W8_of_ne m ρ c main_arg8 (by decide))
/-- `main_arg9` reaches the end as launched. -/
theorem W8_main_arg9 (c : Dev nD) : W8 m ρ c (Proc.devRef .tc main_arg9) = m ((c : Thread nD τ).loc main_arg9) :=
  W8_keep m ρ c main_arg9 (by decide) (by decide) (by decide) (by decide)
    (W2_of_ne m ρ c main_arg9 (by decide))
    (W4_of_ne m ρ c main_arg9 (by decide))
    ((W6_arr m ρ c 2).trans (((dat2 (V5 m ρ) c).arrAt_in 2 rfl _).trans (A_eq2 (V5 m ρ) c 2)))
    (W8_of_ne m ρ c main_arg9 (by decide))
/-- `main_arg10` reaches the end as launched. -/
theorem W8_main_arg10 (c : Dev nD) : W8 m ρ c (Proc.devRef .tc main_arg10) = m ((c : Thread nD τ).loc main_arg10) :=
  W8_keep m ρ c main_arg10 (by decide) (by decide) (by decide) (by decide)
    (W2_of_ne m ρ c main_arg10 (by decide))
    (W4_of_ne m ρ c main_arg10 (by decide))
    ((W6_arr m ρ c 3).trans (((dat2 (V5 m ρ) c).arrAt_in 3 rfl _).trans (A_eq2 (V5 m ρ) c 3)))
    (W8_of_ne m ρ c main_arg10 (by decide))
/-- `main_arg11` reaches the end as launched. -/
theorem W8_main_arg11 (c : Dev nD) : W8 m ρ c (Proc.devRef .tc main_arg11) = m ((c : Thread nD τ).loc main_arg11) :=
  W8_keep m ρ c main_arg11 (by decide) (by decide) (by decide) (by decide)
    (W2_of_ne m ρ c main_arg11 (by decide))
    (W4_of_ne m ρ c main_arg11 (by decide))
    (W6_of_ne m ρ c main_arg11 (by decide))
    (W8_of_ne m ρ c main_arg11 (by decide))
/-- `main_arg12` reaches the end as launched. -/
theorem W8_main_arg12 (c : Dev nD) : W8 m ρ c (Proc.devRef .tc main_arg12) = m ((c : Thread nD τ).loc main_arg12) :=
  W8_keep m ρ c main_arg12 (by decide) (by decide) (by decide) (by decide)
    (W2_of_ne m ρ c main_arg12 (by decide))
    (W4_of_ne m ρ c main_arg12 (by decide))
    (W6_of_ne m ρ c main_arg12 (by decide))
    (W8_of_ne m ρ c main_arg12 (by decide))
/-- `main_arg13` reaches the end as launched. -/
theorem W8_main_arg13 (c : Dev nD) : W8 m ρ c (Proc.devRef .tc main_arg13) = m ((c : Thread nD τ).loc main_arg13) :=
  W8_keep m ρ c main_arg13 (by decide) (by decide) (by decide) (by decide)
    (W2_of_ne m ρ c main_arg13 (by decide))
    (W4_of_ne m ρ c main_arg13 (by decide))
    (W6_of_ne m ρ c main_arg13 (by decide))
    (W8_of_ne m ρ c main_arg13 (by decide))
/-- `main_arg14` reaches the end as launched. -/
theorem W8_main_arg14 (c : Dev nD) : W8 m ρ c (Proc.devRef .tc main_arg14) = m ((c : Thread nD τ).loc main_arg14) :=
  W8_keep m ρ c main_arg14 (by decide) (by decide) (by decide) (by decide)
    (W2_of_ne m ρ c main_arg14 (by decide))
    (W4_of_ne m ρ c main_arg14 (by decide))
    (W6_of_ne m ρ c main_arg14 (by decide))
    (W8_of_ne m ρ c main_arg14 (by decide))
/-- `main_arg15` reaches the end as launched. -/
theorem W8_main_arg15 (c : Dev nD) : W8 m ρ c (Proc.devRef .tc main_arg15) = m ((c : Thread nD τ).loc main_arg15) :=
  W8_keep m ρ c main_arg15 (by decide) (by decide) (by decide) (by decide)
    (W2_of_ne m ρ c main_arg15 (by decide))
    (W4_of_ne m ρ c main_arg15 (by decide))
    (W6_of_ne m ρ c main_arg15 (by decide))
    (W8_of_ne m ρ c main_arg15 (by decide))
/-- `main_arg16` reaches the end as launched. -/
theorem W8_main_arg16 (c : Dev nD) : W8 m ρ c (Proc.devRef .tc main_arg16) = m ((c : Thread nD τ).loc main_arg16) :=
  W8_keep m ρ c main_arg16 (by decide) (by decide) (by decide) (by decide)
    (W2_of_ne m ρ c main_arg16 (by decide))
    (W4_of_ne m ρ c main_arg16 (by decide))
    (W6_of_ne m ρ c main_arg16 (by decide))
    (W8_of_ne m ρ c main_arg16 (by decide))
/-- `main_arg17` reaches the end as launched. -/
theorem W8_main_arg17 (c : Dev nD) : W8 m ρ c (Proc.devRef .tc main_arg17) = m ((c : Thread nD τ).loc main_arg17) :=
  W8_keep m ρ c main_arg17 (by decide) (by decide) (by decide) (by decide)
    (W2_of_ne m ρ c main_arg17 (by decide))
    (W4_of_ne m ρ c main_arg17 (by decide))
    (W6_of_ne m ρ c main_arg17 (by decide))
    (W8_of_ne m ρ c main_arg17 (by decide))
/-- `main_arg18` reaches the end as launched. -/
theorem W8_main_arg18 (c : Dev nD) : W8 m ρ c (Proc.devRef .tc main_arg18) = m ((c : Thread nD τ).loc main_arg18) :=
  W8_keep m ρ c main_arg18 (by decide) (by decide) (by decide) (by decide)
    (W2_of_ne m ρ c main_arg18 (by decide))
    (W4_of_ne m ρ c main_arg18 (by decide))
    (W6_of_ne m ρ c main_arg18 (by decide))
    (W8_of_ne m ρ c main_arg18 (by decide))
/-- `main_arg19` reaches the end as launched. -/
theorem W8_main_arg19 (c : Dev nD) : W8 m ρ c (Proc.devRef .tc main_arg19) = m ((c : Thread nD τ).loc main_arg19) :=
  W8_keep m ρ c main_arg19 (by decide) (by decide) (by decide) (by decide)
    (W2_of_ne m ρ c main_arg19 (by decide))
    (W4_of_ne m ρ c main_arg19 (by decide))
    (W6_of_ne m ρ c main_arg19 (by decide))
    (W8_of_ne m ρ c main_arg19 (by decide))

/-- The result buffer at the last boundary: region 3's output array as its write-back leaves it. -/
theorem W8_main_v76 (c : Dev nD) : W8 m ρ c (Proc.devRef .tc main_v76) = (dat3 (V7 m ρ) c).arrAt 2 cfg3.N :=
  W8_arr m ρ c 2

end Cert.KernelIdeal.Hand

end
-- ==== Proof.KI.Frame.lean ====
/-
  The kernel program's run, read at the buffers the claims speak of: the result buffer ends at what region 3's one
  write-back leaves in its output array, and every argument array ends as launched. The frame claim is the second half.
-/
import proofs.«419563_j70007966925389_1_alg».proof.Proof.Gen.KernelIdeal.Launch
import proofs.«419563_j70007966925389_1_alg».proof.Proof.Gen.KernelIdeal.Skeleton
import proofs.«419563_j70007966925389_1_alg».proof.Proof.Gen.KernelIdeal.Points
import proofs.«419563_j70007966925389_1_alg».proof.Proof.KI.Run
import proofs.«419563_j70007966925389_1_alg».proof.Proof.KI.Args
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Every weakly fair execution of @main terminates without a fault; the result buffer ends at region 3's output array as its
    write-back leaves it, and every argument as launched. -/
theorem run_named : θ_run defs (onTc (τ := τ) (main (F := F))) ⟨m, fun _ => 0, ρ⟩ (fun r => ∀ c : Dev nD,
      r.2.mem ((c.tc : Thread nD τ).loc main_v76) = (dat3 (V7 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c =>
    ⟨(h c _ (mem_uc main_v76 (by decide))).trans (W8_main_v76 m ρ c),
      (h c _ (mem_uc main_arg0 (by decide))).trans (W8_main_arg0 m ρ c),
      (h c _ (mem_uc main_arg1 (by decide))).trans (W8_main_arg1 m ρ c),
      (h c _ (mem_uc main_arg2 (by decide))).trans (W8_main_arg2 m ρ c),
      (h c _ (mem_uc main_arg3 (by decide))).trans (W8_main_arg3 m ρ c),
      (h c _ (mem_uc main_arg4 (by decide))).trans (W8_main_arg4 m ρ c),
      (h c _ (mem_uc main_arg5 (by decide))).trans (W8_main_arg5 m ρ c),
      (h c _ (mem_uc main_arg6 (by decide))).trans (W8_main_arg6 m ρ c),
      (h c _ (mem_uc main_arg7 (by decide))).trans (W8_main_arg7 m ρ c),
      (h c _ (mem_uc main_arg8 (by decide))).trans (W8_main_arg8 m ρ c),
      (h c _ (mem_uc main_arg9 (by decide))).trans (W8_main_arg9 m ρ c),
      (h c _ (mem_uc main_arg10 (by decide))).trans (W8_main_arg10 m ρ c),
      (h c _ (mem_uc main_arg11 (by decide))).trans (W8_main_arg11 m ρ c),
      (h c _ (mem_uc main_arg12 (by decide))).trans (W8_main_arg12 m ρ c),
      (h c _ (mem_uc main_arg13 (by decide))).trans (W8_main_arg13 m ρ c),
      (h c _ (mem_uc main_arg14 (by decide))).trans (W8_main_arg14 m ρ c),
      (h c _ (mem_uc main_arg15 (by decide))).trans (W8_main_arg15 m ρ c),
      (h c _ (mem_uc main_arg16 (by decide))).trans (W8_main_arg16 m ρ c),
      (h c _ (mem_uc main_arg17 (by decide))).trans (W8_main_arg17 m ρ c),
      (h c _ (mem_uc main_arg18 (by decide))).trans (W8_main_arg18 m ρ c),
      (h c _ (mem_uc main_arg19 (by decide))).trans (W8_main_arg19 m ρ c)⟩) (run_all m ρ)

/-- THE FRAME, at any float instance: @main terminates, nothing faults, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => (h c).2) (run_named m ρ)

end Cert.KernelIdeal.Hand

end
-- ==== Proof.Val.RefGen.lean ====
/-
  The reference program's generated run and its read-at-an-index lemmas, gathered in one place so that every
  module of the value argument imports them through one name.
-/
import proofs.«419563_j70007966925389_1_alg».proof.Proof.Gen.ReferenceIdeal.Run
import proofs.«419563_j70007966925389_1_alg».proof.Proof.Gen.ReferenceIdeal.Read
-- ==== Proof.Val.Host.lean ====
/-
  What the four stretches of host operations put into the arrays the regions read, at the ideal instance, in the reference's
  own terms. The kernel program's host operations between two regions are the reference's neighbour aggregation, operation
  for operation (the source ids wrapped when negative, a gather of rows, a scatter-add by destination id of the rows and of
  ones, the quotient by max(count, 1)): applied to the same layer they give the same mean. The bias and batch-norm vectors
  reach a region reshaped to one row; the graph ids reshaped to one column. No stretch writes an argument array or a
  region's output it does not recompute.
-/
import proofs.«419563_j70007966925389_1_alg».proof.Proof.KI.Defs
import proofs.«419563_j70007966925389_1_alg».proof.Proof.Val.RefGen
import proofs.«419563_j70007966925389_1_alg».proof.Proof.KI.Fold
import proofs.«419563_j70007966925389_1_alg».proof.Proof.Gen.KernelIdeal.Regions
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

/-! ## The launch memory's argument arrays, named -/
abbrev a0 : (⟨S50000x128, .f32⟩ : BufTy).Contents (Elt Ideal) := m ((c.tc : Thread nD τ).loc main_arg0)
abbrev a1 : (⟨S2x625000, .i32⟩ : BufTy).Contents (Elt Ideal) := m ((c.tc : Thread nD τ).loc main_arg1)
abbrev a2 : (⟨S50000, .i32⟩ : BufTy).Contents (Elt Ideal) := m ((c.tc : Thread nD τ).loc main_arg2)
abbrev a3 : (⟨S128x64, .f32⟩ : BufTy).Contents (Elt Ideal) := m ((c.tc : Thread nD τ).loc main_arg3)
abbrev a4 : (⟨S128x64, .f32⟩ : BufTy).Contents (Elt Ideal) := m ((c.tc : Thread nD τ).loc main_arg4)
abbrev a5 : (⟨S64, .f32⟩ : BufTy).Contents (Elt Ideal) := m ((c.tc : Thread nD τ).loc main_arg5)
abbrev a6 : (⟨S64x64, .f32⟩ : BufTy).Contents (Elt Ideal) := m ((c.tc : Thread nD τ).loc main_arg6)
abbrev a7 : (⟨S64x64, .f32⟩ : BufTy).Contents (Elt Ideal) := m ((c.tc : Thread nD τ).loc main_arg7)
abbrev a8 : (⟨S64, .f32⟩ : BufTy).Contents (Elt Ideal) := m ((c.tc : Thread nD τ).loc main_arg8)
abbrev a9 : (⟨S64x128, .f32⟩ : BufTy).Contents (Elt Ideal) := m ((c.tc : Thread nD τ).loc main_arg9)
abbrev a10 : (⟨S64x128, .f32⟩ : BufTy).Contents (Elt Ideal) := m ((c.tc : Thread nD τ).loc main_arg10)
abbrev a11 : (⟨S128, .f32⟩ : BufTy).Contents (Elt Ideal) := m ((c.tc : Thread nD τ).loc main_arg11)
abbrev a12 : (⟨S64, .f32⟩ : BufTy).Contents (Elt Ideal) := m ((c.tc : Thread nD τ).loc main_arg12)
abbrev a13 : (⟨S64, .f32⟩ : BufTy).Contents (Elt Ideal) := m ((c.tc : Thread nD τ).loc main_arg13)
abbrev a14 : (⟨S64, .f32⟩ : BufTy).Contents (Elt Ideal) := m ((c.tc : Thread nD τ).loc main_arg14)
abbrev a15 : (⟨S64, .f32⟩ : BufTy).Contents (Elt Ideal) := m ((c.tc : Thread nD τ).loc main_arg15)
abbrev a16 : (⟨S64, .f32⟩ : BufTy).Contents (Elt Ideal) := m ((c.tc : Thread nD τ).loc main_arg16)
abbrev a17 : (⟨S64, .f32⟩ : BufTy).Contents (Elt Ideal) := m ((c.tc : Thread nD τ).loc main_arg17)
abbrev a18 : (⟨S64, .f32⟩ : BufTy).Contents (Elt Ideal) := m ((c.tc : Thread nD τ).loc main_arg18)
abbrev a19 : (⟨S64, .f32⟩ : BufTy).Contents (Elt Ideal) := m ((c.tc : Thread nD τ).loc main_arg19)

/-! ## What no item touches

A buffer that no host operation of a stretch writes is as the stretch found it, and a buffer that is not one of a
region's arrays is as the region found it. Walking back from a boundary through the items before it, a buffer none of
them writes still holds what the launch memory gave it. -/

theorem keep1 (r : Ref sig .tc) (h0 : r ∉ hostOps0_W) :
    W1 m ρ c (Proc.devRef .tc r) = W0 m ρ c (Proc.devRef .tc r) :=
  StableHlo.after_of_writes_sub hostOps0 (W0 m ρ c) hostOps0_writes h0
theorem keep2 (r : Ref sig .tc) (h0 : r ∉ hostOps0_W) (n0 : ∀ w, Pipeline.arrRef spec0 w ≠ r) :
    W2 m ρ c (Proc.devRef .tc r) = W0 m ρ c (Proc.devRef .tc r) :=
  (W2_of_ne m ρ c r n0).trans (keep1 m ρ c r h0)
theorem keep3 (r : Ref sig .tc) (h0 : r ∉ hostOps0_W) (n0 : ∀ w, Pipeline.arrRef spec0 w ≠ r) (h1 : r ∉ hostOps1_W) :
    W3 m ρ c (Proc.devRef .tc r) = W0 m ρ c (Proc.devRef .tc r) :=
  (StableHlo.after_of_writes_sub hostOps1 (W2 m ρ c) hostOps1_writes h1).trans (keep2 m ρ c r h0 n0)
theorem keep4 (r : Ref sig .tc) (h0 : r ∉ hostOps0_W) (n0 : ∀ w, Pipeline.arrRef spec0 w ≠ r) (h1 : r ∉ hostOps1_W)
    (n1 : ∀ w, Pipeline.arrRef spec1 w ≠ r) :
    W4 m ρ c (Proc.devRef .tc r) = W0 m ρ c (Proc.devRef .tc r) :=
  (W4_of_ne m ρ c r n1).trans (keep3 m ρ c r h0 n0 h1)
theorem keep5 (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) :
    W5 m ρ c (Proc.devRef .tc r) = W0 m ρ c (Proc.devRef .tc r) :=
  (StableHlo.after_of_writes_sub hostOps2 (W4 m ρ c) hostOps2_writes h2).trans (keep4 m ρ c r h0 n0 h1 n1)
theorem keep6 (r : Ref sig .tc) (h0 : r ∉ hostOps0_W) (n0 : ∀ w, Pipeline.arrRef spec0 w ≠ r) (h1 : r ∉ hostOps1_W)
    (n1 : ∀ w, Pipeline.arrRef spec1 w ≠ r) (h2 : r ∉ hostOps2_W) (n2 : ∀ w, Pipeline.arrRef spec2 w ≠ r) :
    W6 m ρ c (Proc.devRef .tc r) = W0 m ρ c (Proc.devRef .tc r) :=
  (W6_of_ne m ρ c r n2).trans (keep5 m ρ c r h0 n0 h1 n1 h2)

/-! ## A vector as one row, a vector as one column

Reshaping a vector of n entries to 1×n (or to n×1) moves nothing: entry j is read at (0, j) (at (j, 0)), the index with
the same row-major position. -/

theorem row64 {α : Type} (x : S64.Idx → α) (j : Fin 64) :
    shapeCast S1x64 x shapeCasts_S64_S1x64 (ValueIdx.ix2 0 j) = x (ValueIdx.ix1 j) :=
  shapeCast_apply x shapeCasts_S64_S1x64 (ValueIdx.ix2 0 j) (ValueIdx.ix1 j)
    (by rewrite [Shape.rowMajor_val_one, Shape.rowMajor_val_two]; show j.val = 0 * 64 + j.val; omega)
theorem row128 {α : Type} (x : S128.Idx → α) (j : Fin 128) :
    shapeCast S1x128 x shapeCasts_S128_S1x128 (ValueIdx.ix2 0 j) = x (ValueIdx.ix1 j) :=
  shapeCast_apply x shapeCasts_S128_S1x128 (ValueIdx.ix2 0 j) (ValueIdx.ix1 j)
    (by rewrite [Shape.rowMajor_val_one, Shape.rowMajor_val_two]; show j.val = 0 * 128 + j.val; omega)
theorem col50000 {α : Type} (x : S50000.Idx → α) (n : Fin 50000) :
    shapeCast S50000x1 x shapeCasts_S50000_S50000x1 (ValueIdx.ix2 n 0) = x (ValueIdx.ix1 n) :=
  shapeCast_apply x shapeCasts_S50000_S50000x1 (ValueIdx.ix2 n 0) (ValueIdx.ix1 n)
    (by rewrite [Shape.rowMajor_val_one, Shape.rowMajor_val_two]; show n.val = n.val * 1 + 0; omega)

/-! ## Before region 0

The first stretch is the reference's first aggregation, operation for operation: the two rows of the edge list sliced and
flattened, the source ids wrapped by the node count when negative, the rows of the features gathered, scatter-added by
destination id, and divided by max(count, 1) with the count a scatter-add of ones. -/
theorem host0_mean : (V1 m ρ c main_v22 : (⟨S50000x128, .f32⟩ : BufTy).Contents (Elt Ideal)) = Cert.ReferenceIdeal.Read.val_main_v22 (F := Ideal) (a0 m c) (a1 m c) := by
  dsimp only [Hand.V1, Hand.W1]
  after_results_simp
  rfl
theorem host0_x : (V1 m ρ c main_arg0 : (⟨S50000x128, .f32⟩ : BufTy).Contents (Elt Ideal)) = a0 m c :=
  (keep1 m ρ c main_arg0 (by decide)).trans rfl
theorem host0_wl : (V1 m ρ c main_arg3 : (⟨S128x64, .f32⟩ : BufTy).Contents (Elt Ideal)) = a3 m c :=
  (keep1 m ρ c main_arg3 (by decide)).trans rfl
theorem host0_wr : (V1 m ρ c main_arg4 : (⟨S128x64, .f32⟩ : BufTy).Contents (Elt Ideal)) = a4 m c :=
  (keep1 m ρ c main_arg4 (by decide)).trans rfl
theorem host0_b : (∀ j : Fin 64, (V1 m ρ c main_v23 : (⟨S1x64, .f32⟩ : BufTy).Contents (Elt Ideal)) (ValueIdx.ix2 0 j) = a5 m c (ValueIdx.ix1 j)) := by
  intro j
  dsimp only [Hand.V1, Hand.W1]
  after_results_simp
  exact row64 _ j
theorem host0_g : (∀ j : Fin 64, (V1 m ρ c main_v24 : (⟨S1x64, .f32⟩ : BufTy).Contents (Elt Ideal)) (ValueIdx.ix2 0 j) = a12 m c (ValueIdx.ix1 j)) := by
  intro j
  dsimp only [Hand.V1, Hand.W1]
  after_results_simp
  exact row64 _ j
theorem host0_be : (∀ j : Fin 64, (V1 m ρ c main_v25 : (⟨S1x64, .f32⟩ : BufTy).Contents (Elt Ideal)) (ValueIdx.ix2 0 j) = a13 m c (ValueIdx.ix1 j)) := by
  intro j
  dsimp only [Hand.V1, Hand.W1]
  after_results_simp
  exact row64 _ j
theorem host0_mu : (∀ j : Fin 64, (V1 m ρ c main_v26 : (⟨S1x64, .f32⟩ : BufTy).Contents (Elt Ideal)) (ValueIdx.ix2 0 j) = a14 m c (ValueIdx.ix1 j)) := by
  intro j
  dsimp only [Hand.V1, Hand.W1]
  after_results_simp
  exact row64 _ j
theorem host0_var : (∀ j : Fin 64, (V1 m ρ c main_v27 : (⟨S1x64, .f32⟩ : BufTy).Contents (Elt Ideal)) (ValueIdx.ix2 0 j) = a15 m c (ValueIdx.ix1 j)) := by
  intro j
  dsimp only [Hand.V1, Hand.W1]
  after_results_simp
  exact row64 _ j

/-! ## The edge list's two rows, carried along

The flattened source ids and destination ids are computed once, by the first stretch, and no later item writes them:
the later stretches aggregate with the same ids the reference slices from the edge list. -/
theorem src1 : (W1 m ρ c (Proc.devRef .tc main_v1) : (⟨S625000, .i32⟩ : BufTy).Contents (Elt Ideal)) = Cert.ReferenceIdeal.Read.val_main_v1 (F := Ideal) (a1 m c) := by
  dsimp only [Hand.W1]
  after_results_simp
  rfl
theorem dst1 : (W1 m ρ c (Proc.devRef .tc main_v3) : (⟨S625000, .i32⟩ : BufTy).Contents (Elt Ideal)) = Cert.ReferenceIdeal.Read.val_main_v3 (F := Ideal) (a1 m c) := by
  dsimp only [Hand.W1]
  after_results_simp
  rfl
theorem src2 : (W2 m ρ c (Proc.devRef .tc main_v1) : (⟨S625000, .i32⟩ : BufTy).Contents (Elt Ideal)) = Cert.ReferenceIdeal.Read.val_main_v1 (F := Ideal) (a1 m c) :=
  (W2_of_ne m ρ c main_v1 (by decide)).trans (src1 m ρ c)
theorem dst2 : (W2 m ρ c (Proc.devRef .tc main_v3) : (⟨S625000, .i32⟩ : BufTy).Contents (Elt Ideal)) = Cert.ReferenceIdeal.Read.val_main_v3 (F := Ideal) (a1 m c) :=
  (W2_of_ne m ρ c main_v3 (by decide)).trans (dst1 m ρ c)
theorem src4 : (W4 m ρ c (Proc.devRef .tc main_v1) : (⟨S625000, .i32⟩ : BufTy).Contents (Elt Ideal)) = Cert.ReferenceIdeal.Read.val_main_v1 (F := Ideal) (a1 m c) :=
  (W4_of_ne m ρ c main_v1 (by decide)).trans ((StableHlo.after_of_writes_sub hostOps1 (W2 m ρ c) hostOps1_writes (by decide)).trans (src2 m ρ c))
theorem dst4 : (W4 m ρ c (Proc.devRef .tc main_v3) : (⟨S625000, .i32⟩ : BufTy).Contents (Elt Ideal)) = Cert.ReferenceIdeal.Read.val_main_v3 (F := Ideal) (a1 m c) :=
  (W4_of_ne m ρ c main_v3 (by decide)).trans ((StableHlo.after_of_writes_sub hostOps1 (W2 m ρ c) hostOps1_writes (by decide)).trans (dst2 m ρ c))

/-! ## Between regions 0 and 1

The second stretch aggregates region 0's output with the carried ids: the reference's second aggregation applied to its
first hidden layer. -/
theorem host1_mean (h : (V2 m ρ c main_v28 : (⟨S50000x64, .f32⟩ : BufTy).Contents (Elt Ideal)) = Cert.ReferenceIdeal.Read.val_main_v44 (F := Ideal) (a0 m c) (a1 m c) (a3 m c) (a4 m c) (a5 m c) (a12 m c) (a13 m c) (a14 m c) (a15 m c)) :
    (V3 m ρ c main_v47 : (⟨S50000x64, .f32⟩ : BufTy).Contents (Elt Ideal)) = Cert.ReferenceIdeal.Read.val_main_v63 (F := Ideal) (a0 m c) (a1 m c) (a3 m c) (a4 m c) (a5 m c) (a12 m c) (a13 m c) (a14 m c) (a15 m c) := by
  have h' : (W2 m ρ c (Proc.devRef .tc main_v28) : (⟨S50000x64, .f32⟩ : BufTy).Contents (Elt Ideal)) = Cert.ReferenceIdeal.Read.val_main_v44 (F := Ideal) (a0 m c) (a1 m c) (a3 m c) (a4 m c) (a5 m c) (a12 m c) (a13 m c) (a14 m c) (a15 m c) := h
  dsimp only [Hand.V3, Hand.W3]
  after_results_simp
  rw [h', src2 m ρ c, dst2 m ρ c]
  rfl
theorem host1_x : V3 m ρ c main_v28 = V2 m ρ c main_v28 :=
  StableHlo.after_of_writes_sub hostOps1 (W2 m ρ c) hostOps1_writes (by decide)
theorem host1_wl : (V3 m ρ c main_arg6 : (⟨S64x64, .f32⟩ : BufTy).Contents (Elt Ideal)) = a6 m c :=
  (keep3 m ρ c main_arg6 (by decide) (by decide) (by decide)).trans rfl
theorem host1_wr : (V3 m ρ c main_arg7 : (⟨S64x64, .f32⟩ : BufTy).Contents (Elt Ideal)) = a7 m c :=
  (keep3 m ρ c main_arg7 (by decide) (by decide) (by decide)).trans rfl
theorem host1_b : (∀ j : Fin 64, (V3 m ρ c main_v48 : (⟨S1x64, .f32⟩ : BufTy).Contents (Elt Ideal)) (ValueIdx.ix2 0 j) = a8 m c (ValueIdx.ix1 j)) := by
  intro j
  dsimp only [Hand.V3, Hand.W3]
  after_results_simp
  exact (row64 _ j).trans (congrFun ((keep2 m ρ c main_arg8 (by decide) (by decide)).trans rfl) (ValueIdx.ix1 j))
theorem host1_g : (∀ j : Fin 64, (V3 m ρ c main_v49 : (⟨S1x64, .f32⟩ : BufTy).Contents (Elt Ideal)) (ValueIdx.ix2 0 j) = a16 m c (ValueIdx.ix1 j)) := by
  intro j
  dsimp only [Hand.V3, Hand.W3]
  after_results_simp
  exact (row64 _ j).trans (congrFun ((keep2 m ρ c main_arg16 (by decide) (by decide)).trans rfl) (ValueIdx.ix1 j))
theorem host1_be : (∀ j : Fin 64, (V3 m ρ c main_v50 : (⟨S1x64, .f32⟩ : BufTy).Contents (Elt Ideal)) (ValueIdx.ix2 0 j) = a17 m c (ValueIdx.ix1 j)) := by
  intro j
  dsimp only [Hand.V3, Hand.W3]
  after_results_simp
  exact (row64 _ j).trans (congrFun ((keep2 m ρ c main_arg17 (by decide) (by decide)).trans rfl) (ValueIdx.ix1 j))
theorem host1_mu : (∀ j : Fin 64, (V3 m ρ c main_v51 : (⟨S1x64, .f32⟩ : BufTy).Contents (Elt Ideal)) (ValueIdx.ix2 0 j) = a18 m c (ValueIdx.ix1 j)) := by
  intro j
  dsimp only [Hand.V3, Hand.W3]
  after_results_simp
  exact (row64 _ j).trans (congrFun ((keep2 m ρ c main_arg18 (by decide) (by decide)).trans rfl) (ValueIdx.ix1 j))
theorem host1_var : (∀ j : Fin 64, (V3 m ρ c main_v52 : (⟨S1x64, .f32⟩ : BufTy).Contents (Elt Ideal)) (ValueIdx.ix2 0 j) = a19 m c (ValueIdx.ix1 j)) := by
  intro j
  dsimp only [Hand.V3, Hand.W3]
  after_results_simp
  exact (row64 _ j).trans (congrFun ((keep2 m ρ c main_arg19 (by decide) (by decide)).trans rfl) (ValueIdx.ix1 j))

/-! ## Between regions 1 and 2

The third stretch aggregates region 1's output with the carried ids: the reference's third aggregation applied to its
second hidden layer. -/
theorem host2_mean (h : (V4 m ρ c main_v53 : (⟨S50000x64, .f32⟩ : BufTy).Contents (Elt Ideal)) = Cert.ReferenceIdeal.Read.val_main_v85 (F := Ideal) (a0 m c) (a1 m c) (a3 m c) (a4 m c) (a5 m c) (a6 m c) (a7 m c) (a8 m c) (a12 m c) (a13 m c) (a14 m c) (a15 m c) (a16 m c) (a17 m c) (a18 m c) (a19 m c)) :
    (V5 m ρ c main_v72 : (⟨S50000x64, .f32⟩ : BufTy).Contents (Elt Ideal)) = Cert.ReferenceIdeal.Read.val_main_v104 (F := Ideal) (a0 m c) (a1 m c) (a3 m c) (a4 m c) (a5 m c) (a6 m c) (a7 m c) (a8 m c) (a12 m c) (a13 m c) (a14 m c) (a15 m c) (a16 m c) (a17 m c) (a18 m c) (a19 m c) := by
  have h' : (W4 m ρ c (Proc.devRef .tc main_v53) : (⟨S50000x64, .f32⟩ : BufTy).Contents (Elt Ideal)) = Cert.ReferenceIdeal.Read.val_main_v85 (F := Ideal) (a0 m c) (a1 m c) (a3 m c) (a4 m c) (a5 m c) (a6 m c) (a7 m c) (a8 m c) (a12 m c) (a13 m c) (a14 m c) (a15 m c) (a16 m c) (a17 m c) (a18 m c) (a19 m c) := h
  dsimp only [Hand.V5, Hand.W5]
  after_results_simp
  rw [h', src4 m ρ c, dst4 m ρ c]
  rfl
theorem host2_x : V5 m ρ c main_v53 = V4 m ρ c main_v53 :=
  StableHlo.after_of_writes_sub hostOps2 (W4 m ρ c) hostOps2_writes (by decide)
theorem host2_wl : (V5 m ρ c main_arg9 : (⟨S64x128, .f32⟩ : BufTy).Contents (Elt Ideal)) = a9 m c :=
  (keep5 m ρ c main_arg9 (by decide) (by decide) (by decide) (by decide) (by decide)).trans rfl
theorem host2_wr : (V5 m ρ c main_arg10 : (⟨S64x128, .f32⟩ : BufTy).Contents (Elt Ideal)) = a10 m c :=
  (keep5 m ρ c main_arg10 (by decide) (by decide) (by decide) (by decide) (by decide)).trans rfl
theorem host2_b : (∀ j : Fin 128, (V5 m ρ c main_v73 : (⟨S1x128, .f32⟩ : BufTy).Contents (Elt Ideal)) (ValueIdx.ix2 0 j) = a11 m c (ValueIdx.ix1 j)) := by
  intro j
  dsimp only [Hand.V5, Hand.W5]
  after_results_simp
  exact (row128 _ j).trans (congrFun ((keep4 m ρ c main_arg11 (by decide) (by decide) (by decide) (by decide)).trans rfl) (ValueIdx.ix1 j))

/-! ## Between regions 2 and 3

The last stretch only stands the graph ids up as one column. -/
theorem host3_x : V7 m ρ c main_v74 = V6 m ρ c main_v74 :=
  StableHlo.after_of_writes_sub hostOps3 (W6 m ρ c) hostOps3_writes (by decide)
theorem host3_batch : ∀ n : Fin 50000, (V7 m ρ c main_v75 : (⟨S50000x1, .i32⟩ : BufTy).Contents (Elt Ideal)) (ValueIdx.ix2 n 0) = a2 m c (ValueIdx.ix1 n) := by
  intro n
  dsimp only [Hand.V7, Hand.W7]
  after_results_simp
  exact (col50000 _ n).trans (congrFun ((keep6 m ρ c main_arg2 (by decide) (by decide) (by decide) (by decide) (by decide) (by decide)).trans rfl) (ValueIdx.ix1 n))

end Cert.KernelIdeal.Val

end
-- ==== Proof.Val.L0a.lean ====
/-
  One entry of a hidden layer with batch normalisation and ReLU, as a function on the extended reals of the rows of the two
  row-indexed operands, the two weight matrices and the five per-column vectors; the fact that an entry reads only its own
  row; and a row vector broadcast down a block of 5000 rows, read at an entry. Nothing here depends on the width of the
  layer's input.
-/
import proofs.«419563_j70007966925389_1_alg».proof.Proof.Gen.KernelIdeal
import Idealize.ShloMosaic.Lib.ValueIdx
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.ShloMosaic.ValueIdx
open Cert.KernelIdeal Cert.KernelIdeal.Gen

/-- One entry of a hidden layer with batch normalisation and ReLU, on the extended reals: row `p` of the neighbour mean
    `y` and of the features `x` against column `q` of the two weight matrices, plus the bias, centred by the running mean,
    scaled by the reciprocal root of the running variance plus ε, by γ, shifted by β, and clamped below at zero. ε and the
    zero are kept as the 32-bit words both programs write. The rows may be those of the whole array or of one block. -/
def hiddenEntry {N K : Nat} (y x : Fin N → Fin K → EReal) (wl wr : Fin K → Fin 64 → EReal) (b g be mu var : Fin 64 → EReal)
    (p : Fin N) (q : Fin 64) : EReal :=
  max (((((∑ k : Fin K, y p k * wl k q) + ∑ k : Fin K, x p k * wr k q) + b q) - mu q)
        * Ideal.rsqrt (var q + Ideal.ofBits .f32 0x3727C5AC#32) * g q + be q) (Ideal.ofBits .f32 0x00000000#32)

/-- An entry reads only its own row of the two row-indexed operands: two arrangements of rows that agree on that row give the same entry. -/
theorem hiddenEntry_row {N N' K : Nat} (y x : Fin N → Fin K → EReal) (y' x' : Fin N' → Fin K → EReal) (wl wr : Fin K → Fin 64 → EReal)
    (b g be mu var : Fin 64 → EReal) (r : Fin N) (p : Fin N') (q : Fin 64) (hy : ∀ k, y r k = y' p k) (hx : ∀ k, x r k = x' p k) :
    hiddenEntry y x wl wr b g be mu var r q = hiddenEntry y' x' wl wr b g be mu var p q := by
  unfold hiddenEntry
  have ey : (∑ k : Fin K, y r k * wl k q) = ∑ k : Fin K, y' p k * wl k q := Finset.sum_congr rfl fun k _ => by rw [hy k]
  have ex : (∑ k : Fin K, x r k * wr k q) = ∑ k : Fin K, x' p k * wr k q := Finset.sum_congr rfl fun k _ => by rw [hx k]
  rw [ey, ex]

/-- A row vector broadcast down the 5000 rows of a block reads, at row `r` and column `q`, its own column `q`. -/
theorem row_bcast_entry {α : Type} (v : S1x64.Idx → α) (r : Fin 5000) (q : Fin 64) :
    broadcastTo S5000x64 v broadcasts_S1x64_S5000x64 (ix2 r q) = v (ix2 0 q) :=
  broadcastTo_apply v broadcasts_S1x64_S5000x64 (ix2 r q) (ix2 0 q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

end Cert.KernelIdeal.Val

end
-- ==== Proof.Val.L0.lean ====
/-
  The first layer at the ideal instance. Entered with the neighbour mean, the node features, the two weight matrices and
  the bias and batch-norm vectors the reference computes with, region 0 leaves in its output array the reference's first
  hidden layer: row by row max(((mean·W_l + x·W_r + b) − μ)·rsqrt(σ² + ε)·γ + β, 0). The region writes the array as ten
  blocks of 5000 rows; a row's entry is a sum over the 128 input features, the same sum the reference's two products are.
-/
import proofs.«419563_j70007966925389_1_alg».proof.Proof.KI.Defs
import proofs.«419563_j70007966925389_1_alg».proof.Proof.Val.RefGen
import proofs.«419563_j70007966925389_1_alg».proof.Proof.Val.L0a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Idealize.ShloMosaic.ValueIdx
open Cert.KernelIdeal Cert.KernelIdeal.Gen Cert.KernelIdeal.Hand

/-! The generated index functions of the reference's stages, at an index given by its coordinates. -/
theorem lidx23_ix0 (p : Fin 50000) (q : Fin 64) (k : Fin 128) : Cert.ReferenceIdeal.Read.lidx_main_v23 (ix2 p q) k = ix2 p k :=
  funext fun a => Fin.ext (by match a with | ⟨0, _⟩ => rfl | ⟨1, _⟩ => rfl)
theorem ridx23_ix0 (p : Fin 50000) (q : Fin 64) (k : Fin 128) : Cert.ReferenceIdeal.Read.ridx_main_v23 (ix2 p q) k = ix2 k q :=
  funext fun a => Fin.ext (by match a with | ⟨0, _⟩ => rfl | ⟨1, _⟩ => rfl)
theorem lidx24_ix0 (p : Fin 50000) (q : Fin 64) (k : Fin 128) : Cert.ReferenceIdeal.Read.lidx_main_v24 (ix2 p q) k = ix2 p k :=
  funext fun a => Fin.ext (by match a with | ⟨0, _⟩ => rfl | ⟨1, _⟩ => rfl)
theorem ridx24_ix0 (p : Fin 50000) (q : Fin 64) (k : Fin 128) : Cert.ReferenceIdeal.Read.ridx_main_v24 (ix2 p q) k = ix2 k q :=
  funext fun a => Fin.ext (by match a with | ⟨0, _⟩ => rfl | ⟨1, _⟩ => rfl)
theorem idx26_27_ix0 (p : Fin 50000) (q : Fin 64) : Cert.ReferenceIdeal.Read.idx_main_v26 (Cert.ReferenceIdeal.Read.idx_main_v27 (ix2 p q)) = ix1 q :=
  funext fun a => Fin.ext (by match a with | ⟨0, _⟩ => rfl)
theorem idx29_30_ix0 (p : Fin 50000) (q : Fin 64) : Cert.ReferenceIdeal.Read.idx_main_v29 (Cert.ReferenceIdeal.Read.idx_main_v30 (ix2 p q)) = ix1 q :=
  funext fun a => Fin.ext (by match a with | ⟨0, _⟩ => rfl)
theorem idx35_36_ix0 (p : Fin 50000) (q : Fin 64) : Cert.ReferenceIdeal.Read.idx_main_v35 (Cert.ReferenceIdeal.Read.idx_main_v36 (ix2 p q)) = ix1 q :=
  funext fun a => Fin.ext (by match a with | ⟨0, _⟩ => rfl)
theorem idx38_39_ix0 (p : Fin 50000) (q : Fin 64) : Cert.ReferenceIdeal.Read.idx_main_v38 (Cert.ReferenceIdeal.Read.idx_main_v39 (ix2 p q)) = ix1 q :=
  funext fun a => Fin.ext (by match a with | ⟨0, _⟩ => rfl)
theorem idx41_42_ix0 (p : Fin 50000) (q : Fin 64) : Cert.ReferenceIdeal.Read.idx_main_v41 (Cert.ReferenceIdeal.Read.idx_main_v42 (ix2 p q)) = ix1 q :=
  funext fun a => Fin.ext (by match a with | ⟨0, _⟩ => rfl)
/-! ## The reference's first hidden layer, at an index, is the hidden-layer entry of @main's arguments -/

theorem ref_entry0 (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 x12 x13 x14 x15 : (⟨S64, .f32⟩ : BufTy).Contents (Elt Ideal))
    (p : Fin 50000) (q : Fin 64) :
    Cert.ReferenceIdeal.Read.val_main_v44 (F := Ideal) x0 x1 x3 x4 x5 x12 x13 x14 x15 (ix2 p q)
      = hiddenEntry (fun p k => Cert.ReferenceIdeal.Read.val_main_v22 (F := Ideal) x0 x1 (ix2 p k)) (fun p k => x0 (ix2 p k))
          (fun k q => x3 (ix2 k q)) (fun k q => x4 (ix2 k q)) (fun q => x5 (ix1 q)) (fun q => x12 (ix1 q)) (fun q => x13 (ix1 q))
          (fun q => x14 (ix1 q)) (fun q => x15 (ix1 q)) p q := by
  rw [Cert.ReferenceIdeal.Read.val_main_v44_apply, Cert.ReferenceIdeal.Read.val_main_v43_apply, Cert.ReferenceIdeal.Read.val_main_v40_apply,
    Cert.ReferenceIdeal.Read.val_main_v37_apply, Cert.ReferenceIdeal.Read.val_main_v31_apply, Cert.ReferenceIdeal.Read.val_main_v28_apply,
    Cert.ReferenceIdeal.Read.val_main_v25_apply, Cert.ReferenceIdeal.Read.val_main_v23_apply, Cert.ReferenceIdeal.Read.val_main_v24_apply]
  rw [Cert.ReferenceIdeal.Read.val_main_v27_apply, Cert.ReferenceIdeal.Read.val_main_v26_apply, Cert.ReferenceIdeal.Read.val_main_v30_apply, Cert.ReferenceIdeal.Read.val_main_v29_apply, Cert.ReferenceIdeal.Read.val_main_v36_apply, Cert.ReferenceIdeal.Read.val_main_v35_apply, Cert.ReferenceIdeal.Read.val_main_v34_apply, Cert.ReferenceIdeal.Read.val_main_v33_apply, Cert.ReferenceIdeal.Read.val_main_v32_apply, Cert.ReferenceIdeal.Read.val_main_cst_4_apply, Cert.ReferenceIdeal.Read.val_main_v39_apply, Cert.ReferenceIdeal.Read.val_main_v38_apply, Cert.ReferenceIdeal.Read.val_main_v42_apply, Cert.ReferenceIdeal.Read.val_main_v41_apply, Cert.ReferenceIdeal.Read.val_main_call0_v0_apply, Cert.ReferenceIdeal.Read.val_main_call0_cst_apply]
  simp only [lidx23_ix0, ridx23_ix0, lidx24_ix0, ridx24_ix0, idx26_27_ix0, idx29_30_ix0, idx35_36_ix0, idx38_39_ix0, idx41_42_ix0]
  rfl

/-! ## The body's two products, read at an entry

  A product of a 5000×128 block with a 128×64 matrix into the zero block is, at row `r` and column `q`, the sum over the
  128 contracted positions; the contraction index is re-indexed by its one coordinate. -/

theorem lhs_row0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_contr0 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
theorem rhs_contr0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
theorem rhs_col0 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem matmul_entry0 {φ₁ φ₂ : FTy} (a : FVec Ideal S5000x128 φ₁) (w : FVec Ideal S128x64 φ₂) (r : Fin 5000) (q : Fin 64) :
    matmul dot_S5000x128_S128x64_S5000x64_1_0_0_1_n_n none a w (constant S5000x64 .f32 0x00000000#32) (ix2 r q) = ∑ k : Fin 128, a (ix2 r k) * w (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 r q) ((ValueIdx.contrEquiv1 dot_S5000x128_S128x64_S5000x64_1_0_0_1_n_n 128 rfl rfl).symm k) = ix2 r k := funext fun a => Fin.ext (by
    match a with
    | ⟨0, _⟩ => exact lhs_row0 _ _
    | ⟨1, _⟩ => exact (lhs_contr0 _ _).trans hk)
  have er : dot_S5000x128_S128x64_S5000x64_1_0_0_1_n_n.rhsIdx (ix2 r q) ((ValueIdx.contrEquiv1 dot_S5000x128_S128x64_S5000x64_1_0_0_1_n_n 128 rfl rfl).symm k) = ix2 k q := funext fun a => Fin.ext (by
    match a with
    | ⟨0, _⟩ => exact (rhs_contr0 _ _).trans hk
    | ⟨1, _⟩ => exact rhs_col0 _ _)
  rw [el, er]
/-- THE BODY'S ARITHMETIC AT AN ENTRY: the block the first layer's body computes from its nine loaded blocks is, at row `r` and
    column `q`, the hidden-layer entry of those blocks (the narrowing of the products' operands is the identity on the
    extended reals). -/
theorem pay_entry0 (v0 v3 : Vec Ideal S5000x128 .f32) (v5 v7 : Vec Ideal S128x64 .f32) (v12 v16 v20 v27 v31 : Vec Ideal S1x64 .f32)
    (r : Fin 5000) (q : Fin 64) :
    k0_pay1 v0 v3 v5 v7 v12 v16 v20 v27 v31 (ix2 r q)
      = hiddenEntry (fun r k => v0 (ix2 r k)) (fun r k => v3 (ix2 r k)) (fun k q => v5 (ix2 k q)) (fun k q => v7 (ix2 k q))
          (fun q => v12 (ix2 0 q)) (fun q => v27 (ix2 0 q)) (fun q => v31 (ix2 0 q)) (fun q => v16 (ix2 0 q)) (fun q => v20 (ix2 0 q)) r q := by
  unfold k0_pay1
  simp only [shapeCast_self]
  rw [maximumf_apply, addf_apply, mulf_apply, mulf_apply, subf_apply, addf_apply, addf_apply, matmul_entry0, matmul_entry0,
    row_bcast_entry, row_bcast_entry, row_bcast_entry, row_bcast_entry, row_bcast_entry]
  rfl

/-! ## From the ten blocks to the array -/

/-- The printed index maps, decided over the ten grid points: the two row-blocked inputs and the output sit at block row `t`,
    block column 0; the weights, the bias and the batch-norm vectors are whole at every point. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_9.index t (0 : Fin 2) = t.val
    ∧ win0_9.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Row `r` of the neighbour-mean block at point `t` is row `5000·t + r` of the array. -/
theorem iblk0_entry0 (V : (c : Dev nD) → (b : Ref sig .tc) → Buf (Elt Ideal) ((c : Thread nD τ).loc b)) (c : Dev nD) (t : Fin cfg0.N) (r : Fin 5000) (k : Fin 128) (p : Fin 50000) (hp : p.val = t.val * 5000 + r.val) :
    (iblk0 V c 0 t : Vec Ideal S5000x128 .f32) (ix2 r k) = (V c main_v22 : (⟨S50000x128, .f32⟩ : BufTy).Contents (Elt Ideal)) (ix2 p k) := by
  obtain ⟨e0, e1, -, -, -, -, -, -, -, -, -, -, -, -, -, -, -, -, -, -⟩ := idx_facts0 t
  show (V c main_v22 : (⟨S50000x128, .f32⟩ : BufTy).Contents (Elt Ideal)) (((cfg0.win 0).blk t).view.emb (ix2 r k)) = _
  refine congrArg _ (funext fun a => Fin.ext ?_)
  match a with
  | ⟨0, _⟩ => show win0_0.index t (0 : Fin 2) * 5000 + 1 * r.val = p.val; omega
  | ⟨1, _⟩ => show win0_0.index t (1 : Fin 2) * 128 + 1 * k.val = k.val; omega

/-- Row `r` of the feature block at point `t` is row `5000·t + r` of the array. -/
theorem iblk1_entry0 (V : (c : Dev nD) → (b : Ref sig .tc) → Buf (Elt Ideal) ((c : Thread nD τ).loc b)) (c : Dev nD) (t : Fin cfg0.N) (r : Fin 5000) (k : Fin 128) (p : Fin 50000) (hp : p.val = t.val * 5000 + r.val) :
    (iblk0 V c 1 t : Vec Ideal S5000x128 .f32) (ix2 r k) = (V c main_arg0 : (⟨S50000x128, .f32⟩ : BufTy).Contents (Elt Ideal)) (ix2 p k) := by
  obtain ⟨-, -, e0, e1, -, -, -, -, -, -, -, -, -, -, -, -, -, -, -, -⟩ := idx_facts0 t
  show (V c main_arg0 : (⟨S50000x128, .f32⟩ : BufTy).Contents (Elt Ideal)) (((cfg0.win 1).blk t).view.emb (ix2 r k)) = _
  refine congrArg _ (funext fun a => Fin.ext ?_)
  match a with
  | ⟨0, _⟩ => show win0_1.index t (0 : Fin 2) * 5000 + 1 * r.val = p.val; omega
  | ⟨1, _⟩ => show win0_1.index t (1 : Fin 2) * 128 + 1 * k.val = k.val; omega

/-- The left weight window's block is the whole matrix at every point. -/
theorem iblk2_entry0 (V : (c : Dev nD) → (b : Ref sig .tc) → Buf (Elt Ideal) ((c : Thread nD τ).loc b)) (c : Dev nD) (t : Fin cfg0.N) (k : Fin 128) (q : Fin 64) :
    (iblk0 V c 2 t : Vec Ideal S128x64 .f32) (ix2 k q) = (V c main_arg3 : (⟨S128x64, .f32⟩ : BufTy).Contents (Elt Ideal)) (ix2 k q) := by
  obtain ⟨-, -, -, -, -, -, e0, e1, -, -, -, -, -, -, -, -, -, -, -, -⟩ := idx_facts0 t
  show (V c main_arg3 : (⟨S128x64, .f32⟩ : BufTy).Contents (Elt Ideal)) (((cfg0.win 2).blk t).view.emb (ix2 k q)) = _
  refine congrArg _ (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

/-- The right weight window's block is the whole matrix at every point. -/
theorem iblk3_entry0 (V : (c : Dev nD) → (b : Ref sig .tc) → Buf (Elt Ideal) ((c : Thread nD τ).loc b)) (c : Dev nD) (t : Fin cfg0.N) (k : Fin 128) (q : Fin 64) :
    (iblk0 V c 3 t : Vec Ideal S128x64 .f32) (ix2 k q) = (V c main_arg4 : (⟨S128x64, .f32⟩ : BufTy).Contents (Elt Ideal)) (ix2 k q) := by
  obtain ⟨-, -, -, -, -, -, -, -, e0, e1, -, -, -, -, -, -, -, -, -, -⟩ := idx_facts0 t
  show (V c main_arg4 : (⟨S128x64, .f32⟩ : BufTy).Contents (Elt Ideal)) (((cfg0.win 3).blk t).view.emb (ix2 k q)) = _
  refine congrArg _ (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

/-- The bias window's block is the whole row vector at every point. -/
theorem iblk4_entry0 (V : (c : Dev nD) → (b : Ref sig .tc) → Buf (Elt Ideal) ((c : Thread nD τ).loc b)) (c : Dev nD) (t : Fin cfg0.N) (q : Fin 64) :
    (iblk0 V c 4 t : Vec Ideal S1x64 .f32) (ix2 0 q) = (V c main_v23 : (⟨S1x64, .f32⟩ : BufTy).Contents (Elt Ideal)) (ix2 0 q) := by
  obtain ⟨-, -, -, -, -, -, -, -, -, -, e0, e1, -, -, -, -, -, -, -, -⟩ := idx_facts0 t
  show (V c main_v23 : (⟨S1x64, .f32⟩ : BufTy).Contents (Elt Ideal)) (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- The scale window's block is the whole row vector at every point. -/
theorem iblk5_entry0 (V : (c : Dev nD) → (b : Ref sig .tc) → Buf (Elt Ideal) ((c : Thread nD τ).loc b)) (c : Dev nD) (t : Fin cfg0.N) (q : Fin 64) :
    (iblk0 V c 5 t : Vec Ideal S1x64 .f32) (ix2 0 q) = (V c main_v24 : (⟨S1x64, .f32⟩ : BufTy).Contents (Elt Ideal)) (ix2 0 q) := by
  obtain ⟨-, -, -, -, -, -, -, -, -, -, -, -, e0, e1, -, -, -, -, -, -⟩ := idx_facts0 t
  show (V c main_v24 : (⟨S1x64, .f32⟩ : BufTy).Contents (Elt Ideal)) (((cfg0.win 5).blk t).view.emb (ix2 0 q)) = _
  refine congrArg _ (funext fun a => Fin.ext ?_)
  match a with
  | ⟨0, _⟩ => show win0_5.index t (0 : Fin 2) * 1 + 1 * 0 = 0; omega
  | ⟨1, _⟩ => show win0_5.index t (1 : Fin 2) * 64 + 1 * q.val = q.val; omega

/-- The shift window's block is the whole row vector at every point. -/
theorem iblk6_entry0 (V : (c : Dev nD) → (b : Ref sig .tc) → Buf (Elt Ideal) ((c : Thread nD τ).loc b)) (c : Dev nD) (t : Fin cfg0.N) (q : Fin 64) :
    (iblk0 V c 6 t : Vec Ideal S1x64 .f32) (ix2 0 q) = (V c main_v25 : (⟨S1x64, .f32⟩ : BufTy).Contents (Elt Ideal)) (ix2 0 q) := by
  obtain ⟨-, -, -, -, -, -, -, -, -, -, -, -, -, -, e0, e1, -, -, -, -⟩ := idx_facts0 t
  show (V c main_v25 : (⟨S1x64, .f32⟩ : BufTy).Contents (Elt Ideal)) (((cfg0.win 6).blk t).view.emb (ix2 0 q)) = _
  refine congrArg _ (funext fun a => Fin.ext ?_)
  match a with
  | ⟨0, _⟩ => show win0_6.index t (0 : Fin 2) * 1 + 1 * 0 = 0; omega
  | ⟨1, _⟩ => show win0_6.index t (1 : Fin 2) * 64 + 1 * q.val = q.val; omega

/-- The running-mean window's block is the whole row vector at every point. -/
theorem iblk7_entry0 (V : (c : Dev nD) → (b : Ref sig .tc) → Buf (Elt Ideal) ((c : Thread nD τ).loc b)) (c : Dev nD) (t : Fin cfg0.N) (q : Fin 64) :
    (iblk0 V c 7 t : Vec Ideal S1x64 .f32) (ix2 0 q) = (V c main_v26 : (⟨S1x64, .f32⟩ : BufTy).Contents (Elt Ideal)) (ix2 0 q) := by
  obtain ⟨-, -, -, -, -, -, -, -, -, -, -, -, -, -, -, -, e0, e1, -, -⟩ := idx_facts0 t
  show (V c main_v26 : (⟨S1x64, .f32⟩ : BufTy).Contents (Elt Ideal)) (((cfg0.win 7).blk t).view.emb (ix2 0 q)) = _
  refine congrArg _ (funext fun a => Fin.ext ?_)
  match a with
  | ⟨0, _⟩ => show win0_7.index t (0 : Fin 2) * 1 + 1 * 0 = 0; omega
  | ⟨1, _⟩ => show win0_7.index t (1 : Fin 2) * 64 + 1 * q.val = q.val; omega

/-- The running-variance window's block is the whole row vector at every point. -/
theorem iblk8_entry0 (V : (c : Dev nD) → (b : Ref sig .tc) → Buf (Elt Ideal) ((c : Thread nD τ).loc b)) (c : Dev nD) (t : Fin cfg0.N) (q : Fin 64) :
    (iblk0 V c 8 t : Vec Ideal S1x64 .f32) (ix2 0 q) = (V c main_v27 : (⟨S1x64, .f32⟩ : BufTy).Contents (Elt Ideal)) (ix2 0 q) := by
  obtain ⟨-, -, -, -, -, -, -, -, -, -, -, -, -, -, -, -, -, -, e0, e1⟩ := idx_facts0 t
  show (V c main_v27 : (⟨S1x64, .f32⟩ : BufTy).Contents (Elt Ideal)) (((cfg0.win 8).blk t).view.emb (ix2 0 q)) = _
  refine congrArg _ (funext fun a => Fin.ext ?_)
  match a with
  | ⟨0, _⟩ => show win0_8.index t (0 : Fin 2) * 1 + 1 * 0 = 0; omega
  | ⟨1, _⟩ => show win0_8.index t (1 : Fin 2) * 64 + 1 * q.val = q.val; omega

/-- WHAT THE REGION LEAVES, as one function of the arrays it is entered with: entry (p, q) of the output array is the
    hidden-layer entry of the whole arrays. -/
def arr0 (V : (c : Dev nD) → (b : Ref sig .tc) → Buf (Elt Ideal) ((c : Thread nD τ).loc b)) (c : Dev nD) : (⟨S50000x64, .f32⟩ : BufTy).Contents (Elt Ideal) := fun i =>
  hiddenEntry (fun p k => (V c main_v22 : (⟨S50000x128, .f32⟩ : BufTy).Contents (Elt Ideal)) (ix2 p k)) (fun p k => (V c main_arg0 : (⟨S50000x128, .f32⟩ : BufTy).Contents (Elt Ideal)) (ix2 p k))
      (fun k q => (V c main_arg3 : (⟨S128x64, .f32⟩ : BufTy).Contents (Elt Ideal)) (ix2 k q)) (fun k q => (V c main_arg4 : (⟨S128x64, .f32⟩ : BufTy).Contents (Elt Ideal)) (ix2 k q))
      (fun q => (V c main_v23 : (⟨S1x64, .f32⟩ : BufTy).Contents (Elt Ideal)) (ix2 0 q)) (fun q => (V c main_v24 : (⟨S1x64, .f32⟩ : BufTy).Contents (Elt Ideal)) (ix2 0 q)) (fun q => (V c main_v25 : (⟨S1x64, .f32⟩ : BufTy).Contents (Elt Ideal)) (ix2 0 q))
      (fun q => (V c main_v26 : (⟨S1x64, .f32⟩ : BufTy).Contents (Elt Ideal)) (ix2 0 q)) (fun q => (V c main_v27 : (⟨S1x64, .f32⟩ : BufTy).Contents (Elt Ideal)) (ix2 0 q))
      ⟨(i 0).val, idx2_lt0 i⟩ ⟨(i 1).val, idx2_lt1 i⟩

theorem arr_ix0 (V : (c : Dev nD) → (b : Ref sig .tc) → Buf (Elt Ideal) ((c : Thread nD τ).loc b)) (c : Dev nD) (p : Fin 50000) (q : Fin 64) :
    arr0 V c (ix2 p q) = hiddenEntry (fun p k => (V c main_v22 : (⟨S50000x128, .f32⟩ : BufTy).Contents (Elt Ideal)) (ix2 p k)) (fun p k => (V c main_arg0 : (⟨S50000x128, .f32⟩ : BufTy).Contents (Elt Ideal)) (ix2 p k))
      (fun k q => (V c main_arg3 : (⟨S128x64, .f32⟩ : BufTy).Contents (Elt Ideal)) (ix2 k q)) (fun k q => (V c main_arg4 : (⟨S128x64, .f32⟩ : BufTy).Contents (Elt Ideal)) (ix2 k q))
      (fun q => (V c main_v23 : (⟨S1x64, .f32⟩ : BufTy).Contents (Elt Ideal)) (ix2 0 q)) (fun q => (V c main_v24 : (⟨S1x64, .f32⟩ : BufTy).Contents (Elt Ideal)) (ix2 0 q)) (fun q => (V c main_v25 : (⟨S1x64, .f32⟩ : BufTy).Contents (Elt Ideal)) (ix2 0 q))
      (fun q => (V c main_v26 : (⟨S1x64, .f32⟩ : BufTy).Contents (Elt Ideal)) (ix2 0 q)) (fun q => (V c main_v27 : (⟨S1x64, .f32⟩ : BufTy).Contents (Elt Ideal)) (ix2 0 q)) p q := rfl

/-- Entry (r, q) of the block stored at point `t` is entry (5000·t + r, q) of that function: the body's arithmetic reads the
    point's rows of the two row-blocked inputs, which are those rows of the arrays, and the whole of the other seven. -/
theorem out_entry0 (V : (c : Dev nD) → (b : Ref sig .tc) → Buf (Elt Ideal) ((c : Thread nD τ).loc b)) (c : Dev nD) (t : Fin cfg0.N) (r : Fin 5000) (q : Fin 64) (p : Fin 50000) (hp : p.val = t.val * 5000 + r.val) :
    out0 V c t (ix2 r q) = hiddenEntry (fun p k => (V c main_v22 : (⟨S50000x128, .f32⟩ : BufTy).Contents (Elt Ideal)) (ix2 p k)) (fun p k => (V c main_arg0 : (⟨S50000x128, .f32⟩ : BufTy).Contents (Elt Ideal)) (ix2 p k))
      (fun k q => (V c main_arg3 : (⟨S128x64, .f32⟩ : BufTy).Contents (Elt Ideal)) (ix2 k q)) (fun k q => (V c main_arg4 : (⟨S128x64, .f32⟩ : BufTy).Contents (Elt Ideal)) (ix2 k q))
      (fun q => (V c main_v23 : (⟨S1x64, .f32⟩ : BufTy).Contents (Elt Ideal)) (ix2 0 q)) (fun q => (V c main_v24 : (⟨S1x64, .f32⟩ : BufTy).Contents (Elt Ideal)) (ix2 0 q)) (fun q => (V c main_v25 : (⟨S1x64, .f32⟩ : BufTy).Contents (Elt Ideal)) (ix2 0 q))
      (fun q => (V c main_v26 : (⟨S1x64, .f32⟩ : BufTy).Contents (Elt Ideal)) (ix2 0 q)) (fun q => (V c main_v27 : (⟨S1x64, .f32⟩ : BufTy).Contents (Elt Ideal)) (ix2 0 q)) p q := by
  unfold out0
  rw [pay_entry0]
  simp only [iblk2_entry0, iblk3_entry0, iblk4_entry0, iblk5_entry0, iblk6_entry0, iblk7_entry0, iblk8_entry0]
  exact hiddenEntry_row _ _ _ _ _ _ _ _ _ _ _ r p q (fun k => iblk0_entry0 V c t r k p hp) (fun k => iblk1_entry0 V c t r k p hp)

/-- WHAT POINT `t` WRITES BACK is block `t` of that function: the stored block read at its own entry (r, q), against the
    output's rectangle, which puts that entry at row 5000·t + r, column q of the array. -/
theorem flushed_eq0 (V : (c : Dev nD) → (b : Ref sig .tc) → Buf (Elt Ideal) ((c : Thread nD τ).loc b)) (c : Dev nD) (t : Fin cfg0.N) :
    (dat0 V c).flushed 9 t = ((cfg0.win 9).blk t).view.read (Elt Ideal) (arr0 V c) := by
  show (cfg0.win 9).cut (grid0.coords t) ((dat0 V c).after 9 t) = _
  rw [after0_9]
  obtain ⟨-, -, -, -, e0, e1, -, -, -, -, -, -, -, -, -, -, -, -, -, -⟩ := idx_facts0 t
  funext j
  have ht : t.val < 10 := t.isLt
  have hj0 : (j 0).val < 5000 := (j 0).isLt
  have hj1 : (j 1).val < 64 := (j 1).isLt
  have ein : (cfg0.win 9).xinj (grid0.coords t) j = ix2 (⟨(j 0).val, hj0⟩ : Fin 5000) (⟨(j 1).val, hj1⟩ : Fin 64) :=
    funext fun a => by match a with | ⟨0, _⟩ => rfl | ⟨1, _⟩ => rfl
  have eout : ((cfg0.win 9).blk t).view.emb j = ix2 (⟨t.val * 5000 + (j 0).val, by omega⟩ : Fin 50000) (⟨(j 1).val, hj1⟩ : Fin 64) :=
    funext fun a => Fin.ext (by
      match a with
      | ⟨0, _⟩ => show win0_9.index t (0 : Fin 2) * 5000 + 1 * (j 0).val = t.val * 5000 + (j 0).val; omega
      | ⟨1, _⟩ => show win0_9.index t (1 : Fin 2) * 64 + 1 * (j 1).val = (j 1).val; omega)
  show out0 V c t ((cfg0.win 9).xinj (grid0.coords t) j) = arr0 V c (((cfg0.win 9).blk t).view.emb j)
  rw [ein, eout, arr_ix0]
  exact out_entry0 V c t _ _ _ rfl

/-- Membership in the rectangle point `t` writes, axis by axis: from the block's first row (column) up to, not including, the next block's. -/
theorem mem_blk0 (t : Fin cfg0.N) (i : S50000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v28).slice (win0_9.rect t)).set ↔ _
  rw [View.set_slice_whole, Rect.mem_set_unit]
  exact Iff.rfl

/-- THE COVER: row `p` of the array lies in the block of point `p / 5000`, and every point writes its block back. -/
theorem cover0 (i : S50000x64.Idx) : ∃ t : Fin cfg0.N, (cfg0.win 9).flush t = true ∧ i ∈ ((cfg0.win 9).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by show _ < 10; omega⟩, rfl⟩
  obtain ⟨-, -, -, -, e0, e1, -, -, -, -, -, -, -, -, -, -, -, -, -, -⟩ := idx_facts0 t
  refine ⟨t, flush0_9 t, ?_⟩
  rw [mem_blk0]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- THE ARRAY AFTER THE TEN POINTS is that function: every point writes its block of it, and the blocks cover the array. -/
theorem final0 (V : (c : Dev nD) → (b : Ref sig .tc) → Buf (Elt Ideal) ((c : Thread nD τ).loc b)) (c : Dev nD) : (dat0 V c).arrAt 9 cfg0.N = arr0 V c :=
  (dat0 V c).arrAt_eq_of_cover 9 (arr0 V c) (fun t _ => flushed_eq0 V c t) cover0

/-- THE FIRST LAYER. Entered with the reference's neighbour mean, features, weights, bias and batch-norm vectors, region 0
    leaves the reference's first hidden layer: both are the hidden-layer entry of the same operands at every index. -/
theorem layer0 (V : (c : Dev nD) → (b : Ref sig .tc) → Buf (Elt Ideal) ((c : Thread nD τ).loc b)) (c : Dev nD)
    (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 x12 x13 x14 x15 : (⟨S64, .f32⟩ : BufTy).Contents (Elt Ideal))
    (hmean : (V c main_v22 : (⟨S50000x128, .f32⟩ : BufTy).Contents (Elt Ideal)) = Cert.ReferenceIdeal.Read.val_main_v22 (F := Ideal) x0 x1)
    (hx : (V c main_arg0 : (⟨S50000x128, .f32⟩ : BufTy).Contents (Elt Ideal)) = x0)
    (hwl : (V c main_arg3 : (⟨S128x64, .f32⟩ : BufTy).Contents (Elt Ideal)) = x3) (hwr : (V c main_arg4 : (⟨S128x64, .f32⟩ : BufTy).Contents (Elt Ideal)) = x4)
    (hb : (∀ j : Fin 64, (V c main_v23 : (⟨S1x64, .f32⟩ : BufTy).Contents (Elt Ideal)) (ValueIdx.ix2 0 j) = x5 (ValueIdx.ix1 j))) (hg : (∀ j : Fin 64, (V c main_v24 : (⟨S1x64, .f32⟩ : BufTy).Contents (Elt Ideal)) (ValueIdx.ix2 0 j) = x12 (ValueIdx.ix1 j))) (hbe : (∀ j : Fin 64, (V c main_v25 : (⟨S1x64, .f32⟩ : BufTy).Contents (Elt Ideal)) (ValueIdx.ix2 0 j) = x13 (ValueIdx.ix1 j)))
    (hmu : (∀ j : Fin 64, (V c main_v26 : (⟨S1x64, .f32⟩ : BufTy).Contents (Elt Ideal)) (ValueIdx.ix2 0 j) = x14 (ValueIdx.ix1 j))) (hvar : (∀ j : Fin 64, (V c main_v27 : (⟨S1x64, .f32⟩ : BufTy).Contents (Elt Ideal)) (ValueIdx.ix2 0 j) = x15 (ValueIdx.ix1 j))) :
    ((dat0 V c).arrAt 9 cfg0.N : (⟨S50000x64, .f32⟩ : BufTy).Contents (Elt Ideal)) = Cert.ReferenceIdeal.Read.val_main_v44 (F := Ideal) x0 x1 x3 x4 x5 x12 x13 x14 x15 := by
  rw [final0]
  funext i
  obtain ⟨p, q, rfl⟩ : ∃ (p : Fin 50000) (q : Fin 64), i = ix2 p q := ⟨i 0, i 1, eq_ix2 i⟩
  rw [ref_entry0, arr_ix0, hmean, hx, hwl, hwr, funext hb, funext hg, funext hbe, funext hmu, funext hvar]

end Cert.KernelIdeal.Val

end
-- ==== Proof.Val.L1.lean ====
/-
  The second layer at the ideal instance: entered with the reference's neighbour mean of the first hidden layer, that layer
  itself, the second layer's weights, bias and batch-norm vectors, region 1 leaves the reference's second hidden layer.

  Both sides are read entry by entry as one formula on the extended reals: the reference's stages composed at an index; the
  body's arithmetic on a point's blocks at an entry of the block (a change of float format is the identity, a product into
  a zero accumulator is the sum over the contraction index); a block's row r at point t is row 5000·t + r of the array, and
  row p lies in point p / 5000's block, so the ten write-backs leave the formula at every entry of the array.
-/
import proofs.«419563_j70007966925389_1_alg».proof.Proof.KI.Defs
import proofs.«419563_j70007966925389_1_alg».proof.Proof.Val.RefGen
import proofs.«419563_j70007966925389_1_alg».proof.Proof.Val.L0a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.ShloMosaic.ValueIdx
open Idealize.SL.Sem
open Idealize.ShloMosaic.Pipeline (Dat Cfg Window)
open Cert.KernelIdeal Cert.KernelIdeal.Gen Cert.KernelIdeal.Hand

/-! ## The reference's second hidden layer, entry by entry -/

section Reference
open Cert.ReferenceIdeal.Read

/-- Entry (p, q) of the reference's second hidden layer is the layer's formula on row p of the reference's neighbour mean
    and first hidden layer, column q of the second layer's weights, and the q-th bias, scale, shift, mean and variance. -/
theorem ref1_entry (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 x12 x13 x14 x15 x16 x17 x18 x19 : (⟨S64, .f32⟩ : BufTy).Contents (Elt Ideal))
    (p : Fin 50000) (q : Fin 64) :
    val_main_v85 (F := Ideal) x0 x1 x3 x4 x5 x6 x7 x8 x12 x13 x14 x15 x16 x17 x18 x19 (ix2 p q)
      = hiddenEntry (fun p k => val_main_v63 (F := Ideal) x0 x1 x3 x4 x5 x12 x13 x14 x15 (ix2 p k))
          (fun p k => val_main_v44 (F := Ideal) x0 x1 x3 x4 x5 x12 x13 x14 x15 (ix2 p k))
          (fun k q => x6 (ix2 k q)) (fun k q => x7 (ix2 k q))
          (fun q => x8 (ix1 q)) (fun q => x16 (ix1 q)) (fun q => x17 (ix1 q)) (fun q => x18 (ix1 q)) (fun q => x19 (ix1 q)) p q := by
  have el64 : ∀ k : Fin 64, lidx_main_v64 (ix2 p q) k = ix2 p k := fun k => funext fun a => Fin.ext (by match a with | ⟨0, _⟩ => rfl | ⟨1, _⟩ => rfl)
  have er64 : ∀ k : Fin 64, ridx_main_v64 (ix2 p q) k = ix2 k q := fun k => funext fun a => Fin.ext (by match a with | ⟨0, _⟩ => rfl | ⟨1, _⟩ => rfl)
  have el65 : ∀ k : Fin 64, lidx_main_v65 (ix2 p q) k = ix2 p k := fun k => funext fun a => Fin.ext (by match a with | ⟨0, _⟩ => rfl | ⟨1, _⟩ => rfl)
  have er65 : ∀ k : Fin 64, ridx_main_v65 (ix2 p q) k = ix2 k q := fun k => funext fun a => Fin.ext (by match a with | ⟨0, _⟩ => rfl | ⟨1, _⟩ => rfl)
  have e68 : idx_main_v67 (idx_main_v68 (ix2 p q)) = ix1 q := funext fun a => Fin.ext (by match a with | ⟨0, _⟩ => rfl)
  have e71 : idx_main_v70 (idx_main_v71 (ix2 p q)) = ix1 q := funext fun a => Fin.ext (by match a with | ⟨0, _⟩ => rfl)
  have e77 : idx_main_v76 (idx_main_v77 (ix2 p q)) = ix1 q := funext fun a => Fin.ext (by match a with | ⟨0, _⟩ => rfl)
  have e80 : idx_main_v79 (idx_main_v80 (ix2 p q)) = ix1 q := funext fun a => Fin.ext (by match a with | ⟨0, _⟩ => rfl)
  have e83 : idx_main_v82 (idx_main_v83 (ix2 p q)) = ix1 q := funext fun a => Fin.ext (by match a with | ⟨0, _⟩ => rfl)
  rw [val_main_v85_apply, val_main_v84_apply, val_main_v81_apply, val_main_v78_apply, val_main_v72_apply, val_main_v69_apply,
    val_main_v66_apply, val_main_v64_apply, val_main_v65_apply, val_main_v68_apply, val_main_v67_apply, val_main_v71_apply,
    val_main_v70_apply, val_main_v77_apply, val_main_v76_apply, val_main_v75_apply, val_main_v74_apply, val_main_v73_apply,
    val_main_cst_11_apply, val_main_v80_apply, val_main_v79_apply, val_main_v83_apply, val_main_v82_apply,
    val_main_call1_v0_apply, val_main_call1_cst_apply]
  simp only [el64, er64, el65, er65, e68, e71, e77, e80, e83]
  rfl

end Reference

/-! ## The body's arithmetic, entry by entry -/

local notation "D1" => dot_S5000x64_S64x64_S5000x64_1_0_0_1_n_n

/-- The left operand's index of the kernel's [5000,64] × [64,64] product keeps the output's row … -/
theorem lhs_mm1_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and takes the contraction index as its column; -/
theorem lhs_mm1_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand's takes the contraction index as its row … -/
theorem rhs_mm1_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and keeps the output's column. -/
theorem rhs_mm1_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product of a 5000×64 block with a 64×64 matrix into a zero accumulator, at entry (r, q): the sum over k of the
    block's row r against the matrix's column q. -/
theorem matmul1_entry {φ₁ φ₂ : FTy} (l : FVec Ideal S5000x64 φ₁) (w : FVec Ideal S64x64 φ₂) (r : Fin 5000) (q : Fin 64) :
    matmul dot_S5000x64_S64x64_S5000x64_1_0_0_1_n_n none l w (constant S5000x64 .f32 0x00000000#32) (ix2 r q)
      = ∑ k : Fin 64, l (ix2 r k) * w (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact lhs_mm1_0 _ _
    | ⟨1, _⟩ => exact (lhs_mm1_1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (rhs_mm1_0 _ _).trans hk
    | ⟨1, _⟩ => exact rhs_mm1_1 _ _)
  rw [el, er]

/-- What the body stores, at entry (r, q) of the block: the layer's formula on row r of the two row blocks, column q of
    the two weight matrices and the q-th entries of the five row vectors (a change of float format is the identity on
    the extended reals, and the zero accumulator adds nothing). -/
theorem pay1_entry (y x : Vec Ideal S5000x64 .f32) (wl wr : Vec Ideal S64x64 .f32) (b mu var g be : Vec Ideal S1x64 .f32)
    (r : Fin 5000) (q : Fin 64) :
    k1_pay1 (k1_pay2 y x wl wr b mu var g be) k1_pay3 (ix2 r q)
      = hiddenEntry (fun r k => y (ix2 r k)) (fun r k => x (ix2 r k)) (fun k q => wl (ix2 k q)) (fun k q => wr (ix2 k q))
          (fun q => b (ix2 0 q)) (fun q => g (ix2 0 q)) (fun q => be (ix2 0 q)) (fun q => mu (ix2 0 q)) (fun q => var (ix2 0 q)) r q := by
  unfold k1_pay1 k1_pay2 k1_pay3
  simp only [shapeCast_self]
  rw [maximumf_apply, addf_apply, mulf_apply, mulf_apply, subf_apply, addf_apply, addf_apply, matmul1_entry, matmul1_entry,
    row_bcast_entry, row_bcast_entry, row_bcast_entry, row_bcast_entry, row_bcast_entry]
  rfl

/-- Two entries of the layer's formula agree when their operands agree where the entry reads them: on the entry's row of
    the two row-indexed operands, on its column of the weights, and at its column of the five vectors. -/
theorem hiddenEntry_congr1 {N N' K : Nat} (y x : Fin N → Fin K → EReal) (y' x' : Fin N' → Fin K → EReal)
    (wl wr wl' wr' : Fin K → Fin 64 → EReal) (b g be mu var b' g' be' mu' var' : Fin 64 → EReal) (r : Fin N) (p : Fin N') (q : Fin 64)
    (hy : ∀ k, y r k = y' p k) (hx : ∀ k, x r k = x' p k) (hwl : ∀ k, wl k q = wl' k q) (hwr : ∀ k, wr k q = wr' k q)
    (hb : b q = b' q) (hg : g q = g' q) (hbe : be q = be' q) (hmu : mu q = mu' q) (hvar : var q = var' q) :
    hiddenEntry y x wl wr b g be mu var r q = hiddenEntry y' x' wl' wr' b' g' be' mu' var' p q := by
  unfold hiddenEntry
  have ey : (∑ k : Fin K, y r k * wl k q) = ∑ k : Fin K, y' p k * wl' k q := Finset.sum_congr rfl fun k _ => by rw [hy k, hwl k]
  have ex : (∑ k : Fin K, x r k * wr k q) = ∑ k : Fin K, x' p k * wr' k q := Finset.sum_congr rfl fun k _ => by rw [hx k, hwr k]
  rw [ey, ex, hb, hg, hbe, hmu, hvar]

/-! ## From blocks to the array -/

/-- The printed index maps, decided over the ten grid points: the two row-block windows and the output's window are on
    block row `t` at point `t`; the weights' and the row vectors' windows stay on their one block. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

/-- Row `r` of window 0's block at point `t` is row `5000·t + r` of its array. -/
theorem blk1_0 (V : (c : Dev nD) → (b : Ref sig .tc) → Buf (Elt Ideal) ((c : Thread nD τ).loc b)) (c : Dev nD) (t : Fin cfg1.N) (r : Fin 5000) (k : Fin 64) (p : Fin 50000) (hp : p.val = 5000 * t.val + r.val) :
    (iblk1 V c 0 t : Vec Ideal S5000x64 .f32) (ix2 r k) = (V c main_v47 : (⟨S50000x64, .f32⟩ : BufTy).Contents (Elt Ideal)) (ix2 p k) := by
  obtain ⟨⟨e0, e1⟩, -, -, -, -, -, -, -, -, -⟩ := idx_facts1 t
  unfold iblk1
  rw [View.read_apply]
  show V c main_v47 _ = V c main_v47 _
  congr 1
  funext a; apply Fin.ext
  match a with
  | ⟨0, _⟩ => show win1_0.index t (0 : Fin 2) * 5000 + 1 * r.val = p.val; rw [e0, hp]; omega
  | ⟨1, _⟩ => show win1_0.index t (1 : Fin 2) * 64 + 1 * k.val = k.val; rw [e1]; omega

/-- Row `r` of window 1's block at point `t` is row `5000·t + r` of its array. -/
theorem blk1_1 (V : (c : Dev nD) → (b : Ref sig .tc) → Buf (Elt Ideal) ((c : Thread nD τ).loc b)) (c : Dev nD) (t : Fin cfg1.N) (r : Fin 5000) (k : Fin 64) (p : Fin 50000) (hp : p.val = 5000 * t.val + r.val) :
    (iblk1 V c 1 t : Vec Ideal S5000x64 .f32) (ix2 r k) = (V c main_v28 : (⟨S50000x64, .f32⟩ : BufTy).Contents (Elt Ideal)) (ix2 p k) := by
  obtain ⟨-, ⟨e0, e1⟩, -, -, -, -, -, -, -, -⟩ := idx_facts1 t
  unfold iblk1
  rw [View.read_apply]
  show V c main_v28 _ = V c main_v28 _
  congr 1
  funext a; apply Fin.ext
  match a with
  | ⟨0, _⟩ => show win1_1.index t (0 : Fin 2) * 5000 + 1 * r.val = p.val; rw [e0, hp]; omega
  | ⟨1, _⟩ => show win1_1.index t (1 : Fin 2) * 64 + 1 * k.val = k.val; rw [e1]; omega

/-- Window 2's one block is its whole array. -/
theorem blk1_2 (V : (c : Dev nD) → (b : Ref sig .tc) → Buf (Elt Ideal) ((c : Thread nD τ).loc b)) (c : Dev nD) (t : Fin cfg1.N) (k q : Fin 64) :
    (iblk1 V c 2 t : Vec Ideal S64x64 .f32) (ix2 k q) = (V c main_arg6 : (⟨S64x64, .f32⟩ : BufTy).Contents (Elt Ideal)) (ix2 k q) := by
  obtain ⟨-, -, ⟨e0, e1⟩, -, -, -, -, -, -, -⟩ := idx_facts1 t
  unfold iblk1
  rw [View.read_apply]
  show V c main_arg6 _ = V c main_arg6 _
  congr 1
  funext a; apply Fin.ext
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- Window 3's one block is its whole array. -/
theorem blk1_3 (V : (c : Dev nD) → (b : Ref sig .tc) → Buf (Elt Ideal) ((c : Thread nD τ).loc b)) (c : Dev nD) (t : Fin cfg1.N) (k q : Fin 64) :
    (iblk1 V c 3 t : Vec Ideal S64x64 .f32) (ix2 k q) = (V c main_arg7 : (⟨S64x64, .f32⟩ : BufTy).Contents (Elt Ideal)) (ix2 k q) := by
  obtain ⟨-, -, -, ⟨e0, e1⟩, -, -, -, -, -, -⟩ := idx_facts1 t
  unfold iblk1
  rw [View.read_apply]
  show V c main_arg7 _ = V c main_arg7 _
  congr 1
  funext a; apply Fin.ext
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- Window 4's one block is its whole row vector. -/
theorem blk1_4 (V : (c : Dev nD) → (b : Ref sig .tc) → Buf (Elt Ideal) ((c : Thread nD τ).loc b)) (c : Dev nD) (t : Fin cfg1.N) (q : Fin 64) :
    (iblk1 V c 4 t : Vec Ideal S1x64 .f32) (ix2 0 q) = (V c main_v48 : (⟨S1x64, .f32⟩ : BufTy).Contents (Elt Ideal)) (ix2 0 q) := by
  obtain ⟨-, -, -, -, ⟨e0, e1⟩, -, -, -, -, -⟩ := idx_facts1 t
  unfold iblk1
  rw [View.read_apply]
  show V c main_v48 _ = V c main_v48 _
  congr 1
  funext a; apply Fin.ext
  match a with
  | ⟨0, _⟩ => show win1_4.index t (0 : Fin 2) * 1 + 1 * 0 = 0; rw [e0]
  | ⟨1, _⟩ => show win1_4.index t (1 : Fin 2) * 64 + 1 * q.val = q.val; rw [e1]; omega

/-- Window 5's one block is its whole row vector. -/
theorem blk1_5 (V : (c : Dev nD) → (b : Ref sig .tc) → Buf (Elt Ideal) ((c : Thread nD τ).loc b)) (c : Dev nD) (t : Fin cfg1.N) (q : Fin 64) :
    (iblk1 V c 5 t : Vec Ideal S1x64 .f32) (ix2 0 q) = (V c main_v49 : (⟨S1x64, .f32⟩ : BufTy).Contents (Elt Ideal)) (ix2 0 q) := by
  obtain ⟨-, -, -, -, -, ⟨e0, e1⟩, -, -, -, -⟩ := idx_facts1 t
  unfold iblk1
  rw [View.read_apply]
  show V c main_v49 _ = V c main_v49 _
  congr 1
  funext a; apply Fin.ext
  match a with
  | ⟨0, _⟩ => show win1_5.index t (0 : Fin 2) * 1 + 1 * 0 = 0; rw [e0]
  | ⟨1, _⟩ => show win1_5.index t (1 : Fin 2) * 64 + 1 * q.val = q.val; rw [e1]; omega

/-- Window 6's one block is its whole row vector. -/
theorem blk1_6 (V : (c : Dev nD) → (b : Ref sig .tc) → Buf (Elt Ideal) ((c : Thread nD τ).loc b)) (c : Dev nD) (t : Fin cfg1.N) (q : Fin 64) :
    (iblk1 V c 6 t : Vec Ideal S1x64 .f32) (ix2 0 q) = (V c main_v50 : (⟨S1x64, .f32⟩ : BufTy).Contents (Elt Ideal)) (ix2 0 q) := by
  obtain ⟨-, -, -, -, -, -, ⟨e0, e1⟩, -, -, -⟩ := idx_facts1 t
  unfold iblk1
  rw [View.read_apply]
  show V c main_v50 _ = V c main_v50 _
  congr 1
  funext a; apply Fin.ext
  match a with
  | ⟨0, _⟩ => show win1_6.index t (0 : Fin 2) * 1 + 1 * 0 = 0; rw [e0]
  | ⟨1, _⟩ => show win1_6.index t (1 : Fin 2) * 64 + 1 * q.val = q.val; rw [e1]; omega

/-- Window 7's one block is its whole row vector. -/
theorem blk1_7 (V : (c : Dev nD) → (b : Ref sig .tc) → Buf (Elt Ideal) ((c : Thread nD τ).loc b)) (c : Dev nD) (t : Fin cfg1.N) (q : Fin 64) :
    (iblk1 V c 7 t : Vec Ideal S1x64 .f32) (ix2 0 q) = (V c main_v51 : (⟨S1x64, .f32⟩ : BufTy).Contents (Elt Ideal)) (ix2 0 q) := by
  obtain ⟨-, -, -, -, -, -, -, ⟨e0, e1⟩, -, -⟩ := idx_facts1 t
  unfold iblk1
  rw [View.read_apply]
  show V c main_v51 _ = V c main_v51 _
  congr 1
  funext a; apply Fin.ext
  match a with
  | ⟨0, _⟩ => show win1_7.index t (0 : Fin 2) * 1 + 1 * 0 = 0; rw [e0]
  | ⟨1, _⟩ => show win1_7.index t (1 : Fin 2) * 64 + 1 * q.val = q.val; rw [e1]; omega

/-- Window 8's one block is its whole row vector. -/
theorem blk1_8 (V : (c : Dev nD) → (b : Ref sig .tc) → Buf (Elt Ideal) ((c : Thread nD τ).loc b)) (c : Dev nD) (t : Fin cfg1.N) (q : Fin 64) :
    (iblk1 V c 8 t : Vec Ideal S1x64 .f32) (ix2 0 q) = (V c main_v52 : (⟨S1x64, .f32⟩ : BufTy).Contents (Elt Ideal)) (ix2 0 q) := by
  obtain ⟨-, -, -, -, -, -, -, -, ⟨e0, e1⟩, -⟩ := idx_facts1 t
  unfold iblk1
  rw [View.read_apply]
  show V c main_v52 _ = V c main_v52 _
  congr 1
  funext a; apply Fin.ext
  match a with
  | ⟨0, _⟩ => show win1_8.index t (0 : Fin 2) * 1 + 1 * 0 = 0; rw [e0]
  | ⟨1, _⟩ => show win1_8.index t (1 : Fin 2) * 64 + 1 * q.val = q.val; rw [e1]; omega

/-- Entry (p, q) of the array region 1 leaves: the layer's formula on the arrays the region is entered with. -/
def G1e (V : (c : Dev nD) → (b : Ref sig .tc) → Buf (Elt Ideal) ((c : Thread nD τ).loc b)) (c : Dev nD) (p : Fin 50000) (q : Fin 64) : EReal :=
  hiddenEntry (fun p k => (V c main_v47 : (⟨S50000x64, .f32⟩ : BufTy).Contents (Elt Ideal)) (ix2 p k)) (fun p k => (V c main_v28 : (⟨S50000x64, .f32⟩ : BufTy).Contents (Elt Ideal)) (ix2 p k))
    (fun k q => (V c main_arg6 : (⟨S64x64, .f32⟩ : BufTy).Contents (Elt Ideal)) (ix2 k q)) (fun k q => (V c main_arg7 : (⟨S64x64, .f32⟩ : BufTy).Contents (Elt Ideal)) (ix2 k q))
    (fun q => (V c main_v48 : (⟨S1x64, .f32⟩ : BufTy).Contents (Elt Ideal)) (ix2 0 q)) (fun q => (V c main_v49 : (⟨S1x64, .f32⟩ : BufTy).Contents (Elt Ideal)) (ix2 0 q)) (fun q => (V c main_v50 : (⟨S1x64, .f32⟩ : BufTy).Contents (Elt Ideal)) (ix2 0 q))
    (fun q => (V c main_v51 : (⟨S1x64, .f32⟩ : BufTy).Contents (Elt Ideal)) (ix2 0 q)) (fun q => (V c main_v52 : (⟨S1x64, .f32⟩ : BufTy).Contents (Elt Ideal)) (ix2 0 q)) p q

/-- The whole array, index by index. -/
def G1 (V : (c : Dev nD) → (b : Ref sig .tc) → Buf (Elt Ideal) ((c : Thread nD τ).loc b)) (c : Dev nD) : (⟨S50000x64, .f32⟩ : BufTy).Contents (Elt Ideal) :=
  fun i => G1e V c ⟨(i 0).val, idx2_lt0 i⟩ ⟨(i 1).val, idx2_lt1 i⟩

theorem G1_ix2 (V : (c : Dev nD) → (b : Ref sig .tc) → Buf (Elt Ideal) ((c : Thread nD τ).loc b)) (c : Dev nD) (p : Fin 50000) (q : Fin 64) : G1 V c (ix2 p q) = G1e V c p q := rfl

/-- WHAT POINT `t` WRITES BACK is block `t` of that array: the body's arithmetic on the point's blocks, whose rows are rows
    `5000·t …` of the row-indexed arrays and whose other operands are the whole weights and vectors. -/
theorem flushed1_eq (V : (c : Dev nD) → (b : Ref sig .tc) → Buf (Elt Ideal) ((c : Thread nD τ).loc b)) (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1
  refine funext fun (j : S5000x64.Idx) => ?_
  obtain ⟨r, q, rfl⟩ : ∃ (r : Fin 5000) (q : Fin 64), j = ix2 r q := ⟨j 0, j 1, eq_ix2 j⟩
  obtain ⟨-, -, -, -, -, -, -, -, -, ⟨e0, e1⟩⟩ := idx_facts1 t
  have ht : t.val < 10 := Nat.lt_of_lt_of_eq t.isLt N_1
  have hemb : ((cfg1.win 9).blk t).view.emb (ix2 r q) = (ix2 (⟨5000 * t.val + r.val, by have := r.isLt; omega⟩ : Fin 50000) q : S50000x64.Idx) := by
    funext a; apply Fin.ext
    match a with
    | ⟨0, _⟩ => show win1_9.index t (0 : Fin 2) * 5000 + 1 * r.val = 5000 * t.val + r.val; rw [e0]; omega
    | ⟨1, _⟩ => show win1_9.index t (1 : Fin 2) * 64 + 1 * q.val = q.val; rw [e1]; omega
  show k1_pay1 (k1_pay2 (iblk1 V c 0 t) (iblk1 V c 1 t) (iblk1 V c 2 t) (iblk1 V c 3 t) (iblk1 V c 4 t) (iblk1 V c 7 t) (iblk1 V c 8 t) (iblk1 V c 5 t) (iblk1 V c 6 t)) k1_pay3 (ix2 r q)
    = G1 V c (((cfg1.win 9).blk t).view.emb (ix2 r q))
  rw [hemb, G1_ix2]
  refine (pay1_entry (iblk1 V c 0 t) (iblk1 V c 1 t) (iblk1 V c 2 t) (iblk1 V c 3 t) (iblk1 V c 4 t) (iblk1 V c 7 t) (iblk1 V c 8 t) (iblk1 V c 5 t) (iblk1 V c 6 t) r q).trans ?_
  unfold G1e
  exact hiddenEntry_congr1 _ _ _ _ _ _ _ _ _ _ _ _ _ _ _ _ _ _ r _ q
    (fun k => blk1_0 V c t r k _ rfl) (fun k => blk1_1 V c t r k _ rfl) (fun k => blk1_2 V c t k q) (fun k => blk1_3 V c t k q)
    (blk1_4 V c t q) (blk1_5 V c t q) (blk1_6 V c t q) (blk1_7 V c t q) (blk1_8 V c t q)

/-- Every row of the array is in some point's block: row `p` in point `p / 5000`'s. -/
theorem cover1 (V : (c : Dev nD) → (b : Ref sig .tc) → Buf (Elt Ideal) ((c : Thread nD τ).loc b)) (c : Dev nD) (i : S50000x64.Idx) :
    ∃ t : Fin cfg1.N, (cfg1.win 9).flush t = true ∧ i ∈ ((cfg1.win 9).blk t).view.set := by
  have hi0 : (i 0).val < 50000 := idx2_lt0 i
  have hi1 : (i 1).val < 64 := idx2_lt1 i
  have hN : cfg1.N = 10 := N_1
  have htl : (i 0).val / 5000 < cfg1.N := by rw [hN]; omega
  obtain ⟨-, -, -, -, -, -, -, -, -, ⟨e0, e1⟩⟩ := idx_facts1 ⟨(i 0).val / 5000, htl⟩
  refine ⟨⟨(i 0).val / 5000, htl⟩, flush1_9 _, ?_⟩
  show i ∈ ((View.whole main_v53).slice (win1_9.rect ⟨(i 0).val / 5000, htl⟩)).set
  rw [View.set_slice_whole, Rect.mem_set_unit]
  intro a
  match a with
  | ⟨0, _⟩ =>
    show win1_9.index ⟨(i 0).val / 5000, htl⟩ (0 : Fin 2) * 5000 ≤ (i 0).val ∧ (i 0).val < win1_9.index ⟨(i 0).val / 5000, htl⟩ (0 : Fin 2) * 5000 + 5000
    rw [e0]; show (i 0).val / 5000 * 5000 ≤ (i 0).val ∧ (i 0).val < (i 0).val / 5000 * 5000 + 5000; omega
  | ⟨1, _⟩ =>
    show win1_9.index ⟨(i 0).val / 5000, htl⟩ (1 : Fin 2) * 64 ≤ (i 1).val ∧ (i 1).val < win1_9.index ⟨(i 0).val / 5000, htl⟩ (1 : Fin 2) * 64 + 64
    rw [e1]; omega

/-- So after the ten points the output array holds the layer's formula on the entry arrays, everywhere. -/
theorem final1 (V : (c : Dev nD) → (b : Ref sig .tc) → Buf (Elt Ideal) ((c : Thread nD τ).loc b)) (c : Dev nD) : (dat1 V c).arrAt 9 cfg1.N = G1 V c :=
  (dat1 V c).arrAt_eq_of_cover 9 (G1 V c) (fun t _ => flushed1_eq V c t) (cover1 V c)

/-! ## The layer -/

theorem layer1 (V : (c : Dev nD) → (b : Ref sig .tc) → Buf (Elt Ideal) ((c : Thread nD τ).loc b)) (c : Dev nD)
    (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 x12 x13 x14 x15 x16 x17 x18 x19 : (⟨S64, .f32⟩ : BufTy).Contents (Elt Ideal))
    (hmean : (V c main_v47 : (⟨S50000x64, .f32⟩ : BufTy).Contents (Elt Ideal)) = Cert.ReferenceIdeal.Read.val_main_v63 (F := Ideal) x0 x1 x3 x4 x5 x12 x13 x14 x15)
    (hx : (V c main_v28 : (⟨S50000x64, .f32⟩ : BufTy).Contents (Elt Ideal)) = Cert.ReferenceIdeal.Read.val_main_v44 (F := Ideal) x0 x1 x3 x4 x5 x12 x13 x14 x15)
    (hwl : (V c main_arg6 : (⟨S64x64, .f32⟩ : BufTy).Contents (Elt Ideal)) = x6) (hwr : (V c main_arg7 : (⟨S64x64, .f32⟩ : BufTy).Contents (Elt Ideal)) = x7)
    (hb : (∀ j : Fin 64, (V c main_v48 : (⟨S1x64, .f32⟩ : BufTy).Contents (Elt Ideal)) (ValueIdx.ix2 0 j) = x8 (ValueIdx.ix1 j))) (hg : (∀ j : Fin 64, (V c main_v49 : (⟨S1x64, .f32⟩ : BufTy).Contents (Elt Ideal)) (ValueIdx.ix2 0 j) = x16 (ValueIdx.ix1 j))) (hbe : (∀ j : Fin 64, (V c main_v50 : (⟨S1x64, .f32⟩ : BufTy).Contents (Elt Ideal)) (ValueIdx.ix2 0 j) = x17 (ValueIdx.ix1 j)))
    (hmu : (∀ j : Fin 64, (V c main_v51 : (⟨S1x64, .f32⟩ : BufTy).Contents (Elt Ideal)) (ValueIdx.ix2 0 j) = x18 (ValueIdx.ix1 j))) (hvar : (∀ j : Fin 64, (V c main_v52 : (⟨S1x64, .f32⟩ : BufTy).Contents (Elt Ideal)) (ValueIdx.ix2 0 j) = x19 (ValueIdx.ix1 j))) :
    ((dat1 V c).arrAt 9 cfg1.N : (⟨S50000x64, .f32⟩ : BufTy).Contents (Elt Ideal)) = Cert.ReferenceIdeal.Read.val_main_v85 (F := Ideal) x0 x1 x3 x4 x5 x6 x7 x8 x12 x13 x14 x15 x16 x17 x18 x19 := by
  refine (final1 V c).trans (funext fun (i : S50000x64.Idx) => ?_)
  obtain ⟨p, q, rfl⟩ : ∃ (p : Fin 50000) (q : Fin 64), i = ix2 p q := ⟨i 0, i 1, eq_ix2 i⟩
  refine (G1_ix2 V c p q).trans ((hiddenEntry_congr1 _ _ _ _ _ _ _ _ _ _ _ _ _ _ _ _ _ _ p p q
    (fun k => congrFun hmean (ix2 p k)) (fun k => congrFun hx (ix2 p k)) (fun k => congrFun hwl (ix2 k q)) (fun k => congrFun hwr (ix2 k q))
    (hb q) (hg q) (hbe q) (hmu q) (hvar q)).trans (ref1_entry x0 x1 x3 x4 x5 x6 x7 x8 x12 x13 x14 x15 x16 x17 x18 x19 p q).symm)

end Cert.KernelIdeal.Val

end
-- ==== Proof.Val.L2.lean ====
/-
  The third layer at the ideal instance: entered with the reference's neighbour mean of the second hidden layer, that layer,
  the third layer's weights and bias, region 2 leaves the reference's node embeddings mean·W_l + h·W_r + b (no normalisation).

  Both sides are read against one entry-by-entry description of the embeddings: entry (p, q) is the inner product of row p
  of the neighbour mean with column q of W_l, plus that of row p of the hidden layer with column q of W_r, plus b at q. The
  reference's two contractions, sum and broadcast bias are that by reading each operation at an index. The region stores, at
  grid point t, the same arithmetic on rows 5000·t … 5000·t + 4999; the ten blocks of rows cover the array.
-/
import proofs.«419563_j70007966925389_1_alg».proof.Proof.KI.Defs
import proofs.«419563_j70007966925389_1_alg».proof.Proof.Val.RefGen
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand

section Pieces

open Idealize.ShloMosaic.ValueIdx
open scoped BigOperators

/-! ## The third layer's embeddings, entry by entry -/

/-- Entry (p, q) of mean·W_l + h·W_r + b: the two 64-term inner products of row p of the neighbour mean and of the
    hidden layer with column q of the two weight matrices, added, plus the bias at q. -/
def embAt (y h : FVec Ideal S50000x64 .f32) (wl wr : FVec Ideal S64x128 .f32) (b : Fin 128 → EReal) (p : Fin 50000) (q : Fin 128) : EReal :=
  (∑ k : Fin 64, y (ix2 p k) * wl (ix2 k q) + ∑ k : Fin 64, h (ix2 p k) * wr (ix2 k q)) + b q

/-- The whole 50000×128 array of them. -/
def emb (y h : FVec Ideal S50000x64 .f32) (wl wr : FVec Ideal S64x128 .f32) (b : Fin 128 → EReal) : FVec Ideal S50000x128 .f32 :=
  fun i => embAt y h wl wr b (i 0) (i 1)

/-! ## The reference computes them -/

theorem ref_is_emb (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 : (⟨S64x128, .f32⟩ : BufTy).Contents (Elt Ideal)) (x11 : (⟨S128, .f32⟩ : BufTy).Contents (Elt Ideal)) (x12 x13 x14 x15 x16 x17 x18 x19 : (⟨S64, .f32⟩ : BufTy).Contents (Elt Ideal)) :
    Cert.ReferenceIdeal.Read.val_main_v110 (F := Ideal) x0 x1 x3 x4 x5 x6 x7 x8 x9 x10 x11 x12 x13 x14 x15 x16 x17 x18 x19
      = emb (Cert.ReferenceIdeal.Read.val_main_v104 (F := Ideal) x0 x1 x3 x4 x5 x6 x7 x8 x12 x13 x14 x15 x16 x17 x18 x19) (Cert.ReferenceIdeal.Read.val_main_v85 (F := Ideal) x0 x1 x3 x4 x5 x6 x7 x8 x12 x13 x14 x15 x16 x17 x18 x19) x9 x10 (fun q => x11 (ix1 q)) := by
  funext i
  rw [Cert.ReferenceIdeal.Read.val_main_v110_apply, Cert.ReferenceIdeal.Read.val_main_v107_apply, Cert.ReferenceIdeal.Read.val_main_v105_apply, Cert.ReferenceIdeal.Read.val_main_v106_apply, Cert.ReferenceIdeal.Read.val_main_v109_apply, Cert.ReferenceIdeal.Read.val_main_v108_apply]
  generalize Cert.ReferenceIdeal.Read.val_main_v104 (F := Ideal) x0 x1 x3 x4 x5 x6 x7 x8 x12 x13 x14 x15 x16 x17 x18 x19 = y
  generalize Cert.ReferenceIdeal.Read.val_main_v85 (F := Ideal) x0 x1 x3 x4 x5 x6 x7 x8 x12 x13 x14 x15 x16 x17 x18 x19 = h
  have el5 : ∀ k : Fin 64, Cert.ReferenceIdeal.Read.lidx_main_v105 i k = ix2 (i 0) k := fun k => funext fun a => by
    match a with | ⟨0, _⟩ => rfl | ⟨1, _⟩ => rfl
  have er5 : ∀ k : Fin 64, Cert.ReferenceIdeal.Read.ridx_main_v105 i k = ix2 k (i 1) := fun k => funext fun a => by
    match a with | ⟨0, _⟩ => rfl | ⟨1, _⟩ => rfl
  have el6 : ∀ k : Fin 64, Cert.ReferenceIdeal.Read.lidx_main_v106 i k = ix2 (i 0) k := fun k => funext fun a => by
    match a with | ⟨0, _⟩ => rfl | ⟨1, _⟩ => rfl
  have er6 : ∀ k : Fin 64, Cert.ReferenceIdeal.Read.ridx_main_v106 i k = ix2 k (i 1) := fun k => funext fun a => by
    match a with | ⟨0, _⟩ => rfl | ⟨1, _⟩ => rfl
  have eb : Cert.ReferenceIdeal.Read.idx_main_v108 (Cert.ReferenceIdeal.Read.idx_main_v109 i) = ix1 (i 1) := funext fun a => by
    match a with | ⟨0, _⟩ => rfl
  simp only [el5, er5, el6, er6, eb]
  rfl

/-! ## The kernel's arithmetic on one block of rows

The body's product is a `tpu.matmul` into a zero accumulator contracting axis 1 of the left operand with axis 0 of the
right one: at (r, q) it is the sum over the one contraction coordinate k of left (r, k) times right (k, q). -/

theorem dotL_row (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem dotL_col (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem dotR_row (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem dotR_col (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- The product into the zero accumulator, read at (r, q). -/
theorem matmul_at (a : FVec Ideal S5000x64 .bf16) (w : FVec Ideal S64x128 .bf16) (r : Fin 5000) (q : Fin 128) :
    matmul dot_S5000x64_S64x128_S5000x128_1_0_0_1_n_n none a w (constant S5000x128 .f32 0x00000000#32) (ix2 r q)
      = ∑ k : Fin 64, a (ix2 r k) * w (ix2 k q) := by
  simp only [matmul]
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 r q) ((contrEquiv1 dot_S5000x64_S64x128_S5000x128_1_0_0_1_n_n 64 rfl rfl).symm k) = ix2 r k := funext fun a => Fin.ext (by
    match a with
    | ⟨0, _⟩ => exact dotL_row _ _
    | ⟨1, _⟩ => exact (dotL_col _ _).trans hk)
  have er : dot_S5000x64_S64x128_S5000x128_1_0_0_1_n_n.rhsIdx (ix2 r q) ((contrEquiv1 dot_S5000x64_S64x128_S5000x128_1_0_0_1_n_n 64 rfl rfl).symm k) = ix2 k q := funext fun a => Fin.ext (by
    match a with
    | ⟨0, _⟩ => exact (dotR_row _ _).trans hk
    | ⟨1, _⟩ => exact dotR_col _ _)
  rw [el, er]

/-- The bias row [1,128] broadcast down the 5000 rows, read at (r, q), is the row at q. -/
theorem bias_at (v : FVec Ideal S1x128 .f32) (r : Fin 5000) (q : Fin 128) :
    broadcastTo S5000x128 v broadcasts_S1x128_S5000x128 (ix2 r q) = v (ix2 0 q) :=
  broadcastTo_apply v broadcasts_S1x128_S5000x128 (ix2 r q) (ix2 0 q) (fun a => by
    match a with
    | ⟨0, _⟩ => rfl
    | ⟨1, _⟩ => rfl)

/-- The block the body stores, read at (r, q): the two inner products of row r of the two row blocks with column q of the
    two weight matrices, added, plus the bias row at q. The format changes are the identity on extended reals and the
    shape casts are to the same shape. -/
theorem pay_at (v0 v3 : Vec Ideal S5000x64 .f32) (v6 v8 : Vec Ideal S64x128 .f32) (v13 : Vec Ideal S1x128 .f32) (r : Fin 5000) (q : Fin 128) :
    (k2_pay1 (F := Ideal) v0 v3 v6 v8 v13 : FVec Ideal S5000x128 .f32) (ix2 r q)
      = (∑ k : Fin 64, v0 (ix2 r k) * v6 (ix2 k q) + ∑ k : Fin 64, v3 (ix2 r k) * v8 (ix2 k q)) + v13 (ix2 0 q) := by
  unfold k2_pay1
  rw [addf_apply, addf_apply, matmul_at, matmul_at, bias_at]
  simp only [shapeCast_self, truncf_apply]

/-! ## From the ten blocks to the array

Every window's block index is decided once over the grid: the row windows (neighbour mean, hidden layer, output) sit at
block row t, column 0 at point t; the weight and bias windows at block (0, 0) throughout. -/

theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of point t's block of rows is row 5000·t + r of the array. -/
def rowOf (t : Fin cfg2.N) (r : Fin 5000) : Fin 50000 :=
  ⟨5000 * t.val + r.val, by have ht : t.val < 10 := t.isLt; have hr := r.isLt; omega⟩

/-- The neighbour mean's block at point t is its rows 5000·t … 5000·t + 4999. -/
theorem mean_blk (V : (c : Dev nD) → (b : Ref sig .tc) → Buf (Elt Ideal) ((c : Thread nD τ).loc b)) (c : Dev nD) (t : Fin cfg2.N) (r : Fin 5000) (k : Fin 64) :
    (iblk2 V c 0 t : Vec Ideal S5000x64 .f32) (ix2 r k) = (V c main_v72 : FVec Ideal S50000x64 .f32) (ix2 (rowOf t r) k) := by
  obtain ⟨e00, e01, -⟩ := index_facts t
  unfold iblk2
  rw [View.read_apply]
  show (V c main_v72 : FVec Ideal S50000x64 .f32) _ = _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 64 + 1 * k.val = k.val; omega

/-- The hidden layer's block at point t likewise. -/
theorem hid_blk (V : (c : Dev nD) → (b : Ref sig .tc) → Buf (Elt Ideal) ((c : Thread nD τ).loc b)) (c : Dev nD) (t : Fin cfg2.N) (r : Fin 5000) (k : Fin 64) :
    (iblk2 V c 1 t : Vec Ideal S5000x64 .f32) (ix2 r k) = (V c main_v53 : FVec Ideal S50000x64 .f32) (ix2 (rowOf t r) k) := by
  obtain ⟨-, -, e10, e11, -⟩ := index_facts t
  unfold iblk2
  rw [View.read_apply]
  show (V c main_v53 : FVec Ideal S50000x64 .f32) _ = _
  refine congrArg _ (funext fun a => Fin.ext ?_)
  match a with
  | ⟨0, _⟩ => show win2_1.index t (0 : Fin 2) * 5000 + 1 * r.val = 5000 * t.val + r.val; omega
  | ⟨1, _⟩ => show win2_1.index t (1 : Fin 2) * 64 + 1 * k.val = k.val; omega

/-- The left weight matrix is one block: the whole array at every point. -/
theorem wl_blk (V : (c : Dev nD) → (b : Ref sig .tc) → Buf (Elt Ideal) ((c : Thread nD τ).loc b)) (c : Dev nD) (t : Fin cfg2.N) (k : Fin 64) (q : Fin 128) :
    (iblk2 V c 2 t : Vec Ideal S64x128 .f32) (ix2 k q) = (V c main_arg9 : FVec Ideal S64x128 .f32) (ix2 k q) := by
  obtain ⟨-, -, -, -, e20, e21, -⟩ := index_facts t
  unfold iblk2
  rw [View.read_apply]
  show (V c main_arg9 : FVec Ideal S64x128 .f32) _ = _
  refine congrArg _ (funext fun a => Fin.ext ?_)
  match a with
  | ⟨0, _⟩ => show win2_2.index t (0 : Fin 2) * 64 + 1 * k.val = k.val; omega
  | ⟨1, _⟩ => show win2_2.index t (1 : Fin 2) * 128 + 1 * q.val = q.val; omega

/-- So is the right one. -/
theorem wr_blk (V : (c : Dev nD) → (b : Ref sig .tc) → Buf (Elt Ideal) ((c : Thread nD τ).loc b)) (c : Dev nD) (t : Fin cfg2.N) (k : Fin 64) (q : Fin 128) :
    (iblk2 V c 3 t : Vec Ideal S64x128 .f32) (ix2 k q) = (V c main_arg10 : FVec Ideal S64x128 .f32) (ix2 k q) := by
  obtain ⟨-, -, -, -, -, -, e30, e31, -⟩ := index_facts t
  unfold iblk2
  rw [View.read_apply]
  show (V c main_arg10 : FVec Ideal S64x128 .f32) _ = _
  refine congrArg _ (funext fun a => Fin.ext ?_)
  match a with
  | ⟨0, _⟩ => show win2_3.index t (0 : Fin 2) * 64 + 1 * k.val = k.val; omega
  | ⟨1, _⟩ => show win2_3.index t (1 : Fin 2) * 128 + 1 * q.val = q.val; omega

/-- And the bias row. -/
theorem bias_blk (V : (c : Dev nD) → (b : Ref sig .tc) → Buf (Elt Ideal) ((c : Thread nD τ).loc b)) (c : Dev nD) (t : Fin cfg2.N) (q : Fin 128) :
    (iblk2 V c 4 t : Vec Ideal S1x128 .f32) (ix2 0 q) = (V c main_v73 : FVec Ideal S1x128 .f32) (ix2 0 q) := by
  obtain ⟨-, -, -, -, -, -, -, -, e40, e41, -⟩ := index_facts t
  unfold iblk2
  rw [View.read_apply]
  show (V c main_v73 : FVec Ideal S1x128 .f32) _ = _
  refine congrArg _ (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- Entry (r, q) of the output's block at point t sits at (5000·t + r, q) of the array. -/
theorem out_emb (t : Fin cfg2.N) (r : Fin 5000) (q : Fin 128) :
    (((cfg2.win 5).blk t).view.emb (ix2 r q) : S50000x128.Idx) = ix2 (rowOf t r) q := by
  obtain ⟨-, -, -, -, -, -, -, -, -, -, e50, e51⟩ := index_facts t
  refine funext fun a => Fin.ext ?_
  match a with
  | ⟨0, _⟩ => show win2_5.index t (0 : Fin 2) * 5000 + 1 * r.val = 5000 * t.val + r.val; omega
  | ⟨1, _⟩ => show win2_5.index t (1 : Fin 2) * 128 + 1 * q.val = q.val; omega

/-- WHAT POINT t WRITES BACK is block t of the embeddings of the arrays as the region finds them. -/
theorem flushed_is_emb (V : (c : Dev nD) → (b : Ref sig .tc) → Buf (Elt Ideal) ((c : Thread nD τ).loc b)) (c : Dev nD) (t : Fin cfg2.N) :
    (dat2 V c).flushed 5 t = ((cfg2.win 5).blk t).view.read (Elt Ideal) (emb (V c main_v72) (V c main_v53) (V c main_arg9) (V c main_arg10) (fun q => V c main_v73 (ix2 0 q))) := by
  show (cfg2.win 5).cut (grid2.coords t) ((dat2 V c).after 5 t) = _
  rw [after2_5]
  funext j
  obtain ⟨r, q, rfl⟩ : ∃ (r : Fin 5000) (q : Fin 128), j = ix2 r q := ⟨j 0, j 1, eq_ix2 j⟩
  rw [View.read_apply]
  show (out2 V c t : FVec Ideal S5000x128 .f32) (ix2 r q) = emb (V c main_v72) (V c main_v53) (V c main_arg9) (V c main_arg10) (fun q => V c main_v73 (ix2 0 q)) (((cfg2.win 5).blk t).view.emb (ix2 r q))
  rw [out_emb t r q]
  unfold out2
  refine (pay_at (iblk2 V c 0 t) (iblk2 V c 1 t) (iblk2 V c 2 t) (iblk2 V c 3 t) (iblk2 V c 4 t) r q).trans ?_
  show _ = embAt (V c main_v72) (V c main_v53) (V c main_arg9) (V c main_arg10) (fun q => V c main_v73 (ix2 0 q)) (rowOf t r) q
  unfold embAt
  rw [bias_blk V c t q]
  refine congrArg (· + _) (congrArg₂ (· + ·) (Finset.sum_congr rfl fun k _ => ?_) (Finset.sum_congr rfl fun k _ => ?_))
  · rw [mean_blk V c t r k, wl_blk V c t k q]
  · rw [hid_blk V c t r k, wr_blk V c t k q]

/-- An index of the array is in point t's block iff each coordinate is in the block's range on its axis. -/
theorem mem_out_blk (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v74).slice (win2_5.rect t)).set ↔ _
  rw [View.set_slice_whole, Rect.mem_set_unit]
  exact Iff.rfl

/-- Row p of the array is in the block of point p / 5000: the ten blocks of rows cover the array. -/
theorem out_cover (i : S50000x128.Idx) : ∃ t : Fin cfg2.N, (cfg2.win 5).flush t = true ∧ i ∈ ((cfg2.win 5).blk t).view.set := by
  have h0 : (i 0).val < 50000 := (i 0).isLt
  have h1 : (i 1).val < 128 := (i 1).isLt
  have hlt : (i 0).val / 5000 < cfg2.N := by show _ < 10; omega
  obtain ⟨-, -, -, -, -, -, -, -, -, -, e50, e51⟩ := index_facts ⟨(i 0).val / 5000, hlt⟩
  have e50' : win2_5.index ⟨(i 0).val / 5000, hlt⟩ (0 : Fin 2) = (i 0).val / 5000 := e50
  refine ⟨⟨(i 0).val / 5000, hlt⟩, flush2_5 _, ?_⟩
  rw [mem_out_blk]
  intro a
  match a with
  | ⟨0, _⟩ => show win2_5.index ⟨(i 0).val / 5000, hlt⟩ (0 : Fin 2) * 5000 ≤ (i 0).val ∧ (i 0).val < win2_5.index ⟨(i 0).val / 5000, hlt⟩ (0 : Fin 2) * 5000 + 5000; omega
  | ⟨1, _⟩ => show win2_5.index ⟨(i 0).val / 5000, hlt⟩ (1 : Fin 2) * 128 ≤ (i 1).val ∧ (i 1).val < win2_5.index ⟨(i 0).val / 5000, hlt⟩ (1 : Fin 2) * 128 + 128; omega

/-- THE ARRAY after the ten points: the embeddings of the arrays the region was entered with. -/
theorem arr_is_emb (V : (c : Dev nD) → (b : Ref sig .tc) → Buf (Elt Ideal) ((c : Thread nD τ).loc b)) (c : Dev nD) :
    (dat2 V c).arrAt 5 cfg2.N = emb (V c main_v72) (V c main_v53) (V c main_arg9) (V c main_arg10) (fun q => V c main_v73 (ix2 0 q)) :=
  (dat2 V c).arrAt_eq_of_cover 5 (emb (V c main_v72) (V c main_v53) (V c main_arg9) (V c main_arg10) (fun q => V c main_v73 (ix2 0 q))) (fun t _ => flushed_is_emb V c t) out_cover

end Pieces

/-! ## The layer -/

theorem layer2 (V : (c : Dev nD) → (b : Ref sig .tc) → Buf (Elt Ideal) ((c : Thread nD τ).loc b)) (c : Dev nD)
    (x0 : (⟨S50000x128, .f32⟩ : BufTy).Contents (Elt Ideal)) (x1 : (⟨S2x625000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 : (⟨S64x128, .f32⟩ : BufTy).Contents (Elt Ideal)) (x11 : (⟨S128, .f32⟩ : BufTy).Contents (Elt Ideal)) (x12 x13 x14 x15 x16 x17 x18 x19 : (⟨S64, .f32⟩ : BufTy).Contents (Elt Ideal))
    (hmean : (V c main_v72 : (⟨S50000x64, .f32⟩ : BufTy).Contents (Elt Ideal)) = Cert.ReferenceIdeal.Read.val_main_v104 (F := Ideal) x0 x1 x3 x4 x5 x6 x7 x8 x12 x13 x14 x15 x16 x17 x18 x19)
    (hx : (V c main_v53 : (⟨S50000x64, .f32⟩ : BufTy).Contents (Elt Ideal)) = Cert.ReferenceIdeal.Read.val_main_v85 (F := Ideal) x0 x1 x3 x4 x5 x6 x7 x8 x12 x13 x14 x15 x16 x17 x18 x19)
    (hwl : (V c main_arg9 : (⟨S64x128, .f32⟩ : BufTy).Contents (Elt Ideal)) = x9) (hwr : (V c main_arg10 : (⟨S64x128, .f32⟩ : BufTy).Contents (Elt Ideal)) = x10)
    (hb : ∀ j : Fin 128, (V c main_v73 : (⟨S1x128, .f32⟩ : BufTy).Contents (Elt Ideal)) (ValueIdx.ix2 0 j) = x11 (ValueIdx.ix1 j)) :
    ((dat2 V c).arrAt 5 cfg2.N : (⟨S50000x128, .f32⟩ : BufTy).Contents (Elt Ideal)) = Cert.ReferenceIdeal.Read.val_main_v110 (F := Ideal) x0 x1 x3 x4 x5 x6 x7 x8 x9 x10 x11 x12 x13 x14 x15 x16 x17 x18 x19 := by
  rw [ref_is_emb, ← hmean, ← hx, ← hwl, ← hwr,
    show (fun q : Fin 128 => x11 (ValueIdx.ix1 q)) = fun q => (V c main_v73 : (⟨S1x128, .f32⟩ : BufTy).Contents (Elt Ideal)) (ValueIdx.ix2 0 q) from funext fun q => (hb q).symm]
  exact arr_is_emb V c

end Cert.KernelIdeal.Val

end
-- ==== Proof.Val.PoolSpec.lean ====
/-
  The mean over a graph's nodes as one formula on the extended reals: for graph g and feature o, the sum over all 50000
  nodes of the node's entry o where the node's id is g (as a 32-bit word) and of 0 elsewhere, divided by the larger of the
  number of such nodes and 1.
-/
import Idealize.ShloMosaic.PureOps.Ideal
import Idealize.ShloMosaic.Lib.ValueIdx

noncomputable section

namespace Cert.KernelIdeal.Val

open Idealize.ShloMosaic

/-- The pooled mean of feature `o` over the nodes whose graph id is `g`. -/
def poolSpec (h : Fin 50000 → Fin 128 → EReal) (ids : Fin 50000 → BitVec 32) (g : Fin 64) (o : Fin 128) : EReal :=
  Ideal.div (∑ n : Fin 50000, if ids n = BitVec.ofNat 32 g.val then h n o else 0)
    (max (∑ n : Fin 50000, if ids n = BitVec.ofNat 32 g.val then (1 : EReal) else 0) 1)

end Cert.KernelIdeal.Val

end
-- ==== Proof.Val.P3K.lean ====
/-
  The pooling region at the ideal instance: after its ten points the output array holds, for graph g and feature o, the
  pooled mean of the entered embeddings over the entered graph ids. The two scratch accumulators hold after point t the
  one-hot sums over the first 5000·(t+1) nodes; a one-hot entry is 1 where the node's id is g and 0 elsewhere, so a product
  with it is the node's entry or 0; the last point stores the quotient, and only that point's buffer is written back.
-/
import proofs.«419563_j70007966925389_1_alg».proof.Proof.KI.Defs
import proofs.«419563_j70007966925389_1_alg».proof.Proof.Val.RefGen
import proofs.«419563_j70007966925389_1_alg».proof.Proof.Val.PoolSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand
open Idealize.ShloMosaic.ValueIdx
open scoped BigOperators

namespace PoolK

/-! ## The body's arithmetic at one entry -/

/-- The one-bit comparison result widened to 32 bits and read as a signed integer is 1 or 0. -/
theorem bit_toInt (b : Bool) : (((BitVec.setWidth 32 (BitVec.ofBool b)).toInt : ℝ) : EReal) = if b = true then 1 else 0 := by
  cases b
  · have h : (BitVec.setWidth 32 (BitVec.ofBool false)).toInt = 0 := by decide
    rw [h]; simp
  · have h : (BitVec.setWidth 32 (BitVec.ofBool true)).toInt = 1 := by decide
    rw [h]; simp

/-- The one-hot entry: 1 where the row's graph id is the column's number as a word, else 0. -/
theorem onehot_apply (ids : Vec Ideal S5000x1 .i32) (r : Fin 5000) (g : Fin 64) :
    k3_pay3 (F := Ideal) ids (ix2 r g) = if ids (ix2 r 0) = BitVec.ofNat 32 g.val then (1 : EReal) else 0 := by
  unfold k3_pay3
  rw [truncf_apply, sitofp_apply, extui_apply]
  unfold cmpi
  dsimp only
  rw [shapeCast_self]
  rw [broadcastTo_apply ids broadcasts_S5000x1_S5000x64 (ix2 r g) (ix2 r 0) (fun a => by
    match a with
    | ⟨0, _⟩ => rfl
    | ⟨1, _⟩ => rfl)]
  rw [broadcastTo_apply _ broadcasts_S1x64_S5000x64 (ix2 r g) (ix2 (0 : Fin 1) g) (fun a => by
    match a with
    | ⟨0, _⟩ => rfl
    | ⟨1, _⟩ => rfl)]
  rw [iota_single_apply]
  show (((BitVec.setWidth 32 (BitVec.ofBool (ids (ix2 r 0) == BitVec.ofNat 32 g.val))).toInt : ℝ) : EReal) = _
  rw [bit_toInt]
  simp only [beq_iff_eq]

/-- The dot's left index on its contracted axis is the contraction position. -/
theorem dotL_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
/-- The dot's left index on its kept axis is the result's row. -/
theorem dotL_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
/-- The dot's right index on its contracted axis is the contraction position. -/
theorem dotR_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
/-- The dot's right index on its kept axis is the result's column. -/
theorem dotR_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- The product contracting the row axis of both blocks, into the zero accumulator: entry (g, o) is the sum over the 5000
    rows of the left block's entry (r, g) times the right block's entry (r, o). -/
theorem dot_apply {φ₁ φ₂ : FTy} (L : FVec Ideal S5000x64 φ₁) (R : FVec Ideal S5000x128 φ₂) (g : Fin 64) (o : Fin 128) :
    FloatOps.matmul dot_S5000x64_S5000x128_S64x128_0_0_1_1_n_n none L R (constant (F := Ideal) S64x128 .f32 0x00000000#32) (ix2 g o)
      = ∑ r : Fin 5000, L (ix2 r g) * R (ix2 r o) := by
  rw [Ideal.matmul_constant_zero_apply, ← Equiv.sum_comp (contrEquiv1 dot_S5000x64_S5000x128_S64x128_0_0_1_1_n_n 5000 rfl rfl).symm]
  refine Finset.sum_congr rfl fun r _ => ?_
  have hr := contrEquiv1_symm_val dot_S5000x64_S5000x128_S64x128_0_0_1_1_n_n 5000 rfl rfl r
  have el : dot_S5000x64_S5000x128_S64x128_0_0_1_1_n_n.lhsIdx (ix2 g o) ((contrEquiv1 dot_S5000x64_S5000x128_S64x128_0_0_1_1_n_n 5000 rfl rfl).symm r) = ix2 r g := funext fun a => Fin.ext (by
    match a with
    | ⟨0, _⟩ => exact (dotL_0 _ _).trans hr
    | ⟨1, _⟩ => exact dotL_1 _ _)
  have er : dot_S5000x64_S5000x128_S64x128_0_0_1_1_n_n.rhsIdx (ix2 g o) ((contrEquiv1 dot_S5000x64_S5000x128_S64x128_0_0_1_1_n_n 5000 rfl rfl).symm r) = ix2 r o := funext fun a => Fin.ext (by
    match a with
    | ⟨0, _⟩ => exact (dotR_0 _ _).trans hr
    | ⟨1, _⟩ => exact dotR_1 _ _)
  rw [el, er]

/-- The sum accumulator's update at one entry: what it held plus, over the point's 5000 rows, the row's feature where the
    row's graph id is g and 0 elsewhere. -/
theorem sum_step (ids : Vec Ideal S5000x1 .i32) (hb : Vec Ideal S5000x128 .f32) (prev : Vec Ideal S64x128 .f32) (g : Fin 64) (o : Fin 128) :
    k3_pay4 (F := Ideal) ids hb prev (ix2 g o)
      = prev (ix2 g o) + ∑ r : Fin 5000, if ids (ix2 r 0) = BitVec.ofNat 32 g.val then hb (ix2 r o) else 0 := by
  unfold k3_pay4
  rw [shapeCast_self, shapeCast_self, addf_apply]
  simp only [matmul]
  rw [dot_apply]
  refine congrArg (prev (ix2 g o) + ·) (Finset.sum_congr rfl fun r _ => ?_)
  rw [onehot_apply, truncf_apply]
  split
  · exact one_mul _
  · exact zero_mul _

/-- The bf16 word of one is the extended real 1. -/
theorem one_bf16 : Ideal.ofBits .bf16 0x3F80#16 = 1 := by
  simp [Ideal.ofBits, Ideal.ieee, -EReal.coe_mul]; norm_num

/-- The f32 word of one is the extended real 1. -/
theorem one_f32 : Ideal.ofBits .f32 0x3F800000#32 = 1 := by
  simp [Ideal.ofBits, Ideal.ieee, -EReal.coe_mul]; norm_num

/-- The count accumulator's update at one entry: what it held plus the number of the point's rows whose graph id is g. -/
theorem count_step (ids : Vec Ideal S5000x1 .i32) (prev : Vec Ideal S64x128 .f32) (g : Fin 64) (o : Fin 128) :
    k3_pay5 (F := Ideal) ids prev (ix2 g o)
      = prev (ix2 g o) + ∑ r : Fin 5000, if ids (ix2 r 0) = BitVec.ofNat 32 g.val then (1 : EReal) else 0 := by
  unfold k3_pay5
  rw [shapeCast_self, addf_apply]
  simp only [matmul]
  rw [dot_apply]
  refine congrArg (prev (ix2 g o) + ·) (Finset.sum_congr rfl fun r _ => ?_)
  rw [onehot_apply, broadcast_apply]
  show _ * Ideal.ofBits .bf16 0x3F80#16 = _
  rw [one_bf16, mul_one]

/-- The cleared accumulators hold 0. -/
theorem cleared1 (j : S64x128.Idx) : k3_pay1 (F := Ideal) j = 0 := by
  unfold k3_pay1
  rw [shapeCast_self, broadcast_apply]
  exact Ideal.ofBits_zero_f32
theorem cleared2 (j : S64x128.Idx) : k3_pay2 (F := Ideal) j = 0 := by
  unfold k3_pay2
  rw [shapeCast_self, broadcast_apply]
  exact Ideal.ofBits_zero_f32

/-- The stored quotient at one entry: the sum over the larger of the count and 1. -/
theorem quot_apply (s n : Vec Ideal S64x128 .f32) (j : S64x128.Idx) :
    k3_pay6 (F := Ideal) s n j = Ideal.div (s j) (max (n j) 1) := by
  unfold k3_pay6
  rw [divf_apply, maximumf_apply, broadcast_apply]
  show Ideal.div (s j) (max (n j) (Ideal.ofBits .f32 0x3F800000#32)) = _
  rw [one_f32]

/-! ## The point's blocks are rows of the entered arrays -/

/-- The grid has ten points. -/
theorem lt10 (t : Fin cfg3.N) : t.val < 10 := by
  have h : t.val < grid3.N := t.isLt
  rw [N_3] at h
  exact h

/-- Row r of point t's block is row 5000·t + r of the array. -/
def row (t : ℕ) (ht : t < 10) (r : Fin 5000) : Fin 50000 := ⟨5000 * t + r.val, by have := r.isLt; omega⟩

/-- The windows' block indices, decided over the grid: the two inputs' block at point t is block t of rows; the output's
    is the whole array at every point. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0 :=
  (by decide +kernel : ∀ t : Fin grid3.N, _)

variable (V : (c : Dev nD) → (b : Ref sig .tc) → Buf (Elt Ideal) ((c : Thread nD τ).loc b)) (c : Dev nD)

/-- The feature block of point t at (r, o) is the entered embeddings at (5000·t + r, o). -/
theorem feat_blk (t : Fin cfg3.N) (r : Fin 5000) (o : Fin 128) :
    iblk3 V c 0 t (ix2 r o) = (V c main_v74 : (⟨S50000x128, .f32⟩ : BufTy).Contents (Elt Ideal)) (ix2 (row t.val (lt10 t) r) o) := by
  obtain ⟨e0, e1, e2, e3, e4, e5⟩ := idx_facts3 t
  show (V c main_v74 : (⟨S50000x128, .f32⟩ : BufTy).Contents (Elt Ideal)) (((cfg3.win 0).blk t).view.emb (ix2 r o)) = _
  refine congrArg _ (funext fun a => Fin.ext ?_)
  match a with
  | ⟨0, _⟩ => show win3_0.index t (0 : Fin 2) * 5000 + 1 * r.val = 5000 * t.val + r.val; rw [e0]; omega
  | ⟨1, _⟩ => show win3_0.index t (1 : Fin 2) * 128 + 1 * o.val = o.val; rw [e1]; omega

/-- The id block of point t at row r is the entered ids at row 5000·t + r. -/
theorem ids_blk (t : Fin cfg3.N) (r : Fin 5000) :
    iblk3 V c 1 t (ix2 r 0) = (V c main_v75 : (⟨S50000x1, .i32⟩ : BufTy).Contents (Elt Ideal)) (ix2 (row t.val (lt10 t) r) 0) := by
  obtain ⟨e0, e1, e2, e3, e4, e5⟩ := idx_facts3 t
  show (V c main_v75 : (⟨S50000x1, .i32⟩ : BufTy).Contents (Elt Ideal)) (((cfg3.win 1).blk t).view.emb (ix2 r 0)) = _
  refine congrArg _ (funext fun a => Fin.ext ?_)
  match a with
  | ⟨0, _⟩ => show win3_1.index t (0 : Fin 2) * 5000 + 1 * r.val = 5000 * t.val + r.val; rw [e2]; omega
  | ⟨1, _⟩ => show win3_1.index t (1 : Fin 2) * 1 + 1 * 0 = 0; rw [e3]

/-! ## The accumulators after each point -/

/-- Node e's term of graph g's feature sum: its entry o where its id is g, else 0. -/
def termS (g : Fin 64) (o : Fin 128) (e : Fin 50000) : EReal :=
  if (V c main_v75 : (⟨S50000x1, .i32⟩ : BufTy).Contents (Elt Ideal)) (ix2 e 0) = BitVec.ofNat 32 g.val
  then (V c main_v74 : (⟨S50000x128, .f32⟩ : BufTy).Contents (Elt Ideal)) (ix2 e o) else 0

/-- Node e's term of graph g's node count: 1 where its id is g, else 0. -/
def termN (g : Fin 64) (e : Fin 50000) : EReal :=
  if (V c main_v75 : (⟨S50000x1, .i32⟩ : BufTy).Contents (Elt Ideal)) (ix2 e 0) = BitVec.ofNat 32 g.val then 1 else 0

/-- What point t adds to the sum accumulator's entry (g, o): the terms of its 5000 nodes. -/
theorem point_sum (t : Fin cfg3.N) (prev : Vec Ideal S64x128 .f32) (g : Fin 64) (o : Fin 128) :
    k3_pay4 (F := Ideal) (iblk3 V c 1 t) (iblk3 V c 0 t) prev (ix2 g o)
      = prev (ix2 g o) + ∑ r : Fin 5000, termS V c g o (row t.val (lt10 t) r) := by
  refine (sum_step _ _ _ g o).trans (congrArg (prev (ix2 g o) + ·) (Finset.sum_congr rfl fun r _ => ?_))
  unfold termS
  rw [← ids_blk V c t r, ← feat_blk V c t r o]

/-- What point t adds to the count accumulator's entry (g, o). -/
theorem point_count (t : Fin cfg3.N) (prev : Vec Ideal S64x128 .f32) (g : Fin 64) (o : Fin 128) :
    k3_pay5 (F := Ideal) (iblk3 V c 1 t) prev (ix2 g o)
      = prev (ix2 g o) + ∑ r : Fin 5000, termN V c g (row t.val (lt10 t) r) := by
  refine (count_step _ _ g o).trans (congrArg (prev (ix2 g o) + ·) (Finset.sum_congr rfl fun r _ => ?_))
  unfold termN
  rw [← ids_blk V c t r]

/-- The terms of point t's nodes, summed (0 past the grid). -/
def blkS (g : Fin 64) (o : Fin 128) (t : ℕ) : EReal := if ht : t < 10 then ∑ r : Fin 5000, termS V c g o (row t ht r) else 0
def blkN (g : Fin 64) (t : ℕ) : EReal := if ht : t < 10 then ∑ r : Fin 5000, termN V c g (row t ht r) else 0

/-- After point n the accumulators' entry (g, o) holds the terms of the points up to n. -/
theorem acc_apply (g : Fin 64) (o : Fin 128) : ∀ (n : ℕ) (hn : n < cfg3.N),
    (acc3 V c n hn).1 (ix2 g o) = ∑ t ∈ Finset.range (n + 1), blkS V c g o t
    ∧ (acc3 V c n hn).2 (ix2 g o) = ∑ t ∈ Finset.range (n + 1), blkN V c g t
  | 0, hn => by
    rw [acc3_zero, Finset.sum_range_one, Finset.sum_range_one]
    constructor
    · show k3_pay4 (F := Ideal) (iblk3 V c 1 ⟨0, hn⟩) (iblk3 V c 0 ⟨0, hn⟩) (k3_pay1 (F := Ideal)) (ix2 g o) = _
      rw [point_sum V c ⟨0, hn⟩, cleared1, zero_add]
      unfold blkS
      rw [dif_pos (lt10 ⟨0, hn⟩)]
    · show k3_pay5 (F := Ideal) (iblk3 V c 1 ⟨0, hn⟩) (k3_pay2 (F := Ideal)) (ix2 g o) = _
      rw [point_count V c ⟨0, hn⟩, cleared2, zero_add]
      unfold blkN
      rw [dif_pos (lt10 ⟨0, hn⟩)]
  | n + 1, hn => by
    obtain ⟨ih1, ih2⟩ := acc_apply g o n (Nat.lt_of_succ_lt hn)
    rw [acc3_succ, Finset.sum_range_succ _ (n + 1), Finset.sum_range_succ _ (n + 1)]
    constructor
    · show k3_pay4 (F := Ideal) (iblk3 V c 1 ⟨n + 1, hn⟩) (iblk3 V c 0 ⟨n + 1, hn⟩) (acc3 V c n (Nat.lt_of_succ_lt hn)).1 (ix2 g o) = _
      rw [point_sum V c ⟨n + 1, hn⟩, ih1]
      unfold blkS
      rw [dif_pos (lt10 ⟨n + 1, hn⟩)]
    · show k3_pay5 (F := Ideal) (iblk3 V c 1 ⟨n + 1, hn⟩) (acc3 V c n (Nat.lt_of_succ_lt hn)).2 (ix2 g o) = _
      rw [point_count V c ⟨n + 1, hn⟩, ih2]
      unfold blkN
      rw [dif_pos (lt10 ⟨n + 1, hn⟩)]

/-- The ten points' blocks of 5000 rows are the 50000 rows: the block sums add up to the sum over all nodes. -/
theorem sum_all (F : Fin 50000 → EReal) :
    ∑ t ∈ Finset.range 10, (if ht : t < 10 then ∑ r : Fin 5000, F (row t ht r) else 0) = ∑ e, F e := by
  rw [Finset.sum_range fun t => (if ht : t < 10 then ∑ r : Fin 5000, F (row t ht r) else 0)]
  rw [← Equiv.sum_comp (finProdFinEquiv : Fin 10 × Fin 5000 ≃ Fin 50000) F, Fintype.sum_prod_type]
  refine Finset.sum_congr rfl fun t _ => ?_
  rw [dif_pos t.isLt]
  refine Finset.sum_congr rfl fun r _ => congrArg F (Fin.ext ?_)
  show 5000 * t.val + r.val = r.val + 5000 * t.val
  omega

/-! ## The output array after the run -/

/-- The last point is point 9. -/
theorem h9 : 9 < cfg3.N := by
  show 9 < grid3.N
  rw [N_3]
  decide

/-- Only the last point writes the output back. -/
theorem flush_last (t : Fin cfg3.N) (hf : (cfg3.win 2).flush t = true) : t = ⟨9, h9⟩ := by
  have h := (flush3_2 t).mp hf
  have h' := lt10 t
  exact Fin.ext (by show t.val = 9; omega)

/-- The output's block is the whole array at every point. -/
theorem mem_out (t : Fin cfg3.N) (i : S64x128.Idx) : i ∈ ((cfg3.win 2).blk t).view.set := by
  obtain ⟨e0, e1, e2, e3, e4, e5⟩ := idx_facts3 t
  show i ∈ ((View.whole main_v76).slice (win3_2.rect t)).set
  rw [View.set_slice_whole, Rect.mem_set_unit]
  intro a
  match a with
  | ⟨0, _⟩ =>
    show win3_2.index t (0 : Fin 2) * 64 ≤ (i 0).val ∧ (i 0).val < win3_2.index t (0 : Fin 2) * 64 + 64
    have := idx2_lt0 i
    omega
  | ⟨1, _⟩ =>
    show win3_2.index t (1 : Fin 2) * 128 ≤ (i 1).val ∧ (i 1).val < win3_2.index t (1 : Fin 2) * 128 + 128
    have := idx2_lt1 i
    omega

/-- The output's block at any point is the whole array: what the write-back moves is all the buffer holds, and the block of
    an array read back is the array. -/
theorem out_blk (t : Fin cfg3.N) (G : Vec Ideal S64x128 .f32) :
    (cfg3.win 2).cut (grid3.coords t) G = ((cfg3.win 2).blk t).view.read (Elt Ideal) G := by
  obtain ⟨e0, e1, e2, e3, e4, e5⟩ := idx_facts3 t
  funext j
  show G j = G (((cfg3.win 2).blk t).view.emb j)
  refine congrArg G (funext fun a => Fin.ext ?_)
  match a with
  | ⟨0, _⟩ => show (j 0).val = win3_2.index t (0 : Fin 2) * 64 + 1 * (j 0).val; rw [e4]; omega
  | ⟨1, _⟩ => show (j 1).val = win3_2.index t (1 : Fin 2) * 128 + 1 * (j 1).val; rw [e5]; omega

/-- The output array ends holding what the last point stored: the quotient of the accumulators after point 9. -/
theorem arr_eq : ((dat3 V c).arrAt 2 cfg3.N : (⟨S64x128, .f32⟩ : BufTy).Contents (Elt Ideal)) = out3 V c ⟨9, h9⟩ := by
  refine (dat3 V c).arrAt_eq_of_cover 2 (out3 V c ⟨9, h9⟩) (fun t hf => ?_)
    (fun i => ⟨⟨9, h9⟩, (flush3_2 ⟨9, h9⟩).mpr rfl, mem_out ⟨9, h9⟩ i⟩)
  have ht := flush_last t hf
  have e : (dat3 V c).after 2 t = out3 V c ⟨9, h9⟩ := by rw [after3_2, ht]
  show (cfg3.win 2).cut (grid3.coords t) ((dat3 V c).after 2 t) = _
  rw [e]
  exact out_blk t _

end PoolK

open PoolK

theorem pool_kernel (V : (c : Dev nD) → (b : Ref sig .tc) → Buf (Elt Ideal) ((c : Thread nD τ).loc b)) (c : Dev nD) (g : Fin 64) (o : Fin 128) :
    ((dat3 V c).arrAt 2 cfg3.N : (⟨S64x128, .f32⟩ : BufTy).Contents (Elt Ideal)) (ValueIdx.ix2 g o)
      = poolSpec (fun n o => (V c main_v74 : (⟨S50000x128, .f32⟩ : BufTy).Contents (Elt Ideal)) (ValueIdx.ix2 n o))
          (fun n => (V c main_v75 : (⟨S50000x1, .i32⟩ : BufTy).Contents (Elt Ideal)) (ValueIdx.ix2 n 0)) g o := by
  refine (congrFun (arr_eq V c) (ix2 g o)).trans ?_
  obtain ⟨h1, h2⟩ := acc_apply V c g o 9 h9
  have hq : out3 V c ⟨9, h9⟩ (ix2 g o)
      = Ideal.div ((acc3 V c 9 h9).1 (ix2 g o)) (max ((acc3 V c 9 h9).2 (ix2 g o)) 1) := quot_apply _ _ _
  rw [hq, h1, h2]
  unfold blkS blkN
  rw [sum_all (termS V c g o), sum_all (termN V c g)]
  unfold poolSpec termS termN
  with_reducible rfl

end Cert.KernelIdeal.Val

end
-- ==== Proof.LibGatherScatter.lean ====
/-
  How a gather and a float scatter-add read AT ONE INDEX, for four dimension-number records:
  a gather of table rows and a gather of vector entries by a column of start words, and the scatter-adds that send
  update rows, or update entries, back to the rows those words name.

  A gather reads its start word SIGNED and CLAMPS it into the table: a negative word reads row 0, a word past the end
  reads the last row. A scatter-add reads the word signed and does NOT clamp: an update whose word is outside the table
  is dropped, so operand entry i receives exactly the updates whose word, as an integer, equals i.

  Every statement is for an arbitrary record whose fields are given as hypotheses, so that it applies to any record
  with those fields, at arbitrary extents.
-/
import Idealize.ShloMosaic.PureOps.Ideal
import Idealize.ShloMosaic.Lib.ValueIdx
import Idealize.ShloMosaic.Lib.StableHlo.Predicate

noncomputable section

open scoped BigOperators

namespace Cert.LibGS

open Idealize.ShloMosaic Idealize.ShloMosaic.ValueIdx

/-- The shape of an array of N rows and C columns. -/
abbrev Sh (N C : Nat) : Shape := ⟨2, ![N, C]⟩

/-- An N × C array of extended reals. -/
abbrev RArr (N C : Nat) : Type := (Sh N C).Idx → EReal

/-- The table row a start word names: the word read signed, clamped into the N rows. -/
def rowOf (N : Nat) (hN : 0 < N) (w : BitVec 32) : Fin N := ⟨min w.toInt.toNat (N - 1), by omega⟩

/-! ## The row gather: one table row per start word -/

section GatherRows

variable {N n C : Nat} (d : GatherDims (Sh N C) (Sh n 1) (Sh n C))

/-- An index of the result read on an axis known to be the first gives the row coordinate. -/
theorem ix2_val_zero {a b : Nat} (e : Fin a) (c : Fin b) (X : Fin 2) (h : X = 0) : (ix2 e c X).val = e.val := by
  subst h; rfl

/-- An index of the result read on an axis known to be the second gives the column coordinate. -/
theorem ix2_val_one {a b : Nat} (e : Fin a) (c : Fin b) (X : Fin 2) (h : X = 1) : (ix2 e c X).val = c.val := by
  subst h; rfl

/-- When the second axis is the one offset axis, the result's batch axes are the first alone. -/
theorem rows_batch_mem (hoff : d.offsetDims = [1]) (X : Fin (Sh n C).rank) (hX : X ∈ d.batchDims) : X = (0 : Fin 2) := by
  have h1 : X ∉ d.offsetDims := by
    have := (List.mem_filter.1 hX).2
    simpa using this
  rw [hoff] at h1
  match X with
  | ⟨0, _⟩ => rfl
  | ⟨1, _⟩ => exact absurd (List.mem_singleton.mpr rfl) h1

/-- The start word a result entry (e, c) reads is the one in row e of the index column. -/
theorem rows_siIdx (hoff : d.offsetDims = [1]) (hsim : d.startIndexMap = [0]) (hivd : d.indexVectorDim = 1)
    (e : Fin n) (c : Fin C) (k : Fin d.startIndexMap.length) : d.siIdx (ix2 e c) k = ix2 e 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact ix2_val_zero e c _ (rows_batch_mem d hoff _ (List.getElem_mem _))
  | ⟨1, _⟩ =>
    unfold GatherDims.siIdx
    rw [dif_pos (by rw [hivd])]
    apply Fin.ext
    have hlen : d.startIndexMap.length = 1 := by rw [hsim]; rfl
    have hk : k.val < d.startIndexMap.length := k.isLt
    show k.val = 0
    omega

end GatherRows

section GatherRows2
variable {N n C : Nat} (d : GatherDims (Sh N C) (Sh n 1) (Sh n C))

/-- On the table's row axis the operand index is the start word, read signed and clamped into the table. -/
theorem rows_operand_zero (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (idx : IVec (Sh n 1) 32) (e : Fin n) (c : Fin C) :
    (d.operandIdx (ix2 e c) idx (0 : Fin 2)).val = (rowOf N hN (idx (ix2 e 0))).val := by
  have hb : (0 : Fin 2) ∉ d.operandBatchingDims := by rw [hob]; exact List.not_mem_nil
  have hk : (0 : Fin 2) ∉ d.sKept := by rw [GatherDims.mem_sKept, hcoll]; simp
  have hm : (0 : Fin 2) ∈ d.startIndexMap := by rw [hsim]; exact List.mem_singleton.mpr rfl
  have hsl : d.sliceSizes (0 : Fin 2) = 1 := by rw [hss]; rfl
  simp only [GatherDims.operandIdx, GatherDims.batchCoord_eq_zero _ _ _ hb, GatherDims.offCoord_eq_zero _ _ _ hk,
    Nat.add_zero, GatherDims.start, dif_pos hm, hsl, rows_siIdx d hoff hsim hivd]
  rfl

/-- On the table's column axis the operand index is the result's column. -/
theorem rows_operand_one (hoff : d.offsetDims = [1]) (hcoll : d.collapsedSliceDims = [0])
    (hob : d.operandBatchingDims = []) (hsim : d.startIndexMap = [0])
    (idx : IVec (Sh n 1) 32) (e : Fin n) (c : Fin C) :
    (d.operandIdx (ix2 e c) idx (1 : Fin 2)).val = c.val := by
  have hb : (1 : Fin 2) ∉ d.operandBatchingDims := by rw [hob]; exact List.not_mem_nil
  have hm : (1 : Fin 2) ∉ d.startIndexMap := by rw [hsim]; show (1 : Fin 2) ∉ [(0 : Fin 2)]; decide
  have hk : (1 : Fin 2) ∈ d.sKept := by rw [GatherDims.mem_sKept, hcoll, hob]; show (1 : Fin 2) ∉ [(0 : Fin 2)] ∧ (1 : Fin 2) ∉ []; decide
  have hall : ∀ X ∈ d.offsetDims, X = (1 : Fin 2) := by rw [hoff]; simp
  simp only [GatherDims.operandIdx, GatherDims.batchCoord_eq_zero _ _ _ hb, GatherDims.start, dif_neg hm,
    GatherDims.offCoord, dif_pos hk, Nat.zero_add, Nat.add_zero]
  exact ix2_val_one e c _ (hall _ (List.getElem_mem _))

/-- THE ROW GATHER AT ONE ENTRY: entry (e, c) of the result is column c of the table row that start word e names. -/
theorem gather_rows_gen {α : Type} (hN : 0 < N) (hoff : d.offsetDims = [1]) (hcoll : d.collapsedSliceDims = [0])
    (hob : d.operandBatchingDims = []) (hsim : d.startIndexMap = [0]) (hivd : d.indexVectorDim = 1)
    (hss : d.sliceSizes = ![1, C]) (t : (Sh N C).Idx → α) (idx : IVec (Sh n 1) 32) (e : Fin n) (c : Fin C) :
    Host.gather d t idx (ix2 e c) = t (ix2 (rowOf N hN (idx (ix2 e 0))) c) := by
  unfold Host.gather
  congr 1
  funext a
  refine Fin.ext ?_
  match a with
  | ⟨0, _⟩ => exact rows_operand_zero d hN hoff hcoll hob hsim hivd hss idx e c
  | ⟨1, _⟩ => exact rows_operand_one d hoff hcoll hob hsim idx e c

end GatherRows2

/-! ## The vector gather: one entry per start word -/

/-- The rank-1 index at a coordinate, written in two ways. -/
theorem ix1_eq_ofFin {n : Nat} (e : Fin n) : ix1 e = Shape.Idx.ofFin e := by
  funext a
  match a with
  | ⟨0, _⟩ => exact Fin.ext rfl

/-- Row e of an index column, written in two ways. -/
theorem ixP_eq_ix2 {n : Nat} (e : Fin n) : StableHlo.Predicate.ixP e = ix2 e (0 : Fin 1) := by
  funext a
  match a with
  | ⟨0, _⟩ => rfl
  | ⟨1, _⟩ => rfl

/-- THE VECTOR GATHER AT ONE ENTRY: entry e of the result is the vector's entry that start word e names. -/
theorem gather_vec_gen {α : Type} {N n : Nat} (hN : 0 < N) (d : GatherDims ⟨1, ![N]⟩ (Sh n 1) ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec (Sh n 1) 32) (e : Fin n) :
    Host.gather d x idx (ix1 e) = x (ix1 (rowOf N hN (idx (ix2 e 0)))) := by
  rw [ix1_eq_ofFin, ix1_eq_ofFin, StableHlo.Predicate.gather_take d hcoll hob hsim hivd x idx e hN]
  refine congrArg x (congrArg Shape.Idx.ofFin (Fin.ext ?_))
  show min (idx (StableHlo.Predicate.ixP e)).toInt.toNat (N - 1) = min (idx (ix2 e 0)).toInt.toNat (N - 1)
  rw [ixP_eq_ix2]

/-! ## The row scatter-add -/

/-- An index read on two names of one axis gives one coordinate. -/
theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

/-- When the second axis is the one window axis, the updates' scatter axes are the first alone. -/
theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

/-- The start word an update entry j reads is the one in j's row of the index column. -/
theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the row axis is the start word read signed. -/
theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

/-- The window's start on the column axis is zero. -/
theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

/-- The window coordinate on the row axis, an inserted one, is zero. -/
theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

/-- The window coordinate on the column axis is the update's column. -/
theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

/-- WHERE AN UPDATE LANDS. Update entry j lands on operand entry t exactly when j's start word, read signed, is t's row
    and j's column is t's column. -/
theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- THE ROW SCATTER-ADD AT ONE ENTRY: entry (i, c) of the result is the operand's entry plus column c of every update
    row whose start word, read signed, is i. (A word outside the table matches no i: its row is dropped.) -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

/-! ## The vector scatter-add -/

section ScatterVec
variable {N n : Nat} (d : ScatterDims ⟨1, ![N]⟩ (Sh n 1) ⟨1, ![n]⟩)

/-- The start word update entry j reads is the one in row j of the index column (the updates have one axis). -/
theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

/-- The window's start on the vector's one axis is the start word read signed. -/
theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

/-- The window coordinate on the vector's one axis, an inserted one, is zero. -/
theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

/-- WHERE AN UPDATE LANDS. Update entry j lands on operand entry t exactly when j's start word, read signed, is t. -/
theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- THE VECTOR SCATTER-ADD AT ONE ENTRY: entry i of the result is the operand's entry plus every update entry whose
    start word, read signed, is i. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.Val.P3R.lean ====
/-
  The reference's pooling at the ideal instance: its result stage at graph g and feature o is the pooled mean of its node
  embeddings over the graph ids. A scatter-add into zeros adds, at an element, the updates whose index lands on it: the rows
  whose id, read signed, is g; an id outside [0, 64) lands nowhere. For ids in that range reading the word signed and
  comparing it with the word of g are the same test.
-/
import proofs.«419563_j70007966925389_1_alg».proof.Proof.KI.Defs
import proofs.«419563_j70007966925389_1_alg».proof.Proof.Val.RefGen
import proofs.«419563_j70007966925389_1_alg».proof.Proof.Val.PoolSpec
import proofs.«419563_j70007966925389_1_alg».proof.Proof.LibGatherScatter
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand

open Idealize.ShloMosaic.ValueIdx Cert.ReferenceIdeal.Read

/-- For a graph number below 64, a 32-bit word read as a signed integer is that number exactly when it is the number's word. -/
theorem toInt_eq_iff_word (w : BitVec 32) (g : Fin 64) : w.toInt = (g.val : ℤ) ↔ w = BitVec.ofNat 32 g.val := by
  have hg := g.isLt
  have hw := w.isLt
  rw [← BitVec.toNat_inj, BitVec.toNat_ofNat, BitVec.toInt_eq_toNat_cond]
  split <;> omega

/-- Row n of the column of ids is the n-th id. -/
theorem ids_col (x2 : (⟨S50000, .i32⟩ : BufTy).Contents (Elt Ideal)) (n : Fin 50000) :
    val_main_v112 (F := Ideal) x2 (ix2 n 0) = x2 (ix1 n) := by
  rw [val_main_v112_apply]
  congr 1
  funext a
  match a with
  | ⟨0, _⟩ => rfl

/-- The same column, as the count's scatter-add reads it. -/
theorem ids_col' (x2 : (⟨S50000, .i32⟩ : BufTy).Contents (Elt Ideal)) (n : Fin 50000) :
    val_main_v116 (F := Ideal) x2 (ix2 n 0) = x2 (ix1 n) := by
  rw [val_main_v116_apply]
  congr 1
  funext a
  match a with
  | ⟨0, _⟩ => rfl

/-- THE SUM. Scattering the rows of any 50000 × 128 array y into 64 × 128 zeros by the ids leaves, at graph g and feature o,
    the sum over all nodes of the node's entry o where the node's id is g's word, and of 0 elsewhere. -/
theorem scatter_sum (x2 : (⟨S50000, .i32⟩ : BufTy).Contents (Elt Ideal)) (y : (⟨S50000x128, .f32⟩ : BufTy).Contents (Elt Ideal))
    (g : Fin 64) (o : Fin 128) :
    Host.scatterAdd (F := Ideal) (φ := .f32) Cert.ReferenceIdeal.scatter_S64x128_S50000x1_S50000x128_1_0_0_1 (val_main_v111 (F := Ideal)) (val_main_v112 (F := Ideal) x2) y (ix2 g o)
      = ∑ n : Fin 50000, if x2 (ix1 n) = BitVec.ofNat 32 g.val then y (ix2 n o) else 0 := by
  show Ideal.hostScatterAdd Cert.ReferenceIdeal.scatter_S64x128_S50000x1_S50000x128_1_0_0_1 (val_main_v111 (F := Ideal)) (val_main_v112 (F := Ideal) x2) y (ix2 g o) = _
  rw [Cert.LibGS.scatterAdd_rows_gen Cert.ReferenceIdeal.scatter_S64x128_S50000x1_S50000x128_1_0_0_1 rfl rfl rfl rfl]
  rw [val_main_v111_apply, val_main_cst_18_apply, Ideal.ofBits_def, Ideal.ofBits_zero_f32, zero_add, Finset.sum_filter]
  refine Finset.sum_congr rfl fun n _ => ?_
  rw [ids_col x2 n]
  by_cases h : x2 (ix1 n) = BitVec.ofNat 32 g.val
  · rw [if_pos h, if_pos ((toInt_eq_iff_word _ g).2 h)]
  · rw [if_neg h, if_neg (fun h' => h ((toInt_eq_iff_word _ g).1 h'))]

/-- THE COUNT. Scattering 50000 ones into 64 zeros by the ids leaves, at graph g, the number of nodes whose id is g's word. -/
theorem scatter_count (x2 : (⟨S50000, .i32⟩ : BufTy).Contents (Elt Ideal)) (g : Fin 64) :
    val_main_v117 (F := Ideal) x2 (ix1 g) = ∑ n : Fin 50000, if x2 (ix1 n) = BitVec.ofNat 32 g.val then (1 : EReal) else 0 := by
  show Ideal.hostScatterAdd Cert.ReferenceIdeal.scatter_S64_S50000x1_S50000_n_0_0_1 (val_main_v115 (F := Ideal)) (val_main_v116 (F := Ideal) x2) (val_main_v114 (F := Ideal)) (ix1 g) = _
  rw [Cert.LibGS.scatterAdd_vec_gen Cert.ReferenceIdeal.scatter_S64_S50000x1_S50000_n_0_0_1 rfl rfl rfl]
  rw [val_main_v115_apply, val_main_cst_20_apply, Ideal.ofBits_def, Ideal.ofBits_zero_f32, zero_add, Finset.sum_filter]
  refine Finset.sum_congr rfl fun n _ => ?_
  rw [ids_col' x2 n, val_main_v114_apply, val_main_cst_19_apply, Ideal.ofBits_def, Ideal.ofBits_one_f32]
  by_cases h : x2 (ix1 n) = BitVec.ofNat 32 g.val
  · rw [if_pos h, if_pos ((toInt_eq_iff_word _ g).2 h)]
  · rw [if_neg h, if_neg (fun h' => h ((toInt_eq_iff_word _ g).1 h'))]

/-- THE DIVISOR at graph g and any feature: the larger of the count and one. -/
theorem divisor (x2 : (⟨S50000, .i32⟩ : BufTy).Contents (Elt Ideal)) (g : Fin 64) (o : Fin 128) :
    val_main_v121 (F := Ideal) x2 (ix2 g o)
      = max (∑ n : Fin 50000, if x2 (ix1 n) = BitVec.ofNat 32 g.val then (1 : EReal) else 0) 1 := by
  rw [val_main_v121_apply, val_main_v120_apply]
  rw [show idx_main_v120 (idx_main_v121 (ix2 g o)) = ix1 g from by
    funext a
    match a with
    | ⟨0, _⟩ => rfl]
  rw [val_main_v119_apply, Ideal.maximumf_def, scatter_count, val_main_v118_apply, val_main_cst_21_apply, Ideal.ofBits_def,
    Ideal.ofBits_one_f32]

theorem pool_reference
    (x0 : (⟨S50000x128, .f32⟩ : BufTy).Contents (Elt Ideal)) (x1 : (⟨S2x625000, .i32⟩ : BufTy).Contents (Elt Ideal)) (x2 : (⟨S50000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 : (⟨S64x128, .f32⟩ : BufTy).Contents (Elt Ideal)) (x11 : (⟨S128, .f32⟩ : BufTy).Contents (Elt Ideal)) (x12 x13 x14 x15 x16 x17 x18 x19 : (⟨S64, .f32⟩ : BufTy).Contents (Elt Ideal))
    (g : Fin 64) (o : Fin 128) :
    Cert.ReferenceIdeal.Read.val_main_v122 (F := Ideal) x0 x1 x2 x3 x4 x5 x6 x7 x8 x9 x10 x11 x12 x13 x14 x15 x16 x17 x18 x19 (ValueIdx.ix2 g o)
      = poolSpec (fun n o => Cert.ReferenceIdeal.Read.val_main_v110 (F := Ideal) x0 x1 x3 x4 x5 x6 x7 x8 x9 x10 x11 x12 x13 x14 x15 x16 x17 x18 x19 (ValueIdx.ix2 n o))
          (fun n => x2 (ValueIdx.ix1 n)) g o := by
  rw [val_main_v122_apply, Ideal.hostDivf_def, divisor]
  unfold val_main_v113
  rw [scatter_sum]
  rfl

end Cert.KernelIdeal.Val

end
-- ==== Proof.Val.P3.lean ====
/-
  The pooling at the ideal instance: entered with the reference's node embeddings and the graph id of every node, region 3
  leaves in its output array the reference's result. Both sides are the pooled mean (sum over the nodes of a graph divided by
  max(count, 1)) of the same embeddings over the same ids: the region's one-hot products accumulated over ten blocks of
  nodes on one side, the reference's scatter-add and quotient on the other.
-/
import proofs.«419563_j70007966925389_1_alg».proof.Proof.KI.Defs
import proofs.«419563_j70007966925389_1_alg».proof.Proof.Val.RefGen
import proofs.«419563_j70007966925389_1_alg».proof.Proof.Val.P3K
import proofs.«419563_j70007966925389_1_alg».proof.Proof.Val.P3R
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand

theorem pool (V : (c : Dev nD) → (b : Ref sig .tc) → Buf (Elt Ideal) ((c : Thread nD τ).loc b)) (c : Dev nD)
    (x0 : (⟨S50000x128, .f32⟩ : BufTy).Contents (Elt Ideal)) (x1 : (⟨S2x625000, .i32⟩ : BufTy).Contents (Elt Ideal)) (x2 : (⟨S50000, .i32⟩ : BufTy).Contents (Elt Ideal)) (x3 x4 : (⟨S128x64, .f32⟩ : BufTy).Contents (Elt Ideal)) (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 : (⟨S64x128, .f32⟩ : BufTy).Contents (Elt Ideal)) (x11 : (⟨S128, .f32⟩ : BufTy).Contents (Elt Ideal)) (x12 x13 x14 x15 x16 x17 x18 x19 : (⟨S64, .f32⟩ : BufTy).Contents (Elt Ideal))
    (hh : (V c main_v74 : (⟨S50000x128, .f32⟩ : BufTy).Contents (Elt Ideal)) = Cert.ReferenceIdeal.Read.val_main_v110 (F := Ideal) x0 x1 x3 x4 x5 x6 x7 x8 x9 x10 x11 x12 x13 x14 x15 x16 x17 x18 x19)
    (hbatch : ∀ n : Fin 50000, (V c main_v75 : (⟨S50000x1, .i32⟩ : BufTy).Contents (Elt Ideal)) (ValueIdx.ix2 n 0) = x2 (ValueIdx.ix1 n)) :
    ((dat3 V c).arrAt 2 cfg3.N : (⟨S64x128, .f32⟩ : BufTy).Contents (Elt Ideal)) = Cert.ReferenceIdeal.Read.val_main_v122 (F := Ideal) x0 x1 x2 x3 x4 x5 x6 x7 x8 x9 x10 x11 x12 x13 x14 x15 x16 x17 x18 x19 := by
  funext i
  obtain ⟨g, o, rfl⟩ : ∃ (g : Fin 64) (o : Fin 128), i = ValueIdx.ix2 g o := ⟨i 0, i 1, ValueIdx.eq_ix2 i⟩
  have e1 : (fun (n : Fin 50000) (o : Fin 128) => (V c main_v74 : (⟨S50000x128, .f32⟩ : BufTy).Contents (Elt Ideal)) (ValueIdx.ix2 n o))
      = fun n o => Cert.ReferenceIdeal.Read.val_main_v110 (F := Ideal) x0 x1 x3 x4 x5 x6 x7 x8 x9 x10 x11 x12 x13 x14 x15 x16 x17 x18 x19 (ValueIdx.ix2 n o) := by rw [hh]
  have e2 : (fun (n : Fin 50000) => (V c main_v75 : (⟨S50000x1, .i32⟩ : BufTy).Contents (Elt Ideal)) (ValueIdx.ix2 n 0)) = fun n => x2 (ValueIdx.ix1 n) :=
    funext hbatch
  rw [pool_kernel V c g o, pool_reference x0 x1 x2 x3 x4 x5 x6 x7 x8 x9 x10 x11 x12 x13 x14 x15 x16 x17 x18 x19 g o, e1, e2]

end Cert.KernelIdeal.Val

end
-- ==== Proof.Val.Chain.lean ====
/-
  The kernel program's result at the ideal instance, in the reference's own terms. Region 0 is entered with the reference's
  first neighbour mean (the host stretch before it is the reference's aggregation) and leaves the reference's first hidden
  layer; the next stretch turns that into the reference's second mean, region 1 into the second hidden layer; likewise the
  third; region 3 pools the embeddings as the reference's scatter-add and quotient do. So the result buffer ends at the
  reference's result stage of the launch memory's arguments.
-/
import proofs.«419563_j70007966925389_1_alg».proof.Proof.KI.Defs
import proofs.«419563_j70007966925389_1_alg».proof.Proof.Val.RefGen
import proofs.«419563_j70007966925389_1_alg».proof.Proof.KI.Frame
import proofs.«419563_j70007966925389_1_alg».proof.Proof.Val.Host
import proofs.«419563_j70007966925389_1_alg».proof.Proof.Val.L0
import proofs.«419563_j70007966925389_1_alg».proof.Proof.Val.L1
import proofs.«419563_j70007966925389_1_alg».proof.Proof.Val.L2
import proofs.«419563_j70007966925389_1_alg».proof.Proof.Val.P3
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe
open Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg) (c : Dev nD)

/-- After region 0 its output array holds the reference's first hidden layer. -/
theorem hidden1 : (V2 m ρ c main_v28 : (⟨S50000x64, .f32⟩ : BufTy).Contents (Elt Ideal)) = Cert.ReferenceIdeal.Read.val_main_v44 (F := Ideal) (a0 m c) (a1 m c) (a3 m c) (a4 m c) (a5 m c) (a12 m c) (a13 m c) (a14 m c) (a15 m c) :=
  (hF0 m ρ c 9).symm.trans (layer0 (V1 m ρ) c _ _ _ _ _ _ _ _ _ (host0_mean m ρ c) (host0_x m ρ c) (host0_wl m ρ c) (host0_wr m ρ c)
    (host0_b m ρ c) (host0_g m ρ c) (host0_be m ρ c) (host0_mu m ρ c) (host0_var m ρ c))

/-- After region 1 its output array holds the reference's second hidden layer. -/
theorem hidden2 : (V4 m ρ c main_v53 : (⟨S50000x64, .f32⟩ : BufTy).Contents (Elt Ideal)) = Cert.ReferenceIdeal.Read.val_main_v85 (F := Ideal) (a0 m c) (a1 m c) (a3 m c) (a4 m c) (a5 m c) (a6 m c) (a7 m c) (a8 m c) (a12 m c) (a13 m c) (a14 m c) (a15 m c) (a16 m c) (a17 m c) (a18 m c) (a19 m c) :=
  (hF1 m ρ c 9).symm.trans (layer1 (V3 m ρ) c _ _ _ _ _ _ _ _ _ _ _ _ _ _ _ _ (host1_mean m ρ c (hidden1 m ρ c))
    ((host1_x m ρ c).trans (hidden1 m ρ c)) (host1_wl m ρ c) (host1_wr m ρ c)
    (host1_b m ρ c) (host1_g m ρ c) (host1_be m ρ c) (host1_mu m ρ c) (host1_var m ρ c))

/-- After region 2 its output array holds the reference's node embeddings. -/
theorem embeddings : (V6 m ρ c main_v74 : (⟨S50000x128, .f32⟩ : BufTy).Contents (Elt Ideal)) = Cert.ReferenceIdeal.Read.val_main_v110 (F := Ideal) (a0 m c) (a1 m c) (a3 m c) (a4 m c) (a5 m c) (a6 m c) (a7 m c) (a8 m c) (a9 m c) (a10 m c) (a11 m c) (a12 m c) (a13 m c) (a14 m c) (a15 m c) (a16 m c) (a17 m c) (a18 m c) (a19 m c) :=
  (hF2 m ρ c 5).symm.trans (layer2 (V5 m ρ) c _ _ _ _ _ _ _ _ _ _ _ _ _ _ _ _ _ _ _ (host2_mean m ρ c (hidden2 m ρ c))
    ((host2_x m ρ c).trans (hidden2 m ρ c)) (host2_wl m ρ c) (host2_wr m ρ c) (host2_b m ρ c))

/-- Region 3's output array, as its one write-back leaves it, is the reference's result. -/
theorem pooled : ((dat3 (V7 m ρ) c).arrAt 2 cfg3.N : (⟨S64x128, .f32⟩ : BufTy).Contents (Elt Ideal)) = Cert.ReferenceIdeal.Read.val_main_v122 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) :=
  pool (V7 m ρ) c _ _ _ _ _ _ _ _ _ _ _ _ _ _ _ _ _ _ _ _ ((host3_x m ρ c).trans (embeddings m ρ c)) (host3_batch m ρ c)

/-! ## The kernel program's run with its result named in the reference's terms -/

/-- Every weakly fair execution of the idealized kernel program terminates without a fault, with the result buffer at the
    reference's result stage of the launch arguments and every argument as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76) = Cert.ReferenceIdeal.Read.val_main_v122 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun _ h c => ⟨(h c).1.trans (pooled m ρ c), (h c).2⟩) (run_named m ρ)

end Cert.KernelIdeal.Val

end
-- ==== Proof.lean ====
/-
  A three-layer GraphSAGE encoder over 50000 nodes followed by a mean over each of 64 graphs: the kernel program computes
  each layer's affine map, batch norm and ReLU in a tiled kernel region (ten blocks of 5000 rows) and the pooling as a
  one-hot product accumulated over the ten blocks; the neighbour aggregation before each layer is the reference's own host
  operations. The three frames: each program terminates without a fault and leaves its arguments as launched (the kernel
  program's at both float instances from one argument, generic in the instance). The idealization rewrote nothing, so
  `preserves` is trivial. At the ideal instance the kernel program's result buffer ends at the reference's result stage of
  the arguments: layer by layer each region leaves the reference's next stage (a row's entry is the same finite sum of
  products on both sides, a matrix product into a zero accumulator being that sum), and the pooled sum over the nodes of a
  graph is the one-hot sum because 0·x = 0 and 1·x = x for every extended real x. No finiteness of the inputs is used.
-/
import proofs.«419563_j70007966925389_1_alg».proof.Defs
import proofs.«419563_j70007966925389_1_alg».proof.Proof.Gen.Kernel
import proofs.«419563_j70007966925389_1_alg».proof.Proof.Gen.KernelIdeal
import proofs.«419563_j70007966925389_1_alg».proof.Proof.Gen.ReferenceIdeal
import proofs.«419563_j70007966925389_1_alg».proof.Proof.Gen.Pre_finite_inputs
import proofs.«419563_j70007966925389_1_alg».proof.Proof.K.Frame
import proofs.«419563_j70007966925389_1_alg».proof.Proof.KI.Frame
import proofs.«419563_j70007966925389_1_alg».proof.Proof.Val.Chain
import Idealize.ShloMosaic.Adequacy
import Idealize.ShloMosaic.Init

noncomputable section

namespace Cert.Proof

open Idealize.ShloMosaic Idealize.SL.Sem

/-- The word-level kernel program terminates without a fault and leaves its arguments as launched. -/
theorem frame_p : Cert.frame_Kernel := fun m ρ _ => Cert.Kernel.Hand.frame m ρ

/-- So does the idealized kernel program: the same argument at the ideal instance. -/
theorem frame_pi : Cert.frame_KernelIdeal := fun m ρ _ => Cert.KernelIdeal.Hand.frame m ρ

/-- The reference is host operations only: its run names its result and keeps its arguments; the frame is the second half. -/
theorem frame_ri : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the arguments both idealized programs end with the same result array: the reference's result
    stage of the arguments. -/
theorem algebraic : Cert.algebraic_KernelIdeal_ReferenceIdeal := by
  intro m ρ m' ρ' _ hagree
  refine ⟨fun c => Cert.ReferenceIdeal.Read.val_main_v122 (F := Ideal) (Cert.KernelIdeal.Val.a0 m c) (Cert.KernelIdeal.Val.a1 m c) (Cert.KernelIdeal.Val.a2 m c) (Cert.KernelIdeal.Val.a3 m c) (Cert.KernelIdeal.Val.a4 m c) (Cert.KernelIdeal.Val.a5 m c) (Cert.KernelIdeal.Val.a6 m c) (Cert.KernelIdeal.Val.a7 m c) (Cert.KernelIdeal.Val.a8 m c) (Cert.KernelIdeal.Val.a9 m c) (Cert.KernelIdeal.Val.a10 m c) (Cert.KernelIdeal.Val.a11 m c) (Cert.KernelIdeal.Val.a12 m c) (Cert.KernelIdeal.Val.a13 m c) (Cert.KernelIdeal.Val.a14 m c) (Cert.KernelIdeal.Val.a15 m c) (Cert.KernelIdeal.Val.a16 m c) (Cert.KernelIdeal.Val.a17 m c) (Cert.KernelIdeal.Val.a18 m c) (Cert.KernelIdeal.Val.a19 m c),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19⟩ := hagree c
  rw [Cert.ReferenceIdeal.Read.val_main_v122_eq, h0, h1, h2, h3, h4, h5, h6, h7, h8, h9, h10, h11, h12, h13, h14, h15, h16, h17, h18, h19]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
